-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S704512 : Shape := ⟨1, ![704512]⟩
abbrev S2752 : Shape := ⟨1, ![2752]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2752 : S_.BroadcastsInDim S2752 (![] : Fin 0 → Fin S2752.rank)
  reducesTo_S2752_S_d0 : S2752.ReducesTo [0] S_
  bcast_S_S1 : S_.BroadcastsInDim S1 (![] : Fin 0 → Fin S1.rank)
  reducesTo_S1_S_d0 : S1.ReducesTo [0] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg1 : IVec S11008x4096 32) (main_v13 : IVec S_ 1) (main_v15 : IVec S11008x4096 1) (main_c_5 : IVec S_ 32) : IVec S_ 1 :=
  let main_v16 : IVec S11008x4096 32 := broadcastInDim S11008x4096 ![] bcast_S_S11008x4096 main_c_5
  let main_v17 : IVec S11008x4096 1 := cmpi .slt main_arg1 main_v16
  let main_v18 : IVec S11008x4096 1 := andi main_v15 main_v17
  let main_c_6 : IVec S_ 1 := constantI S_ 1 1#1
  let main_v19 : IVec S_ 1 := (fun x v => Host.reduce IntOp.andi x v reducesTo_S11008x4096_S_d0_1 h_S_) main_v18 main_c_6
  let main_v20 : IVec S_ 1 := andi main_v13 main_v19
  main_v20

def fn {F : FTy → Type} [FloatOps F] (main_arg0 : FVec F S4x2048x4096 .f32) (main_arg1 : IVec S11008x4096 32) (main_arg2 : IVec S704512 32) (main_arg3 : FVec F S2752 .f32) (main_arg4 : FVec F S1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2752 .f32 := Host.absf main_arg3
  let main_cst_0 : FVec F S_ .f32 := constant S_ .f32 0x7F800000#32
  let main_v5 : FVec F S2752 .f32 := broadcastInDim S2752 ![] bcast_S_S2752 main_cst_0
  let main_v6 : IVec S2752 1 := cmpf .olt main_v4 main_v5
  let main_c_1 : IVec S_ 1 := constantI S_ 1 1#1
  let main_v7 : IVec S_ 1 := (fun x v => Host.reduce IntOp.andi x v reducesTo_S2752_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 4294967280#32
  let main_v14 : IVec S11008x4096 32 := broadcastInDim S11008x4096 ![] bcast_S_S11008x4096 main_c_4
  let main_v15 : IVec S11008x4096 1 := cmpi .sge main_arg1 main_v14
  let main_c_5 : IVec S_ 32 := constantI S_ 32 16#32
  fn_part1 (F := F) main_arg1 main_v13 main_v15 main_c_5
-- ==== Kernel.lean ====
abbrev S4x2048x4096 : Shape := ⟨3, ![4, 2048, 4096]⟩
abbrev S11008x4096 : Shape := ⟨2, ![11008, 4096]⟩
abbrev S704512 : Shape := ⟨1, ![704512]⟩
abbrev S2752 : Shape := ⟨1, ![2752]⟩
abbrev S1 : Shape := ⟨1, ![1]⟩
abbrev S8192x4096 : Shape := ⟨2, ![8192, 4096]⟩
abbrev S2752x256 : Shape := ⟨2, ![2752, 256]⟩
abbrev S_ : Shape := ⟨0, ![]⟩
abbrev S11008x64 : Shape := ⟨2, ![11008, 64]⟩
abbrev S256x4096 : Shape := ⟨2, ![256, 4096]⟩
abbrev S256x64 : Shape := ⟨2, ![256, 64]⟩
abbrev S256x64x1 : Shape := ⟨3, ![256, 64, 1]⟩
abbrev S256x64x64 : Shape := ⟨3, ![256, 64, 64]⟩
abbrev S256x512 : Shape := ⟨2, ![256, 512]⟩
abbrev S8192x11008 : Shape := ⟨2, ![8192, 11008]⟩
abbrev S2048x256 : Shape := ⟨2, ![2048, 256]⟩
abbrev S2048x2048 : Shape := ⟨2, ![2048, 2048]⟩
abbrev S4x2048x11008 : Shape := ⟨3, ![4, 2048, 11008]⟩

abbrev nBuf : Space → Nat
  | .hbm => 18
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S704512, .i32⟩
  | .hbm, ⟨3, _⟩ => ⟨S2752, .f32⟩
  | .hbm, ⟨4, _⟩ => ⟨S1, .f32⟩
  | .hbm, ⟨5, _⟩ => ⟨S8192x4096, .f32⟩
  | .hbm, ⟨6, _⟩ => ⟨S8192x4096, .bf16⟩
  | .hbm, ⟨7, _⟩ => ⟨S704512, .f32⟩
  | .hbm, ⟨8, _⟩ => ⟨S2752x256, .f32⟩
  | .hbm, ⟨9, _⟩ => ⟨S704512, .f32⟩
  | .hbm, ⟨10, _⟩ => ⟨S704512, .f32⟩
  | .hbm, ⟨11, _⟩ => ⟨S_, .f32⟩
  | .hbm, ⟨12, _⟩ => ⟨S704512, .f32⟩
  | .hbm, ⟨13, _⟩ => ⟨S704512, .f32⟩
  | .hbm, ⟨14, _⟩ => ⟨S11008x64, .f32⟩
  | .hbm, ⟨15, _⟩ => ⟨S11008x4096, .bf16⟩
  | .hbm, ⟨16, _⟩ => ⟨S8192x11008, .f32⟩
  | .hbm, ⟨17, _⟩ => ⟨S4x2048x11008, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S256x4096, .bf16⟩
  | .local _ .vmem, ⟨5, _⟩ => ⟨S256x4096, .bf16⟩
  | .local _ .vmem, ⟨6, _⟩ => ⟨S256x4096, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x2048, .f32⟩
  | .local _ .vmem, ⟨12, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v10 : BitVec 32 := Scalar.muli arg5 c1_i32_4
  let v11 : BitVec 32 := Scalar.addi c0_i32_5 v10
  let c512_i32 : BitVec 32 := 512#32
  let v12 : BitVec 32 := Scalar.muli v11 c512_i32
  v12
def k0_off1 (k0_t1 : Fin k0_t1_loop.trips) : Fin 2 → Nat :=
  let c0_6 : Index := 0#32
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v10 : BitVec 32 := Scalar.muli arg5 c1_i32_4
  let v11 : BitVec 32 := Scalar.addi c0_i32_5 v10
  let c512_i32 : BitVec 32 := 512#32
  let v12 : BitVec 32 := Scalar.muli v11 c512_i32
  let v13 : BitVec 32 := v12
  let v14 : Index := Scalar.indexCast v13
  ![0, v14.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 6, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  bitsLt_bf16_f32 : FTy.bits .bf16 < FTy.bits .f32
  bcast_S2752_S2752x256_0 : S2752.BroadcastsInDim S2752x256 (![0] : Fin 1 → Fin S2752x256.rank)
  shapeCasts_S2752x256_S704512 : S2752x256.ShapeCasts S704512
  shapeCasts_S1_S_ : S1.ShapeCasts S_
  bcast_S_S704512 : S_.BroadcastsInDim S704512 (![] : Fin 0 → Fin S704512.rank)
  shapeCasts_S704512_S11008x64 : S704512.ShapeCasts S11008x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S256x512 : 0 < S256x512.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S8192x11008_S4x2048x11008 : S8192x11008.ShapeCasts S4x2048x11008
  dot_S2048x256_S2048x256_S2048x2048_1_1_0_0_n_n_wf : DotDims.WF S2048x256 S2048x256 S2048x2048 [1] [1] [0] [0] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S256x512.size a ≤ S256x4096.size a
  k0_off1_packedbf16 : ∀ k0_t1 : Fin k0_t1_loop.trips, (Rect.unit (s := S256x4096) (k0_off1 k0_t1) S256x512.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .i32 = 32 ∨ (Rect.block (s := S11008x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S11008x64.size a
  hwx0_1 : ∀ i : grid0.Coords, EltTy.bits .f32 = 32 ∨ (Rect.block (s := S11008x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x4096.size a
  hwx1_0 : ∀ i : grid1.Coords, EltTy.bits .bf16 = 32 ∨ (Rect.block (s := S8192x4096) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x256.size a < S11008x4096.size a
  hwx1_1 : ∀ i : grid1.Coords, EltTy.bits .bf16 = 32 ∨ (Rect.unit (s := S11008x4096) (fun a => cc1_transform_1 i a * S2048x256.size a) (fun a => (Pipeline.Clip.of (cc1_transform_1 i a) (S2048x256.size a) (S11008x4096.size a)).extent (S2048x256.size a)) fun a => Pipeline.Clip.inb (Pipeline.Clip.ok_of (hstart1_1 i a))).WholeWords (EltTy.packing .bf16)
  hwxs1_1 : ∀ i : grid1.Coords, EltTy.bits .bf16 = 32 ∨ (Rect.unit (s := S2048x256) (fun _ => 0) (fun a => (Pipeline.Clip.of (cc1_transform_1 i a) (S2048x256.size a) (S11008x4096.size a)).extent (S2048x256.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048x2048.size a < S8192x11008.size a
  hwx1_2 : ∀ i : grid1.Coords, EltTy.bits .f32 = 32 ∨ (Rect.unit (s := S8192x11008) (fun a => cc1_transform_2 i a * S2048x2048.size a) (fun a => (Pipeline.Clip.of (cc1_transform_2 i a) (S2048x2048.size a) (S8192x11008.size a)).extent (S2048x2048.size a)) fun a => Pipeline.Clip.inb (Pipeline.Clip.ok_of (hstart1_2 i a))).WholeWords (EltTy.packing .f32)
  hwxs1_2 : ∀ i : grid1.Coords, EltTy.bits .f32 = 32 ∨ (Rect.unit (s := S2048x2048) (fun _ => 0) (fun a => (Pipeline.Clip.of (cc1_transform_2 i a) (S2048x2048.size a) (S8192x11008.size a)).extent (S2048x2048.size a)) fun a => (Nat.zero_add _).trans_le (Pipeline.Clip.extent_le (Pipeline.Clip.ok_of (hstart1_2 i a)))).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v10) S2048x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v11) S2048x2048.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S704512 : Shape := ⟨1, ![704512]⟩
abbrev S2752 : Shape := ⟨1, ![2752]⟩
abbrev S1 : Shape := ⟨1, ![1]⟩
abbrev S16 : Shape := ⟨1, ![16]⟩
abbrev S2752x256 : Shape := ⟨2, ![2752, 256]⟩
abbrev S_ : Shape := ⟨0, ![]⟩
abbrev S11008x4096x1 : Shape := ⟨3, ![11008, 4096, 1]⟩
abbrev S704512x64 : Shape := ⟨2, ![704512, 64]⟩
abbrev S704512x1 : Shape := ⟨2, ![704512, 1]⟩
abbrev S4x2048x11008 : Shape := ⟨3, ![4, 2048, 11008]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S704512, .i32⟩
  | .hbm, ⟨3, _⟩ => ⟨S2752, .f32⟩
  | .hbm, ⟨4, _⟩ => ⟨S1, .f32⟩
  | .hbm, ⟨5, _⟩ => ⟨S16, .f32⟩
  | .hbm, ⟨6, _⟩ => ⟨S704512, .f32⟩
  | .hbm, ⟨7, _⟩ => ⟨S2752x256, .f32⟩
  | .hbm, ⟨8, _⟩ => ⟨S704512, .f32⟩
  | .hbm, ⟨9, _⟩ => ⟨S704512, .f32⟩
  | .hbm, ⟨10, _⟩ => ⟨S_, .f32⟩
  | .hbm, ⟨11, _⟩ => ⟨S704512, .f32⟩
  | .hbm, ⟨12, _⟩ => ⟨S704512, .f32⟩
  | .hbm, ⟨13, _⟩ => ⟨S_, .i32⟩
  | .hbm, ⟨14, _⟩ => ⟨S11008x4096, .i32⟩
  | .hbm, ⟨15, _⟩ => ⟨S11008x4096, .i1⟩
  | .hbm, ⟨16, _⟩ => ⟨S_, .i32⟩
  | .hbm, ⟨17, _⟩ => ⟨S11008x4096, .i32⟩
  | .hbm, ⟨18, _⟩ => ⟨S11008x4096, .i32⟩
  | .hbm, ⟨19, _⟩ => ⟨S11008x4096, .i32⟩
  | .hbm, ⟨20, _⟩ => ⟨S11008x4096x1, .i32⟩
  | .hbm, ⟨21, _⟩ => ⟨S11008x4096, .f32⟩
  | .hbm, ⟨22, _⟩ => ⟨S704512x64, .f32⟩
  | .hbm, ⟨23, _⟩ => ⟨S704512x1, .f32⟩
  | .hbm, ⟨24, _⟩ => ⟨S704512x64, .f32⟩
  | .hbm, ⟨25, _⟩ => ⟨S704512x64, .f32⟩
  | .hbm, ⟨26, _⟩ => ⟨S11008x4096, .f32⟩
  | .hbm, ⟨27, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S2752_S2752x256_0 : S2752.BroadcastsInDim S2752x256 (![0] : Fin 1 → Fin S2752x256.rank)
  shapeCasts_S2752x256_S704512 : S2752x256.ShapeCasts S704512
  shapeCasts_S1_S_ : S1.ShapeCasts S_
  bcast_S_S704512 : S_.BroadcastsInDim S704512 (![] : Fin 0 → Fin S704512.rank)
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S11008x4096_S704512x64 : S11008x4096.ShapeCasts S704512x64
  bcast_S704512_S704512x1_0 : S704512.BroadcastsInDim S704512x1 (![0] : Fin 1 → Fin S704512x1.rank)
  bcast_S704512x1_S704512x64_0_1 : S704512x1.BroadcastsInDim S704512x64 (![0, 1] : Fin 2 → Fin S704512x64.rank)
  shapeCasts_S704512x64_S11008x4096 : S704512x64.ShapeCasts S11008x4096
  gather_S16_S11008x4096x1_S11008x4096_n_0_n_n_0_2_1_wf : GatherDims.WF S16 S11008x4096x1 S11008x4096 [] [0] [] [0] [] 2 ![1]
  dot_S4x2048x4096_S11008x4096_S4x2048x11008_2_1_01_0_n_n_wf : DotDims.WF S4x2048x4096 S11008x4096 S4x2048x11008 [2] [1] [0, 1] [0] [] []

variable [Facts₀]

def gather_S16_S11008x4096x1_S11008x4096_n_0_n_n_0_2_1 : GatherDims S16 S11008x4096x1 S11008x4096 where
  offsetDims := []
  collapsedSliceDims := [0]
  operandBatchingDims := []
  startIndicesBatchingDims := []
  startIndexMap := [0]
  indexVectorDim := 2
  sliceSizes := ![1]
  wf := gather_S16_S11008x4096x1_S11008x4096_n_0_n_n_0_2_1_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The specification both programs are compared with: the NF4 linear layer as one function of the five
  argument arrays, entry by entry, over the extended reals.

  A weight is a code word's value times its block's scale. The code is the low four bits of the stored
  word; its value is one of sixteen fixed f32 numbers; the scale of block n (sixty-four consecutive
  weights) is the stored integer scale, exactly, divided by the factor of its group of 256 blocks, plus
  the mean. The result at (b, s, o) is the sum over the 4096 inputs k of x[b, s, k] times weight[o, k].
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 4096]⟩
abbrev SQ : Shape := ⟨2, ![11008, 4096]⟩
abbrev SQS : Shape := ⟨1, ![704512]⟩
abbrev SQF : Shape := ⟨1, ![2752]⟩
abbrev SM : Shape := ⟨1, ![1]⟩
abbrev SO : Shape := ⟨3, ![4, 2048, 11008]⟩

/-- The sixteen code words' f32 bit patterns, in code order. -/
def word : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDD9FD40#32 | 7 => 0xBCEEF0CA#32
  | 8 => 0x00000000#32 | 9 => 0x3DA2FAFF#32 | 10 => 0x3E24CAE3#32 | 11 => 0x3E7C04DD#32
  | 12 => 0x3EAD033A#32 | 13 => 0x3EE1A4B8#32 | 14 => 0x3F1007AB#32 | 15 => 0x3F3913B3#32
  | _ => 0#32

/-- A code's value: the exact real its f32 word denotes. -/
def tbl (k : Fin 16) : EReal := Ideal.ofBits .f32 (word k)

/-- The code a stored word carries: its low four bits. -/
def code (w : BitVec 32) : Fin 16 := ⟨(w &&& 15#32).toNat % 16, Nat.mod_lt _ (by decide)⟩

/-- The scale of quantization block `n`: the stored integer, exactly, over its group's factor, plus the mean. -/
def scal (qs : SQS.Idx → BitVec 32) (qf : SQF.Idx → EReal) (mean : SM.Idx → EReal) (n : Fin 704512) : EReal :=
  Ideal.div (((qs (ix1 n)).toInt : ℝ) : EReal) (qf (ix1 ⟨n.val / 256, by have := n.isLt; omega⟩)) + mean (ix1 (0 : Fin 1))

/-- Weight (o, i): the code's value times the scale of the block of sixty-four the entry lies in. -/
def wgt (q : SQ.Idx → BitVec 32) (qs : SQS.Idx → BitVec 32) (qf : SQF.Idx → EReal) (mean : SM.Idx → EReal)
    (o : Fin 11008) (i : Fin 4096) : EReal :=
  tbl (code (q (ix2 o i))) * scal qs qf mean ⟨o.val * 64 + i.val / 64, by have := o.isLt; have := i.isLt; omega⟩

/-- The result at explicit coordinates: a row of x against a row of weights. -/
def Gc (x : SX.Idx → EReal) (q : SQ.Idx → BitVec 32) (qs : SQS.Idx → BitVec 32) (qf : SQF.Idx → EReal) (mean : SM.Idx → EReal)
    (b : Fin 4) (s : Fin 2048) (o : Fin 11008) : EReal :=
  ∑ k : Fin 4096, x (ix3 b s k) * wgt q qs qf mean o k

/-- The whole result array. -/
def G (x : SX.Idx → EReal) (q : SQ.Idx → BitVec 32) (qs : SQS.Idx → BitVec 32) (qf : SQF.Idx → EReal) (mean : SM.Idx → EReal) :
    SO.Idx → EReal :=
  fun j => Gc x q qs qf mean (j 0) (j 1) (j 2)

end Cert.Spec

end
-- ==== Proof.PreRange.lean ====
/-
  The precondition read back at one stored word.

  The precondition is a conjunction of four "all entries satisfy" tests joined by "and": three say
  that the float inputs are finite, the fourth that every stored word q, read as a signed 32-bit
  integer, lies in [-16, 16). The fourth is computed entrywise as (q ≥ -16) and (q < 16), with the
  constant -16 written as the word 2^32 - 16, then folded by "and" over both axes starting from 1.
  A fold by "and" that comes out 1 met a 1 at every entry, and a signed comparison that comes out 1
  is the comparison of the signed values; so the whole precondition being 1 gives the range of
  every stored word.
-/
import proofs.«420805_j11192684773386_3_alg».proof.Pre_finite_inputs
import Idealize.ShloMosaic.Lib.ReduceAll
import Idealize.ShloMosaic.Lib.ValueIdx

namespace Cert.PreRange

open Idealize.ShloMosaic

/-- The rank-0 shape has exactly one index. -/
instance : Subsingleton Cert.Pre_finite_inputs.S_.Idx := ⟨fun a b => funext fun d => d.elim0⟩

/-- A one-bit word made from a truth value is 1 exactly when the value is true. -/
theorem ofBool_one {b : Bool} (h : BitVec.ofBool b = 1#1) : b = true := by
  cases b
  · exact absurd h (by decide)
  · rfl

/-- Signed "≥ -16" that comes out 1: the signed value is at least -16 (the word 2^32 - 16 reads -16). -/
theorem sge_neg16 {a : BitVec 32} (h : IntOp.cmpi .sge a 4294967280#32 = 1#1) : -16 ≤ a.toInt := by
  have h' : (4294967280#32 : BitVec 32).sle a = true := ofBool_one h
  have e : (4294967280#32 : BitVec 32).toInt = -16 := by decide
  rw [BitVec.sle, decide_eq_true_eq, e] at h'
  exact h'

/-- Signed "< 16" that comes out 1: the signed value is below 16. -/
theorem slt_16 {a : BitVec 32} (h : IntOp.cmpi .slt a 16#32 = 1#1) : a.toInt < 16 := by
  have h' : a.slt (16#32 : BitVec 32) = true := ofBool_one h
  have e : (16#32 : BitVec 32).toInt = 16 := by decide
  rw [BitVec.slt, decide_eq_true_eq, e] at h'
  exact h'

/-- Under the precondition every stored word, read signed, lies in [-16, 16). -/
theorem q_range {F : FTy → Type} [FloatOps F] [Cert.Pre_finite_inputs.Facts]
    (x : FVec F Cert.Pre_finite_inputs.S4x2048x4096 .f32) (q : IVec Cert.Pre_finite_inputs.S11008x4096 32)
    (qs : IVec Cert.Pre_finite_inputs.S704512 32) (qf : FVec F Cert.Pre_finite_inputs.S2752 .f32)
    (mean : FVec F Cert.Pre_finite_inputs.S1 .f32)
    (h : Cert.Pre_finite_inputs.fn (F := F) x q qs qf mean = fun _ => 1#1) :
    ∀ i : Cert.Pre_finite_inputs.S11008x4096.Idx, -16 ≤ (q i).toInt ∧ (q i).toInt < 16 := by
  intro i
  -- the one entry of the rank-0 result
  have h0 := congrFun h ValueIdx.ix0
  dsimp only [Cert.Pre_finite_inputs.fn, Cert.Pre_finite_inputs.fn_part1] at h0
  -- the last conjunct of the outer "and": the fold over the stored words came out 1
  have h1 := (IntOp.andi_eq_one.1 h0).2
  -- so the folded test is 1 at every entry
  have h2 := Host.reduce_andi_all _ _ _ _ _ h1 i
  -- and that test is the "and" of the two comparisons at that entry
  obtain ⟨h3, h4⟩ := IntOp.andi_eq_one.1 h2
  exact ⟨sge_neg16 h3, slt_16 h4⟩

end Cert.PreRange
-- ==== Proof.Ref.Run.lean ====
/-
  The reference program's run, read back. Its @main is a straight line of twenty-four host operations
  and no kernel: written as a list, every weakly fair execution terminates with each buffer at the
  operations' composed value of the launch contents. The result buffer's composed value is named
  refOut, a function of the five argument arrays; the arguments end unchanged.
-/
import proofs.«420805_j11192684773386_3_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Generic
variable {F : FTy → Type} [FloatOps F]

/-- @main's 24 operations, in order. -/
abbrev ops : List (HloOp τ sig (Elt F)) :=
  [ nullary main_cst (fun i => FloatOps.ofBits .f32 (lit0 (S16.rowMajor i))),
    unary main_arg2 main_v0 (sitofp .f32 : (⟨S704512, .i32⟩ : BufTy).Contents (Elt F) → (⟨S704512, .f32⟩ : BufTy).Contents (Elt F)),
    unary main_arg3 main_v1 (broadcastInDim S2752x256 ![0] bcast_S2752_S2752x256_0 : (⟨S2752, .f32⟩ : BufTy).Contents (Elt F) → (⟨S2752x256, .f32⟩ : BufTy).Contents (Elt F)),
    reshape main_v1 main_v2 rfl shapeCasts_S2752x256_S704512,
    binary main_v0 main_v2 main_v3 (Host.divf : (⟨S704512, .f32⟩ : BufTy).Contents (Elt F) → (⟨S704512, .f32⟩ : BufTy).Contents (Elt F) → (⟨S704512, .f32⟩ : BufTy).Contents (Elt F)),
    reshape main_arg4 main_v4 rfl shapeCasts_S1_S_,
    unary main_v4 main_v5 (broadcastInDim S704512 ![] bcast_S_S704512 : (⟨S_, .f32⟩ : BufTy).Contents (Elt F) → (⟨S704512, .f32⟩ : BufTy).Contents (Elt F)),
    binary main_v3 main_v5 main_v6 (addf : (⟨S704512, .f32⟩ : BufTy).Contents (Elt F) → (⟨S704512, .f32⟩ : BufTy).Contents (Elt F) → (⟨S704512, .f32⟩ : BufTy).Contents (Elt F)),
    nullary main_c (constantI S_ 32 0#32),
    unary main_c main_v7 (broadcastInDim S11008x4096 ![] bcast_S_S11008x4096 : (⟨S_, .i32⟩ : BufTy).Contents (Elt F) → (⟨S11008x4096, .i32⟩ : BufTy).Contents (Elt F)),
    binary main_arg1 main_v7 main_v8 (cmpi .slt : (⟨S11008x4096, .i32⟩ : BufTy).Contents (Elt F) → (⟨S11008x4096, .i32⟩ : BufTy).Contents (Elt F) → (⟨S11008x4096, .i1⟩ : BufTy).Contents (Elt F)),
    nullary main_c_0 (constantI S_ 32 16#32),
    unary main_c_0 main_v9 (broadcastInDim S11008x4096 ![] bcast_S_S11008x4096 : (⟨S_, .i32⟩ : BufTy).Contents (Elt F) → (⟨S11008x4096, .i32⟩ : BufTy).Contents (Elt F)),
    binary main_arg1 main_v9 main_v10 (addi : (⟨S11008x4096, .i32⟩ : BufTy).Contents (Elt F) → (⟨S11008x4096, .i32⟩ : BufTy).Contents (Elt F) → (⟨S11008x4096, .i32⟩ : BufTy).Contents (Elt F)),
    ternary main_v8 main_v10 main_arg1 main_v11 (select : (⟨S11008x4096, .i1⟩ : BufTy).Contents (Elt F) → (⟨S11008x4096, .i32⟩ : BufTy).Contents (Elt F) → (⟨S11008x4096, .i32⟩ : BufTy).Contents (Elt F) → (⟨S11008x4096, .i32⟩ : BufTy).Contents (Elt F)),
    unary main_v11 main_v12 (broadcastInDim S11008x4096x1 ![0, 1] bcast_S11008x4096_S11008x4096x1_0_1 : (⟨S11008x4096, .i32⟩ : BufTy).Contents (Elt F) → (⟨S11008x4096x1, .i32⟩ : BufTy).Contents (Elt F)),
    binary main_cst main_v12 main_v13 ((fun x i => Host.gather gather_S16_S11008x4096x1_S11008x4096_n_0_n_n_0_2_1 x i) : (⟨S16, .f32⟩ : BufTy).Contents (Elt F) → (⟨S11008x4096x1, .i32⟩ : BufTy).Contents (Elt F) → (⟨S11008x4096, .f32⟩ : BufTy).Contents (Elt F)),
    reshape main_v13 main_v14 rfl shapeCasts_S11008x4096_S704512x64,
    unary main_v6 main_v15 (broadcastInDim S704512x1 ![0] bcast_S704512_S704512x1_0 : (⟨S704512, .f32⟩ : BufTy).Contents (Elt F) → (⟨S704512x1, .f32⟩ : BufTy).Contents (Elt F)),
    unary main_v15 main_v16 (broadcastInDim S704512x64 ![0, 1] bcast_S704512x1_S704512x64_0_1 : (⟨S704512x1, .f32⟩ : BufTy).Contents (Elt F) → (⟨S704512x64, .f32⟩ : BufTy).Contents (Elt F)),
    binary main_v14 main_v16 main_v17 (mulf : (⟨S704512x64, .f32⟩ : BufTy).Contents (Elt F) → (⟨S704512x64, .f32⟩ : BufTy).Contents (Elt F) → (⟨S704512x64, .f32⟩ : BufTy).Contents (Elt F)),
    reshape main_v17 main_v18 rfl shapeCasts_S704512x64_S11008x4096,
    binary main_arg0 main_v18 main_v19 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., reshape_bufs_sub .., binary_bufs_sub .., reshape_bufs_sub ..,
   unary_bufs_sub .., binary_bufs_sub .., nullary_bufs_sub .., unary_bufs_sub .., binary_bufs_sub .., nullary_bufs_sub ..,
   unary_bufs_sub .., binary_bufs_sub .., ternary_bufs_sub .., unary_bufs_sub .., binary_bufs_sub .., reshape_bufs_sub ..,
   unary_bufs_sub .., unary_bufs_sub .., binary_bufs_sub .., reshape_bufs_sub .., binary_bufs_sub ..⟩

/-- The code table as the program holds it: entry k is the value of the k-th literal word. -/
def tblV : FVec F S16 .f32 := fun i => FloatOps.ofBits .f32 (lit0 (S16.rowMajor i))

/-- The block scales: the stored integers, converted, over the group factors repeated 256 times, plus the mean. -/
def scalV (qs : IVec S704512 32) (qf : FVec F S2752 .f32) (mean : FVec F S1 .f32) : FVec F S704512 .f32 :=
  addf (Host.divf (sitofp (F := F) .f32 qs) (shapeCast S704512 (broadcastInDim S2752x256 ![0] bcast_S2752_S2752x256_0 qf) shapeCasts_S2752x256_S704512))
    (broadcastInDim S704512 ![] bcast_S_S704512 (shapeCast S_ mean shapeCasts_S1_S_))

/-- The normalised table indices: a negative stored word has sixteen added. -/
def idxV (q : IVec S11008x4096 32) : IVec S11008x4096 32 :=
  select (cmpi .slt q (broadcastInDim S11008x4096 ![] bcast_S_S11008x4096 (constantI S_ 32 0#32)))
    (addi q (broadcastInDim S11008x4096 ![] bcast_S_S11008x4096 (constantI S_ 32 16#32))) q

/-- The code values: the table gathered at the normalised indices. -/
def codeV (q : IVec S11008x4096 32) : FVec F S11008x4096 .f32 :=
  Host.gather gather_S16_S11008x4096x1_S11008x4096_n_0_n_n_0_2_1 (tblV (F := F))
    (broadcastInDim S11008x4096x1 ![0, 1] bcast_S11008x4096_S11008x4096x1_0_1 (idxV q))

/-- The weights: code values in rows of sixty-four, each row times its block's scale, back in matrix shape. -/
def wgtV (q : IVec S11008x4096 32) (qs : IVec S704512 32) (qf : FVec F S2752 .f32) (mean : FVec F S1 .f32) : FVec F S11008x4096 .f32 :=
  shapeCast S11008x4096
    (mulf (shapeCast S704512x64 (codeV (F := F) q) shapeCasts_S11008x4096_S704512x64)
      (broadcastInDim S704512x64 ![0, 1] bcast_S704512x1_S704512x64_0_1
        (broadcastInDim S704512x1 ![0] bcast_S704512_S704512x1_0 (scalV qs qf mean))))
    shapeCasts_S704512x64_S11008x4096

/-- The result: x against the weights over their last axes. -/
def outV (x : FVec F S4x2048x4096 .f32) (q : IVec S11008x4096 32) (qs : IVec S704512 32) (qf : FVec F S2752 .f32) (mean : FVec F S1 .f32) :
    FVec F S4x2048x11008 .f32 :=
  Host.dotGeneral dot_S4x2048x4096_S11008x4096_S4x2048x11008_2_1_01_0_n_n none x (wgtV q qs qf mean)

end Generic

/-- The reference's result as a function of the five argument arrays, at the extended reals. -/
def refOut (x : FVec Ideal S4x2048x4096 .f32) (q : IVec S11008x4096 32) (qs : IVec S704512 32) (qf : FVec Ideal S2752 .f32) (mean : FVec Ideal S1 .f32) :
    FVec Ideal S4x2048x11008 .f32 :=
  outV (F := Ideal) x q qs qf mean

/-- The result buffer after the line, from any valuation, for any float values: the composed value. -/
theorem after_v19 {F : FTy → Type} [FloatOps F] (V : Valuation τ sig (Elt F)) :
    after (ops (F := F)) V (Proc.devRef .tc main_v19)
      = outV (F := F) (V (Proc.devRef .tc main_arg0)) (V (Proc.devRef .tc main_arg1)) (V (Proc.devRef .tc main_arg2)) (V (Proc.devRef .tc main_arg3)) (V (Proc.devRef .tc main_arg4)) := by
  after_results_simp
  rfl

theorem after_arg0 {F : FTy → Type} [FloatOps F] (V : Valuation τ sig (Elt F)) :
    after (ops (F := F)) V (Proc.devRef .tc main_arg0) = V (Proc.devRef .tc main_arg0) := by after_results_simp
theorem after_arg1 {F : FTy → Type} [FloatOps F] (V : Valuation τ sig (Elt F)) :
    after (ops (F := F)) V (Proc.devRef .tc main_arg1) = V (Proc.devRef .tc main_arg1) := by after_results_simp
theorem after_arg2 {F : FTy → Type} [FloatOps F] (V : Valuation τ sig (Elt F)) :
    after (ops (F := F)) V (Proc.devRef .tc main_arg2) = V (Proc.devRef .tc main_arg2) := by after_results_simp
theorem after_arg3 {F : FTy → Type} [FloatOps F] (V : Valuation τ sig (Elt F)) :
    after (ops (F := F)) V (Proc.devRef .tc main_arg3) = V (Proc.devRef .tc main_arg3) := by after_results_simp
theorem after_arg4 {F : FTy → Type} [FloatOps F] (V : Valuation τ sig (Elt F)) :
    after (ops (F := F)) V (Proc.devRef .tc main_arg4) = V (Proc.devRef .tc main_arg4) := by after_results_simp

/-- On every device, from any memory with zero counters: every weakly fair execution of @main terminates with the
    result at refOut of the arguments and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v19)
        = refOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun _ h c => ⟨(h c main_v19).trans (after_v19 _),
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.ReferenceIdeal.RefValue

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.Ref.Value.lean ====
/-
  The reference's result is the specification's: stage by stage, each read at one index.

  The normalised table index of a stored word in [-16, 16) is its low four bits; the gather reads the table
  there, and the table's entries are the specification's sixteen values; the scale chain at block n is the
  stored integer over its group's factor plus the mean; reshaping rows of 4096 into rows of sixty-four and
  back sends weight (o, i) to block o*64 + i/64; and the contraction over the last axes is the sum over the
  4096 contracted coordinates. Nothing is rearranged or cancelled, so no finiteness is used.
-/
import proofs.«420805_j11192684773386_3_alg».proof.Proof.Ref.Run
import proofs.«420805_j11192684773386_3_alg».proof.Proof.Spec
import proofs.«420805_j11192684773386_3_alg».proof.Proof.LibDotLastAxis
import Idealize.ShloMosaic.Lib.Pipeline.Value
import Idealize.ShloMosaic.Lib.ValueIdx
import Idealize.ShloMosaic.PureOps.Ideal
import Mathlib.Tactic.IntervalCases
import Mathlib.Tactic.FinCases

noncomputable section

namespace Cert.ReferenceIdeal.RefValue

open Cert.ReferenceIdeal Cert.ReferenceIdeal.Gen Idealize.ShloMosaic Idealize.ShloMosaic.ValueIdx
open scoped BigOperators

/-- The literal table is the specification's table of words. -/
theorem lit0_eq_word (k : Fin 16) : lit0 k = Cert.Spec.word k := by
  fin_cases k <;> rfl

/-- A word whose signed value lies in [-16, 16), normalised (sixteen added when negative), read signed and clamped into
    [0, 15], is its low four bits. -/
theorem norm_word (w : BitVec 32) (h0 : -16 ≤ w.toInt) (h1 : w.toInt < 16) :
    min (Scalar.select (IntOp.cmpi .slt w 0#32) (IntOp.addi w 16#32) w).toInt.toNat (16 - 1) = (w &&& 15#32).toNat % 16 := by
  have hw : w = BitVec.ofInt 32 w.toInt := (BitVec.ofInt_toInt).symm
  generalize w.toInt = z at hw h0 h1
  subst hw
  interval_cases z <;> decide

/-- The table at code k is the specification's value of code k. -/
theorem tblV_apply (k : Fin 16) : tblV (F := Ideal) (ix1 k) = Cert.Spec.tbl k := by
  unfold tblV Cert.Spec.tbl
  have : S16.rowMajor (ix1 k) = k := Fin.ext (by rw [Shape.rowMajor_val_one])
  rw [this, lit0_eq_word]
  rfl

/-- The scales read at block n: the stored integer over its group's factor, plus the mean. -/
theorem scalV_apply (qs : IVec S704512 32) (qf : FVec Ideal S2752 .f32) (mean : FVec Ideal S1 .f32) (n : Fin 704512) :
    scalV (F := Ideal) qs qf mean (ix1 n) = Cert.Spec.scal qs qf mean n := by
  have hn := n.isLt
  unfold scalV Cert.Spec.scal
  show Ideal.div ((((qs (ix1 n)).toInt : ℝ) : EReal))
        (shapeCast S704512 (broadcastInDim S2752x256 ![0] bcast_S2752_S2752x256_0 qf) shapeCasts_S2752x256_S704512 (ix1 n))
      + broadcastInDim S704512 ![] bcast_S_S704512 (shapeCast S_ mean shapeCasts_S1_S_) (ix1 n) = _
  congr 1
  · congr 1
    refine (shapeCast_apply _ _ (ix1 n) (ix2 (⟨n.val / 256, by omega⟩ : Fin 2752) (⟨n.val % 256, by omega⟩ : Fin 256)) ?_).trans ?_
    · rw [Shape.rowMajor_val_two, Shape.rowMajor_val_one]
      show n.val / 256 * 256 + n.val % 256 = n.val
      omega
    · refine broadcastInDim_apply _ _ qf _ (ix1 ⟨n.val / 256, by omega⟩) ?_
      intro a
      match a with
      | ⟨0, _⟩ => rfl
  · refine (broadcastInDim_apply _ _ _ (ix1 n) ix0 ?_).trans ?_
    · intro a; exact a.elim0
    · refine shapeCast_apply mean _ ix0 (ix1 (0 : Fin 1)) ?_
      rw [Shape.rowMajor_val_one]
      rfl

/-- The normalised index at (o, i). -/
theorem idxV_apply (q : IVec S11008x4096 32) (j : S11008x4096.Idx) :
    idxV q j = Scalar.select (IntOp.cmpi .slt (q j) 0#32) (IntOp.addi (q j) 16#32) (q j) := rfl

/-- The code value at (o, i): the specification's value of the stored word's code. -/
theorem codeV_apply (q : IVec S11008x4096 32) (hq : ∀ i : S11008x4096.Idx, -16 ≤ (q i).toInt ∧ (q i).toInt < 16)
    (o : Fin 11008) (i : Fin 4096) :
    codeV (F := Ideal) q (ix2 o i) = Cert.Spec.tbl (Cert.Spec.code (q (ix2 o i))) := by
  unfold codeV
  have hrec : gather_S16_S11008x4096x1_S11008x4096_n_0_n_n_0_2_1
      = takeDims 16 11008 4096 gather_S16_S11008x4096x1_S11008x4096_n_0_n_n_0_2_1_wf := rfl
  rw [hrec]
  refine (gather_take_apply (by decide) _ _ _ (ix2 o i)).trans ?_
  have hidx : broadcastInDim S11008x4096x1 ![0, 1] bcast_S11008x4096_S11008x4096x1_0_1 (idxV q) (takeIdx (ix2 o i)) = idxV q (ix2 o i) := by
    refine broadcastInDim_apply _ _ _ _ (ix2 o i) ?_
    intro a
    match a with
    | ⟨0, _⟩ => rfl
    | ⟨1, _⟩ => rfl
  have hk : (⟨min (broadcastInDim S11008x4096x1 ![0, 1] bcast_S11008x4096_S11008x4096x1_0_1 (idxV q) (takeIdx (ix2 o i))).toInt.toNat (16 - 1), by omega⟩ : Fin 16)
      = Cert.Spec.code (q (ix2 o i)) := by
    refine Fin.ext ?_
    show min (broadcastInDim S11008x4096x1 ![0, 1] bcast_S11008x4096_S11008x4096x1_0_1 (idxV q) (takeIdx (ix2 o i))).toInt.toNat (16 - 1) = (q (ix2 o i) &&& 15#32).toNat % 16
    rw [hidx, idxV_apply]
    exact norm_word _ (hq _).1 (hq _).2
  rw [hk]
  exact tblV_apply _

/-- The weight at (o, i). -/
theorem wgtV_apply (q : IVec S11008x4096 32) (qs : IVec S704512 32) (qf : FVec Ideal S2752 .f32) (mean : FVec Ideal S1 .f32)
    (hq : ∀ i : S11008x4096.Idx, -16 ≤ (q i).toInt ∧ (q i).toInt < 16) (o : Fin 11008) (i : Fin 4096) :
    wgtV (F := Ideal) q qs qf mean (ix2 o i) = Cert.Spec.wgt q qs qf mean o i := by
  have ho := o.isLt
  have hi := i.isLt
  unfold wgtV Cert.Spec.wgt
  refine (shapeCast_apply _ _ (ix2 o i) (ix2 (⟨o.val * 64 + i.val / 64, by omega⟩ : Fin 704512) (⟨i.val % 64, by omega⟩ : Fin 64)) ?_).trans ?_
  · rw [Shape.rowMajor_val_two, Shape.rowMajor_val_two]
    show (o.val * 64 + i.val / 64) * 64 + i.val % 64 = o.val * 4096 + i.val
    omega
  rw [mulf_apply]
  congr 1
  · refine (shapeCast_apply _ _ _ (ix2 o i) ?_).trans (codeV_apply q hq o i)
    rw [Shape.rowMajor_val_two, Shape.rowMajor_val_two]
    show o.val * 4096 + i.val = (o.val * 64 + i.val / 64) * 64 + i.val % 64
    omega
  · refine (broadcastInDim_apply _ _ _ _ (ix2 (⟨o.val * 64 + i.val / 64, by omega⟩ : Fin 704512) (0 : Fin 1)) ?_).trans ?_
    · intro a
      match a with
      | ⟨0, _⟩ => rfl
      | ⟨1, _⟩ => rfl
    refine (broadcastInDim_apply _ _ _ _ (ix1 (⟨o.val * 64 + i.val / 64, by omega⟩ : Fin 704512)) ?_).trans (scalV_apply qs qf mean _)
    intro a
    match a with
    | ⟨0, _⟩ => rfl

/-- The reference's result is the specification's. -/
theorem refOut_eq_G (x : FVec Ideal S4x2048x4096 .f32) (q : IVec S11008x4096 32) (qs : IVec S704512 32) (qf : FVec Ideal S2752 .f32)
    (mean : FVec Ideal S1 .f32) (hq : ∀ i : S11008x4096.Idx, -16 ≤ (q i).toInt ∧ (q i).toInt < 16) :
    refOut x q qs qf mean = Cert.Spec.G x q qs qf mean := by
  funext j
  obtain ⟨b, s, o, rfl⟩ : ∃ (b : Fin 4) (s : Fin 2048) (o : Fin 11008), j = ix3 b s o := ⟨j 0, j 1, j 2, eq_ix3 j⟩
  show outV (F := Ideal) x q qs qf mean (ix3 b s o) = ∑ k : Fin 4096, x (ix3 b s k) * Cert.Spec.wgt q qs qf mean o k
  unfold outV
  refine (LibDotLastAxis.dotGeneral_stack_apply _ none x _ b s o).trans ?_
  refine Finset.sum_congr rfl fun k _ => ?_
  rw [wgtV_apply q qs qf mean hq]

end Cert.ReferenceIdeal.RefValue

end
-- ==== Proof.KI.R0Defs.lean ====
/-
  Region 0 (the dequantization call): its blocks, what one grid point leaves in the output block as a
  closed function of the two input blocks, and the proof data of its pipeline.

  The output block entry (r, i) is the code value of the stored word at (r, i) times the scale at
  (r, i / 64), narrowed to bf16: the sixty-four consecutive entries of a row share a scale.
-/
import proofs.«420805_j11192684773386_3_alg».proof.Proof.Gen.KernelIdeal.Launch
import proofs.«420805_j11192684773386_3_alg».proof.Proof.Gen.KernelIdeal.Skeleton
import proofs.«420805_j11192684773386_3_alg».proof.Proof.Gen.KernelIdeal.Points
import proofs.«420805_j11192684773386_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A code's value at the float family `F`. -/
def tblF (k : Fin 16) : F .f32 := Scalar.ofBits .f32 (Cert.Spec.word k)

/-- The code values of a block of stored words. -/
def wvals (xq : Vec F S256x4096 .i32) : FVec F S256x4096 .f32 := fun j => tblF (Cert.Spec.code (xq j))

/-- A block of scales, each repeated over its sixty-four entries. -/
def sexp (xs : Vec F S256x64 .f32) : FVec F S256x4096 .f32 :=
  fun j => xs (ix2 (⟨(j 0).val, (j 0).isLt⟩ : Fin 256) (⟨(j 1).val / 64, by have h : (j 1).val < 4096 := (j 1).isLt; show (j 1).val / 64 < 64; omega⟩ : Fin 64))

/-- What a grid point leaves in the output block. -/
def out0 (xq : Vec F S256x4096 .i32) (xs : Vec F S256x64 .f32) : Vec F S256x4096 .bf16 :=
  truncf .bf16 (mulf (wvals xq) (sexp xs)) Facts₀.bitsLt_bf16_f32

/-- The proof data of pipeline 0 on core `c`: the arrays as the region finds them; after the body each input's
    buffer at its block and the output's at `out0` of the two input blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

end Regions

end Cert.KernelIdeal.Hand

end
-- ==== Proof.TreeLemma.lean ====
/-
  The code tree: fifteen two-way selects on the four low bits of a stored word pick that word's code value.

  Write u for the low four bits of the word w (w and 15). The four tests are "u and 2^k is not zero",
  k = 0..3: the binary digits of u. The selects form a complete binary tree of depth four whose leaves are
  the sixteen code values in code order; the test for digit 3 chooses at the root, digit 0 at the leaves.
  A complete binary tree steered by the digits of u, most significant first, ends at leaf number u; and
  u, being below 16, is the code of w. The argument is a finite check: for each of the sixteen values of
  u the four tests are decided and the tree collapses to one leaf.
-/
import proofs.«420805_j11192684773386_3_alg».proof.Proof.Spec
import Idealize.ShloMosaic.Lib.ValueIdx
import Mathlib.Tactic.FinCases

noncomputable section

namespace Cert.Tree

open Idealize.ShloMosaic

/-- The complete depth-four tree of selects over sixteen leaves: `b3` chooses at the root (a set bit takes the
    upper eight leaves), then `b2`, `b1`, and `b0` at the bottom (a set bit takes the odd leaf). -/
def pick {α : Type} (b3 b2 b1 b0 : BitVec 1) (f : Fin 16 → α) : α :=
  Scalar.select b3
    (Scalar.select b2
      (Scalar.select b1 (Scalar.select b0 (f 15) (f 14)) (Scalar.select b0 (f 13) (f 12)))
      (Scalar.select b1 (Scalar.select b0 (f 11) (f 10)) (Scalar.select b0 (f 9) (f 8))))
    (Scalar.select b2
      (Scalar.select b1 (Scalar.select b0 (f 7) (f 6)) (Scalar.select b0 (f 5) (f 4)))
      (Scalar.select b1 (Scalar.select b0 (f 3) (f 2)) (Scalar.select b0 (f 1) (f 0))))

/-- The test "the digit of weight m is set" on a four-bit value u. -/
def dig (u m : BitVec 32) : BitVec 1 := IntOp.cmpi .ne (IntOp.andi u m) 0#32

/-- Steered by the binary digits of n, the tree ends at leaf n. -/
theorem pick_digits {α : Type} (f : Fin 16 → α) (n : Fin 16) :
    pick (dig (BitVec.ofNat 32 n.val) 8#32) (dig (BitVec.ofNat 32 n.val) 4#32)
      (dig (BitVec.ofNat 32 n.val) 2#32) (dig (BitVec.ofNat 32 n.val) 1#32) f = f n := by
  fin_cases n <;> rfl

/-- The low four bits of a word, as a number, are below sixteen. -/
theorem low4_lt (w : BitVec 32) : (w &&& 15#32).toNat < 16 := by
  rw [BitVec.toNat_and]
  exact Nat.lt_succ_of_le Nat.and_le_right

/-- The low four bits of a word are the word of its code. -/
theorem low4_eq (w : BitVec 32) : IntOp.andi w 15#32 = BitVec.ofNat 32 (Cert.Spec.code w).val := by
  apply BitVec.eq_of_toNat_eq
  show (w &&& 15#32).toNat = (BitVec.ofNat 32 ((w &&& 15#32).toNat % 16)).toNat
  have h := low4_lt w
  rw [BitVec.toNat_ofNat, Nat.mod_eq_of_lt h]
  omega

variable {F : FTy → Type} [FloatOps F]

/-- The kernel's fifteen selects at one stored word `w`, with the tests and constants as it computes them. -/
def sel (w : BitVec 32) : F .f32 :=
  Scalar.select (IntOp.cmpi .ne (IntOp.andi (IntOp.andi w 15#32) 8#32) 0#32)
    (Scalar.select (IntOp.cmpi .ne (IntOp.andi (IntOp.andi w 15#32) 4#32) 0#32)
      (Scalar.select (IntOp.cmpi .ne (IntOp.andi (IntOp.andi w 15#32) 2#32) 0#32)
        (Scalar.select (IntOp.cmpi .ne (IntOp.andi (IntOp.andi w 15#32) 1#32) 0#32)
          (Scalar.ofBits .f32 0x3F3913B3#32) (Scalar.ofBits .f32 0x3F1007AB#32))
        (Scalar.select (IntOp.cmpi .ne (IntOp.andi (IntOp.andi w 15#32) 1#32) 0#32)
          (Scalar.ofBits .f32 0x3EE1A4B8#32) (Scalar.ofBits .f32 0x3EAD033A#32)))
      (Scalar.select (IntOp.cmpi .ne (IntOp.andi (IntOp.andi w 15#32) 2#32) 0#32)
        (Scalar.select (IntOp.cmpi .ne (IntOp.andi (IntOp.andi w 15#32) 1#32) 0#32)
          (Scalar.ofBits .f32 0x3E7C04DD#32) (Scalar.ofBits .f32 0x3E24CAE3#32))
        (Scalar.select (IntOp.cmpi .ne (IntOp.andi (IntOp.andi w 15#32) 1#32) 0#32)
          (Scalar.ofBits .f32 0x3DA2FAFF#32) (Scalar.ofBits .f32 0x00000000#32))))
    (Scalar.select (IntOp.cmpi .ne (IntOp.andi (IntOp.andi w 15#32) 4#32) 0#32)
      (Scalar.select (IntOp.cmpi .ne (IntOp.andi (IntOp.andi w 15#32) 2#32) 0#32)
        (Scalar.select (IntOp.cmpi .ne (IntOp.andi (IntOp.andi w 15#32) 1#32) 0#32)
          (Scalar.ofBits .f32 0xBCEEF0CA#32) (Scalar.ofBits .f32 0xBDD9FD40#32))
        (Scalar.select (IntOp.cmpi .ne (IntOp.andi (IntOp.andi w 15#32) 1#32) 0#32)
          (Scalar.ofBits .f32 0xBE3D353F#32) (Scalar.ofBits .f32 0xBE91A24D#32)))
      (Scalar.select (IntOp.cmpi .ne (IntOp.andi (IntOp.andi w 15#32) 2#32) 0#32)
        (Scalar.select (IntOp.cmpi .ne (IntOp.andi (IntOp.andi w 15#32) 1#32) 0#32)
          (Scalar.ofBits .f32 0xBECA32A0#32) (Scalar.ofBits .f32 0xBF066B30#32))
        (Scalar.select (IntOp.cmpi .ne (IntOp.andi (IntOp.andi w 15#32) 1#32) 0#32)
          (Scalar.ofBits .f32 0xBF3239B1#32) (Scalar.ofBits .f32 0xBF800000#32))))

/-- The selects are the sixteen-leaf tree over the code values, steered by the digits of the low four bits. -/
theorem sel_eq_pick (w : BitVec 32) :
    sel (F := F) w = pick (dig (IntOp.andi w 15#32) 8#32) (dig (IntOp.andi w 15#32) 4#32)
      (dig (IntOp.andi w 15#32) 2#32) (dig (IntOp.andi w 15#32) 1#32)
      (fun k => (Scalar.ofBits .f32 (Cert.Spec.word k) : F .f32)) := rfl

/-- THE CODE TREE: the fifteen selects at a stored word give the value of the word's code. -/
theorem sel_eq (w : BitVec 32) :
    sel (F := F) w = Scalar.ofBits .f32 (Cert.Spec.word (Cert.Spec.code w)) := by
  rw [sel_eq_pick, low4_eq]
  exact pick_digits _ _

/-! ## The same at a whole block of words

  Every vector operation of the body acts entry by entry, so the block of selects, read at an index, is the
  tree at that index's word. -/

section Block
variable {s : Shape}

local notation "T[" q ", " m "]" =>
  cmpi CmpIPredicate.ne (andi (andi q (broadcast _ (15#32 : BitVec 32))) (broadcast _ (m : BitVec 32))) (broadcast _ (0#32 : BitVec 32))
local notation "K[" b "]" => broadcast _ (Scalar.ofBits FTy.f32 (b : BitVec 32))

/-- An entrywise "and" read at an index. -/
theorem andi_apply {w : Nat} (x y : IVec s w) (j : s.Idx) : andi x y j = IntOp.andi (x j) (y j) := rfl
/-- An entrywise comparison read at an index. -/
theorem cmpi_apply {w : Nat} (p : CmpIPredicate) (x y : IVec s w) (j : s.Idx) : cmpi p x y j = IntOp.cmpi p (x j) (y j) := rfl

/-- The block of selects in the nesting the body computes it in, over any block `q` of stored words. -/
def vsel (q : IVec s 32) : FVec F s .f32 :=
  select T[q, 8#32]
    (select T[q, 4#32]
      (select T[q, 2#32] (select T[q, 1#32] K[0x3F3913B3#32] K[0x3F1007AB#32]) (select T[q, 1#32] K[0x3EE1A4B8#32] K[0x3EAD033A#32]))
      (select T[q, 2#32] (select T[q, 1#32] K[0x3E7C04DD#32] K[0x3E24CAE3#32]) (select T[q, 1#32] K[0x3DA2FAFF#32] K[0x00000000#32])))
    (select T[q, 4#32]
      (select T[q, 2#32] (select T[q, 1#32] K[0xBCEEF0CA#32] K[0xBDD9FD40#32]) (select T[q, 1#32] K[0xBE3D353F#32] K[0xBE91A24D#32]))
      (select T[q, 2#32] (select T[q, 1#32] K[0xBECA32A0#32] K[0xBF066B30#32]) (select T[q, 1#32] K[0xBF3239B1#32] K[0xBF800000#32])))

/-- At an index the block of selects is the tree at that index's word. -/
theorem vsel_apply (q : IVec s 32) (j : s.Idx) : vsel (F := F) q j = sel (q j) := rfl

/-- The block of selects is, entry by entry, the value of the stored word's code. -/
theorem vsel_eq (q : IVec s 32) :
    vsel (F := F) q = fun j => Scalar.ofBits .f32 (Cert.Spec.word (Cert.Spec.code (q j))) :=
  funext fun j => sel_eq (q j)

end Block

end Cert.Tree

end
-- ==== Proof.KI.R0Body.lean ====
/-
  Region 0's body obligation: at every grid point the dequantization kernel, run on the point's staging
  buffers, leaves the two input blocks as they were and the output block at `out0` of them.

  The kernel first expands the block of scales (each scale repeated over its sixty-four entries) into a scratch
  buffer, storing it whole. Then eight trips of a loop, trip k on the columns [512k, 512k + 512): the stored
  words there go through fifteen two-way selects on their low four bits, which pick each word's code value;
  the values are multiplied by the expanded scales there, narrowed, and stored into the output buffer there.
  So every trip's store is the block of one function of the output's index — code value times scale, narrowed:
  `out0` — that its rectangle names, and the eight rectangles cover the 4096 columns: the output buffer ends
  at `out0` of the two input blocks, whatever it and the scratch held before.
-/
import proofs.«420805_j11192684773386_3_alg».proof.Proof.KI.R0Defs
import proofs.«420805_j11192684773386_3_alg».proof.Proof.Gen.KernelIdeal.Loops
import proofs.«420805_j11192684773386_3_alg».proof.Proof.TreeLemma
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

variable {F : FTy → Type} [FloatOps F]

local notation "𝕄" => MT nD τ sig Unit (Elt F) ℕ (UR sig nD τ) ℕ

/-! ## The loop's trips -/

/-- The loop makes eight trips. -/
theorem trips8 : k0_t1_loop.trips = 8 := by decide

/-! ## The payloads, entry by entry -/

/-- A block of scales taken through the kernel's reshapes and broadcast is each scale repeated over its sixty-four
    entries: entry (r, i) of the result has row-major position r·4096 + i = (r·64 + i/64)·64 + i%64, so it is entry
    (r, i/64, i%64) of the three-axis broadcast, which reads the scale at (r, i/64, 0), that is at (r, i/64). -/
theorem pay1_eq (xs : Vec F S256x64 .f32) : k0_pay1 xs = sexp xs := by
  funext j
  have h0 : (j 0).val < 256 := (j 0).isLt
  have h1 : (j 1).val < 4096 := (j 1).isLt
  unfold k0_pay1 sexp
  simp only [shapeCast_self]
  rw [shapeCast_apply _ _ j (ix3 (⟨(j 0).val, h0⟩ : Fin 256) (⟨(j 1).val / 64, by omega⟩ : Fin 64) (⟨(j 1).val % 64, by omega⟩ : Fin 64))
    (by rw [Shape.rowMajor_val_three, Shape.rowMajor_val_two]; simp; omega)]
  rw [broadcastTo_apply _ _ _ (ix3 (⟨(j 0).val, h0⟩ : Fin 256) (⟨(j 1).val / 64, by omega⟩ : Fin 64) (0 : Fin 1))
    (by intro a; fin_cases a <;> simp)]
  rw [shapeCast_apply _ _ _ (ix2 (⟨(j 0).val, h0⟩ : Fin 256) (⟨(j 1).val / 64, by omega⟩ : Fin 64))
    (by rw [Shape.rowMajor_val_three, Shape.rowMajor_val_two]; simp)]

/-- A chunk's payload at an entry: every operation of the chunk acts entry by entry, so the entry is the select tree
    at that entry's stored word — the word's code value — times the entry's scale, narrowed. -/
theorem pay2_apply (s : Vec F S256x512 .f32) (q : Vec F S256x512 .i32) (x : S256x512.Idx) :
    k0_pay2 s (k0_pay4 q) (k0_pay5 q) (k0_pay6 q) (k0_pay7 q) (k0_pay8 q) (k0_pay9 q) (k0_pay10 q) (k0_pay11 (F := F)) (k0_pay12 (F := F)) x
      = FloatOps.truncf .bf16 Facts₀.bitsLt_bf16_f32 (FloatOps.mulf (tblF (Cert.Spec.code (q x))) (s x)) := by
  show FloatOps.truncf .bf16 _ (FloatOps.mulf (Cert.Tree.sel (q x)) (s x)) = _
  rw [Cert.Tree.sel_eq]; rfl

/-- The output block at an entry. -/
theorem out0_entry (xq : Vec F S256x4096 .i32) (xs : Vec F S256x64 .f32) (j : S256x4096.Idx) :
    out0 xq xs j = FloatOps.truncf .bf16 Facts₀.bitsLt_bf16_f32 (FloatOps.mulf (tblF (Cert.Spec.code (xq j))) (sexp xs j)) := rfl

/-! ## The trips' pieces -/

/-- The rectangle trip k reads and writes: all rows, columns [512k, 512k + 512). -/
abbrev rc (k : Fin k0_t1_loop.trips) : Rect S256x4096 := Rect.unit (s := S256x4096) (k0_off1 k) S256x512.size (k0_off1_inb k)

section Trip
variable (𝒱 : Variants) (c : Dev nD) (bd : Option 𝒱.V) (i : grid0.Coords)
    (arg1 : Memref sig .tc .vmem S256x4096 .i32) (harg1 : arg1.IsWhole)
    (arg2 : Memref sig .tc .vmem S256x64 .f32) (harg2 : arg2.IsWhole)
    (arg3 : Memref sig .tc .vmem S256x4096 .bf16) (harg3 : arg3.IsWhole)
    (arg4 : Memref sig .tc .vmem S256x4096 .f32) (harg4 : arg4.IsWhole)
    (X1 : BufTy.Contents (Elt F) arg1.view.ty) (X4 : BufTy.Contents (Elt F) arg4.view.ty)

/-- Trip k writes one piece: through its rectangle, the chunk's payload of what the words' buffer and the expanded
    scales' buffer hold at that same rectangle. -/
theorem tripL_eq (k : Fin k0_t1_loop.trips) :
    tripL_k0_t1 (F := F) 𝒱 c bd i arg1 harg1 arg2 harg2 arg3 harg3 arg4 harg4 X1 X4 k
      = [⟨rc k, k0_pay2 (View.readAt (Elt F) arg4.view (rc k).toLoadRect X4)
          (k0_pay4 (View.readAt (Elt F) arg1.view (rc k).toLoadRect X1)) (k0_pay5 (View.readAt (Elt F) arg1.view (rc k).toLoadRect X1))
          (k0_pay6 (View.readAt (Elt F) arg1.view (rc k).toLoadRect X1)) (k0_pay7 (View.readAt (Elt F) arg1.view (rc k).toLoadRect X1))
          (k0_pay8 (View.readAt (Elt F) arg1.view (rc k).toLoadRect X1)) (k0_pay9 (View.readAt (Elt F) arg1.view (rc k).toLoadRect X1))
          (k0_pay10 (View.readAt (Elt F) arg1.view (rc k).toLoadRect X1)) (k0_pay11 (F := F)) (k0_pay12 (F := F))⟩] := by
  unfold tripL_k0_t1 trip_k0_t1; rfl

/-- When the scales' buffer holds the expanded scales, trip k's piece is the block of `out0` its rectangle names. -/
theorem trip_piece (xs : Vec F S256x64 .f32) (hX4 : arg4.view.read (Elt F) X4 = sexp xs) (k : Fin k0_t1_loop.trips) :
    ∀ p ∈ tripL_k0_t1 (F := F) 𝒱 c bd i arg1 harg1 arg2 harg2 arg3 harg3 arg4 harg4 X1 X4 k,
      ∀ x : p.1.shape.Idx, p.2 x = out0 (arg1.view.read (Elt F) X1) xs (p.1.emb x) := by
  intro p hp
  rw [tripL_eq, List.mem_singleton] at hp
  subst hp
  intro x
  refine (pay2_apply _ _ x).trans ?_
  rw [out0_entry, ← hX4]
  rfl

/-- So is every piece of the trips before n, -/
theorem pb_pieces (xs : Vec F S256x64 .f32) (hX4 : arg4.view.read (Elt F) X4 = sexp xs) :
    ∀ n, n ≤ k0_t1_loop.trips → ∀ p ∈ pb_k0_t1 (F := F) 𝒱 c bd i arg1 harg1 arg2 harg2 arg3 harg3 arg4 harg4 X1 X4 n,
      ∀ x : p.1.shape.Idx, p.2 x = out0 (arg1.view.read (Elt F) X1) xs (p.1.emb x)
  | 0, _ => fun p hp => absurd hp List.not_mem_nil
  | n + 1, hn => by
    intro p hp
    have e := pb_k0_t1_succ (F := F) 𝒱 c bd i arg1 harg1 arg2 harg2 arg3 harg3 arg4 harg4 X1 X4 ⟨n, hn⟩
    rw [show pb_k0_t1 (F := F) 𝒱 c bd i arg1 harg1 arg2 harg2 arg3 harg3 arg4 harg4 X1 X4 (n + 1) = _ from e] at hp
    rcases List.mem_append.mp hp with h | h
    · exact trip_piece 𝒱 c bd i arg1 harg1 arg2 harg2 arg3 harg3 arg4 harg4 X1 X4 xs hX4 ⟨n, hn⟩ p h
    · exact pb_pieces xs hX4 n (Nat.le_of_succ_le hn) p h

/-- and the trips before n cover the columns below 512·n: a column in [512·n, 512·n + 512) lies in trip n's rectangle. -/
theorem pb_cover :
    ∀ n, n ≤ k0_t1_loop.trips → ∀ y : S256x4096.Idx, (y 1).val < 512 * n →
      ∃ p ∈ pb_k0_t1 (F := F) 𝒱 c bd i arg1 harg1 arg2 harg2 arg3 harg3 arg4 harg4 X1 X4 n, y ∈ p.1.set
  | 0, _, y, hy => absurd hy (by omega)
  | n + 1, hn, y, hy => by
    rw [show pb_k0_t1 (F := F) 𝒱 c bd i arg1 harg1 arg2 harg2 arg3 harg3 arg4 harg4 X1 X4 (n + 1) = _ from
      pb_k0_t1_succ (F := F) 𝒱 c bd i arg1 harg1 arg2 harg2 arg3 harg3 arg4 harg4 X1 X4 ⟨n, hn⟩]
    by_cases h : (y 1).val < 512 * n
    · obtain ⟨p, hp, hm⟩ := pb_cover n (Nat.le_of_succ_le hn) y h
      exact ⟨p, List.mem_append_right _ hp, hm⟩
    · refine ⟨_, List.mem_append_left _ (by rw [tripL_eq]; exact List.mem_singleton_self _), ?_⟩
      have h0 : (y 0).val < 256 := (y 0).isLt
      rw [Rect.mem_set_unit, k0_off1_eq]
      intro a
      fin_cases a
      · simp; exact h0
      · simp; omega

/-- After the eight trips the output buffer reads `out0` of the words and the scales, whatever it held before: every
    piece is a block of that one function, and the eight rectangles cover the 4096 columns. -/
theorem read_out (xs : Vec F S256x64 .f32) (hX4 : arg4.view.read (Elt F) X4 = sexp xs) (f3 : BufTy.Contents (Elt F) arg3.view.ty) :
    arg3.view.read (Elt F) (arg3.view.writes (Elt F) f3
        (pb_k0_t1 (F := F) 𝒱 c bd i arg1 harg1 arg2 harg2 arg3 harg3 arg4 harg4 X1 X4 k0_t1_loop.trips))
      = out0 (arg1.view.read (Elt F) X1) xs := by
  funext y
  have h1 : (y 1).val < 4096 := (y 1).isLt
  exact View.read_writes_apply_of_pieces _ _ (out0 (arg1.view.read (Elt F) X1) xs) _
    (pb_pieces 𝒱 c bd i arg1 harg1 arg2 harg2 arg3 harg3 arg4 harg4 X1 X4 xs hX4 _ le_rfl) y
    (pb_cover 𝒱 c bd i arg1 harg1 arg2 harg2 arg3 harg3 arg4 harg4 X1 X4 _ le_rfl y (by rw [trips8]; omega))

end Trip

/-! ## The scratch: the expanded scales -/

theorem zeros64 : (![0, 0] : Fin S256x64.rank → Nat) = fun _ => 0 := by funext a; fin_cases a <;> rfl
theorem zeros4096 : (![0, 0] : Fin S256x4096.rank → Nat) = fun _ => 0 := by funext a; fin_cases a <;> rfl

/-- The whole block as a rectangle. -/
abbrev rW : Rect S256x4096 := Rect.unit (s := S256x4096) ![0, 0] S256x4096.size inb_S256x4096_S256x4096_0_0

/-- A buffer stored whole reads the payload back, whatever it held before. -/
theorem read_whole (arg4 : Memref sig .tc .vmem S256x4096 .f32) (w : Vec F S256x4096 .f32) (f : BufTy.Contents (Elt F) arg4.view.ty) :
    arg4.view.read (Elt F) (arg4.view.writes (Elt F) f [⟨rW, w⟩]) = w := by
  have hc : ∀ y : S256x4096.Idx, ∃ p ∈ ([⟨rW, w⟩] : List (View.Piece (Elt F) S256x4096 .f32)), y ∈ p.1.set :=
    fun y => ⟨⟨rW, w⟩, List.mem_singleton_self _, View.mem_set_unit_zero zeros4096 inb_S256x4096_S256x4096_0_0 y⟩
  rw [View.read_writes_eq_canon _ _ _ hc]
  exact View.canon_unit_zero zeros4096 inb_S256x4096_S256x4096_0_0 w

/-- The scratch after the kernel's whole store into it reads the expanded scales: the store's payload is the
    expansion of the scales' block, loaded whole. -/
theorem read_scratch (arg2 : Memref sig .tc .vmem S256x64 .f32) (harg2 : arg2.IsWhole)
    (arg4 : Memref sig .tc .vmem S256x4096 .f32) (x1 : Vec F S256x64 .f32) (f : BufTy.Contents (Elt F) arg4.view.ty) :
    arg4.view.read (Elt F) (arg4.view.writes (Elt F) f
      [⟨Rect.unit (s := S256x4096) ![0, 0] S256x4096.size inb_S256x4096_S256x4096_0_0,
        k0_pay1 (View.readAt (Elt F) arg2.view (Rect.unit (s := S256x64) ![0, 0] S256x64.size inb_S256x64_S256x64_0_0).toLoadRect (harg2.unread x1))⟩])
      = sexp x1 := by
  have hv : View.readAt (Elt F) arg2.view (Rect.unit (s := S256x64) ![0, 0] S256x64.size inb_S256x64_S256x64_0_0).toLoadRect (harg2.unread x1) = x1 := by
    rw [View.readAt_eq_ld, harg2.read_unread, View.ld_unit_zero zeros64]
  rw [hv, pay1_eq]
  exact read_whole arg4 _ f

/-! ## The kernel's run -/

set_option maxHeartbeats 2000000 in
/-- The kernel on whole memrefs — the words' at `x0`, the scales' at `x1`, the output's and the scratch at anything —
    runs to the continuation holding the two inputs as they were, the output at `out0 x0 x1` and the scratch at
    something: the scratch is stored whole (the expanded scales) before the loop reads it, and after the loop's eight
    trips the output holds their eight pieces. -/
theorem sound_kernel0 (c : Dev nD) (E : Set ℕ) (i : grid0.Coords)
    (arg1 : Memref sig .tc .vmem S256x4096 .i32) (harg1 : arg1.IsWhole)
    (arg2 : Memref sig .tc .vmem S256x64 .f32) (harg2 : arg2.IsWhole)
    (arg3 : Memref sig .tc .vmem S256x4096 .bf16) (harg3 : arg3.IsWhole)
    (arg4 : Memref sig .tc .vmem S256x4096 .f32) (harg4 : arg4.IsWhole)
    (x0 : Vec F S256x4096 .i32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d)
        ∗ (∃ f, arg4.view.loc (c : Thread nD τ) ↦[arg4.view.set]{fullShare} f)
        ∗ (iprop(owns (c : Thread nD τ) arg1 fullShare x0 ∗ owns (c : Thread nD τ) arg2 fullShare x1
            ∗ owns (c : Thread nD τ) arg3 fullShare (out0 x0 x1)
            ∗ (∃ f, arg4.view.loc (c : Thread nD τ) ↦[arg4.view.set]{fullShare} f)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d3, %f3, -, H3⟩, ⟨%f4, H4⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    refine (read_out Variants.none c none i arg1 harg1 arg2 harg2 arg3 harg3 arg4 harg4 _ _ x1
      (read_scratch arg2 harg2 arg4 x1 _) f3).trans ?_
    rw [harg1.read_unread]
  iexists _; iexact H4

/-! ## The inputs' buffers when the body is called -/

variable (V : (c : Dev nD) → (b : Ref sig .tc) → Buf (Elt F) ((c : Thread nD τ).loc b))

/-- The words' current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The scales' current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point: the inputs' memrefs hold their blocks; the scratch buffer is taken out of the invariant's
    scoped rest for the run and put back, at whatever it then holds, after it; the generator register and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2,
    show (dat0 V c).Φ t.castSucc = Pipeline.ΦA spec0 c from rfl]
  unfold Pipeline.ΦA
  rw [scopedRest0_eq]
  iintro ⟨⟨⟨H4, Hrest⟩, Hp⟩, Ho, ⟨%d0, H0⟩, ⟨%d1, H1⟩, ⟨%d2, H2⟩⟩
  iapply (sound_kernel0 c Set.univ (grid0.coords t) _ _ _ _ _ _ (Memref.whole cc0_scratch0) (Memref.isWhole_whole _)
    (iblk0 V c 0 t) (iblk0 V c 1 t) _)
  isplitl [H0]; · iexact H0
  isplitl [H1]; · iexact H1
  isplitl [H2]; · iexists _; iexact H2
  isplitl [H4]
  · icases H4 with ⟨%f, H4⟩
    iexists f
    simp only [Memref.view_whole, View.set_whole]
    iexact H4
  iintro ⟨H0, H1, H2, ⟨%f, H4⟩⟩
  simp only [Memref.view_whole, View.set_whole]
  isplitl [H4 Hrest Hp]
  · isplitr [Hp]
    · isplitl [H4]
      · iexists f; iexact H4
      iexact Hrest
    iexact Hp
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  Region 1 (the matrix product call), read at the extended reals: its blocks, the partial product one
  grid point adds, the running sum an output block holds after each point, and the proof data of its
  pipeline.

  The grid is (i, j, k) with k innermost: the output block (i, j) is set to zero plus the first partial
  product at k = 0 and has one partial product added at every later k; it is written back after k = 15.
  The weight rows' window overhangs the weight matrix on the last j (11008 rows in blocks of 2048): the
  rows of the staging block past the matrix's end hold words nothing names, here read as zero, and
  they reach only the output block's columns past the result's end, which are never written back.
-/
import proofs.«420805_j11192684773386_3_alg».proof.Proof.Gen.KernelIdeal.Launch
import proofs.«420805_j11192684773386_3_alg».proof.Proof.Gen.KernelIdeal.Skeleton
import proofs.«420805_j11192684773386_3_alg».proof.Proof.Gen.KernelIdeal.Points
import proofs.«420805_j11192684773386_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

local notation "𝕄" => MT nD τ sig Unit (Elt Ideal) ℕ (UR sig nD τ) ℕ

section Regions
variable (V : (c : Dev nD) → (b : Ref sig .tc) → Buf (Elt Ideal) ((c : Thread nD τ).loc b))

/-- Window `w`'s block at point `t` (its part inside the array), read off its array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The block of x at point `t` (this window's blocks tile its array). -/
abbrev xblk1 (c : Dev nD) (t : Fin cfg1.N) : FVec Ideal S2048x256 .bf16 := iblk1 V c 0 t

/-- The block of weight rows at point `t`, zero on the rows past the matrix's end. -/
def wblk1 (c : Dev nD) (t : Fin cfg1.N) : FVec Ideal S2048x256 .bf16 :=
  win1_1.fill (grid1.coords t) (fun _ => (0 : EReal)) (iblk1 V c 1 t)

/-- The partial product of point `t`: the x block against the weight block over their shared 256 columns. -/
def part1 (c : Dev nD) (t : Fin cfg1.N) : FVec Ideal S2048x2048 .f32 :=
  matmul (F := Ideal) (φ₁ := .bf16) (φ₂ := .bf16) dot_S2048x256_S2048x256_S2048x2048_1_1_0_0_n_n none (xblk1 V c t) (wblk1 V c t) (constant (F := Ideal) S2048x2048 .f32 0x00000000#32)

/-- What the output block holds after point `n`: zero plus the partial product where k = 0 (the point's
    number is a multiple of 16), else what the point before left plus the partial product. -/
def acc1 (c : Dev nD) : (n : ℕ) → n < cfg1.N → FVec Ideal S2048x2048 .f32
  | 0, h => addf (F := Ideal) (φ := .f32) (broadcast S2048x2048 (Scalar.ofBits (F := Ideal) .f32 0x00000000#32)) (part1 V c ⟨0, h⟩)
  | n + 1, h =>
    if (n + 1) % 16 = 0 then addf (F := Ideal) (φ := .f32) (broadcast S2048x2048 (Scalar.ofBits (F := Ideal) .f32 0x00000000#32)) (part1 V c ⟨n + 1, h⟩)
    else addf (F := Ideal) (φ := .f32) (acc1 c n (Nat.lt_of_succ_lt h)) (part1 V c ⟨n + 1, h⟩)

/-- The proof data of pipeline 1 on core `c`, at the extended reals. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => wblk1 V c t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = acc1 V c t.val t.isLt := by dsimp only [dat1]

end Regions

end Cert.KernelIdeal.Hand

end
-- ==== Proof.KI.R1Body.lean ====
/-
  Region 1's body obligation at the extended reals: at every grid point the matrix-product kernel, run
  on the point's staging buffers, leaves the x block as it was, the weight block as it was on the rows
  inside the matrix, and the output block at the running sum `acc1` on the columns inside the result.

  Three parts. The run: on whole staging buffers the kernel leaves the output buffer at
  (found + x · wᵀ), where "found" is the zero block at k = 0 (stored first, then read back) and the
  buffer's contents otherwise. The geometry: the output window's columns and the weight window's rows
  are cut at the same place (both count the 11008 weight rows in blocks of 2048, by the grid's j), the
  weight window is never cut along the 256 shared columns, and the cuts do not change while k advances
  inside one (i, j). The arithmetic: entry (a, b) of x · wᵀ is a sum over the shared axis of
  x(a, ·) · w(b, ·), so it reads row b of the weight block only; for a column b inside the result, row b
  lies inside the weight matrix, where the staged block is the matrix's whatever fills the rest.
-/
import proofs.«420805_j11192684773386_3_alg».proof.Proof.KI.R1Defs
import proofs.«420805_j11192684773386_3_alg».proof.Proof.LibDotLastAxis
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WholeRead
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-! The lemmas below the obligation's own statement live in `R1`, apart from the other region's. -/
namespace R1

/-! ## The kernel on whole staging buffers -/

/-- The kernel's branch condition ("k = 0") as it reads the grid coordinates. -/
abbrev cond1 (i : grid1.Coords) : Prop := (Scalar.cmpi .ne (Scalar.extui (Scalar.cmpi .eq (BitVec.ofNat 32 (i 2).val) 0#32)) 0#32) = 1#1

/-- It holds exactly at the points whose number is a multiple of 16 (k is the innermost of the three axes). -/
theorem hcond1 : ∀ t : Fin cfg1.N, cond1 (grid1.coords t) ↔ t.val % 16 = 0 :=
  (by decide +kernel : ∀ t : Fin grid1.N, cond1 (grid1.coords t) ↔ t.val % 16 = 0)

/-- The kernel's accesses are at offsets zero. -/
theorem hz2 : (![0, 0] : Fin 2 → Nat) = fun _ => 0 := funext fun a => by fin_cases a <;> rfl

/-- At k = 0: the output buffer is zeroed, read back, and left at zero plus the product of the other two
    buffers' contents, whatever it held; those two are left as they were. -/
theorem sound_body1_A (c : Dev nD) (E : Set ℕ) (i : grid1.Coords)
    (arg3 : Memref sig .tc .vmem S2048x256 .bf16) (harg3 : arg3.IsWhole) (arg4 : Memref sig .tc .vmem S2048x256 .bf16) (harg4 : arg4.IsWhole)
    (arg5 : Memref sig .tc .vmem S2048x2048 .f32) (harg5 : arg5.IsWhole) (hc : cond1 i)
    (X0 X1 : FVec Ideal S2048x256 .bf16) (X2 : FVec Ideal S2048x2048 .f32) (K : PUnit → sProp 𝕄) :
    iprop((owns (c : Thread nD τ) arg3 fullShare X0 ∗ owns (c : Thread nD τ) arg4 fullShare X1 ∗ owns (c : Thread nD τ) arg5 fullShare X2)
          ∗ (iprop(owns (c : Thread nD τ) arg3 fullShare X0 ∗ owns (c : Thread nD τ) arg4 fullShare X1
                  ∗ owns (c : Thread nD τ) arg5 fullShare (k1_pay2 (F := Ideal) (k1_pay1 (F := Ideal)) X0 X1)) -∗ K ⟨⟩))
      ⊢ wp frame (wpE (defs₀ (F := Ideal)) Variants.none c none) E
          (cc1__matmul_kernel (F := Ideal) i arg3 harg3 arg4 harg4 arg5 harg5) K := by
  simp only [cc1__matmul_kernel_eq_skeleton]; unfold cc1__matmul_kernel_skel
  unfold owns
  iintro ⟨⟨⟨%f0, %hf0, H0⟩, ⟨%f1, %hf1, H1⟩, ⟨%f2, %hf2, H2⟩⟩, Hk⟩
  obtain rfl := harg3.eq_unread hf0
  obtain rfl := harg4.eq_unread hf1
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  -- the last store covers the buffer: it reads back as that store's payload, whose first operand is what the
  -- load after the zeroing store read (the zero block) and whose other two are the two input buffers' contents
  rw [View.read_writes_eq_canon _ _ _ (fun y => ⟨_, List.mem_cons_self, View.mem_set_unit_zero hz2 inb_S2048x2048_S2048x2048_0_0 y⟩),
    View.canon_cons_unit_zero hz2]
  have e3 : sound_body1_A.sl.v3 c arg5 = k1_pay1 (F := Ideal) := by
    unfold sound_body1_A.sl.v3
    exact View.readCov_unit_zero _ hz2 _ _
  have e0 : View.readAt (Elt Ideal) arg3.view (Rect.unit ![0, 0] S2048x256.size inb_S2048x256_S2048x256_0_0).toLoadRect (harg3.unread X0) = X0 := by
    rw [View.readAt_eq_ld, harg3.read_unread, View.ld_unit_zero hz2]
  have e1 : View.readAt (Elt Ideal) arg4.view (Rect.unit ![0, 0] S2048x256.size inb_S2048x256_S2048x256_0_0).toLoadRect (harg4.unread X1) = X1 := by
    rw [View.readAt_eq_ld, harg4.read_unread, View.ld_unit_zero hz2]
  rw [e3, e0, e1]

/-- At k ≠ 0: the output buffer is left at what it held plus the product of the other two buffers' contents. -/
theorem sound_body1_B (c : Dev nD) (E : Set ℕ) (i : grid1.Coords)
    (arg3 : Memref sig .tc .vmem S2048x256 .bf16) (harg3 : arg3.IsWhole) (arg4 : Memref sig .tc .vmem S2048x256 .bf16) (harg4 : arg4.IsWhole)
    (arg5 : Memref sig .tc .vmem S2048x2048 .f32) (harg5 : arg5.IsWhole) (hc : ¬cond1 i)
    (X0 X1 : FVec Ideal S2048x256 .bf16) (X2 : FVec Ideal S2048x2048 .f32) (K : PUnit → sProp 𝕄) :
    iprop((owns (c : Thread nD τ) arg3 fullShare X0 ∗ owns (c : Thread nD τ) arg4 fullShare X1 ∗ owns (c : Thread nD τ) arg5 fullShare X2)
          ∗ (iprop(owns (c : Thread nD τ) arg3 fullShare X0 ∗ owns (c : Thread nD τ) arg4 fullShare X1
                  ∗ owns (c : Thread nD τ) arg5 fullShare (k1_pay2 (F := Ideal) X2 X0 X1)) -∗ K ⟨⟩))
      ⊢ wp frame (wpE (defs₀ (F := Ideal)) Variants.none c none) E
          (cc1__matmul_kernel (F := Ideal) i arg3 harg3 arg4 harg4 arg5 harg5) K := by
  simp only [cc1__matmul_kernel_eq_skeleton]; unfold cc1__matmul_kernel_skel
  unfold owns
  iintro ⟨⟨⟨%f0, %hf0, H0⟩, ⟨%f1, %hf1, H1⟩, ⟨%f2, %hf2, H2⟩⟩, Hk⟩
  obtain rfl := harg3.eq_unread hf0
  obtain rfl := harg4.eq_unread hf1
  obtain rfl := harg5.eq_unread hf2
  sl_exec (disch := first | exact hc)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  -- the one store covers the buffer: it reads back as the store's payload over the three buffers' contents
  rw [View.read_writes_eq_canon _ _ _ (fun y => ⟨_, List.mem_cons_self, View.mem_set_unit_zero hz2 inb_S2048x2048_S2048x2048_0_0 y⟩),
    View.canon_cons_unit_zero hz2]
  have e2 : View.readAt (Elt Ideal) arg5.view (Rect.unit ![0, 0] S2048x2048.size inb_S2048x2048_S2048x2048_0_0).toLoadRect (harg5.unread X2) = X2 := by
    rw [View.readAt_eq_ld, harg5.read_unread, View.ld_unit_zero hz2]
  have e0 : View.readAt (Elt Ideal) arg3.view (Rect.unit ![0, 0] S2048x256.size inb_S2048x256_S2048x256_0_0).toLoadRect (harg3.unread X0) = X0 := by
    rw [View.readAt_eq_ld, harg3.read_unread, View.ld_unit_zero hz2]
  have e1 : View.readAt (Elt Ideal) arg4.view (Rect.unit ![0, 0] S2048x256.size inb_S2048x256_S2048x256_0_0).toLoadRect (harg4.unread X1) = X1 := by
    rw [View.readAt_eq_ld, harg4.read_unread, View.ld_unit_zero hz2]
  rw [e2, e0, e1]

/-! ## Where the windows are cut -/

/-- The output window's columns and the weight window's rows are cut at the same place. -/
theorem xsize2_col_eq (i : grid1.Coords) : win1_2.xsize i 1 = win1_1.xsize i 0 := rfl

/-- The weight window is never cut along its columns: 4096 = 16 · 256. -/
theorem xsize1_col (i : grid1.Coords) : win1_1.xsize i 1 = 256 := by
  have h : (i 2).val < 16 := (i 2).isLt
  have e : cc1_transform_1 i 1 = (i 2).val := by
    show (BitVec.ofNat 32 (i 2).val).toNat = (i 2).val
    rw [BitVec.toNat_ofNat]; exact Nat.mod_eq_of_lt (by omega)
  show (Pipeline.Clip.of (cc1_transform_1 i 1) 256 4096).extent 256 = 256
  rw [e]; unfold Pipeline.Clip.of; rw [if_pos (by omega)]

/-- A column of the output block inside the result is a row of the weight block inside the matrix, at every column
    of that row. -/
theorem moved1_of_moved2 (i : grid1.Coords) (a b : Fin 2048) (k : Fin 256)
    (h : win1_2.moved i (ix2 a b) = true) : win1_1.moved i (ix2 b k) = true := by
  rw [Window.moved_iff] at h ⊢
  intro ax
  match ax with
  | ⟨0, _⟩ => exact h 1
  | ⟨1, _⟩ => show (k : Nat) < win1_1.xsize i 1; rw [xsize1_col]; exact k.isLt

/-- Cutting at one point what was filled at another point whose cuts are the same gives the filling back. -/
theorem cut_fill_of_xsize_eq {G : Pipeline.Grid} (w : Window sig G) {α : Type} (i i' : G.Coords) (hx : ∀ a, w.xsize i' a = w.xsize i a)
    (d A : w.block.Idx → α) : w.cut i (w.fill i' d (w.cut i' A)) = w.cut i A := by
  funext j
  have hm : w.moved i' (w.xinj i j) = true := (w.moved_iff i' _).mpr fun a => by rw [hx a]; exact (j a).isLt
  show w.fill i' d (w.cut i' A) (w.xinj i j) = A (w.xinj i j)
  unfold Window.fill; rw [dif_pos hm]

/-- Inside one (i, j) block of the output the cuts do not change from one k to the next. -/
theorem xsize2_pred : ∀ t : Fin grid1.N, t.val % 16 ≠ 0 →
    ∀ a, win1_2.xsize (grid1.coords ⟨t.val - 1, Nat.lt_of_le_of_lt (Nat.sub_le _ _) t.isLt⟩) a = win1_2.xsize (grid1.coords t) a := by
  decide +kernel

/-! ## The product reads one weight row per output column -/

/-- Entry (a, b) of the product of the x block with a filled-out weight block, for a column b inside the result,
    does not depend on what fills the weight block past the matrix's end: it is the sum over the shared axis of
    x(a, ·) · w(b, ·), and row b lies inside the matrix. -/
theorem matmul_fill_row (i : grid1.Coords) (x : FVec Ideal S2048x256 .bf16) (d d' : S2048x256.Idx → EReal)
    (B : (win1_1.xblock i).Idx → EReal) (a b : Fin 2048) (h : win1_2.moved i (ix2 a b) = true) :
    matmul (F := Ideal) (φ₁ := .bf16) (φ₂ := .bf16) dot_S2048x256_S2048x256_S2048x2048_1_1_0_0_n_n none x (win1_1.fill i d B) (constant (F := Ideal) S2048x2048 .f32 0x00000000#32) (ix2 a b)
      = matmul (F := Ideal) (φ₁ := .bf16) (φ₂ := .bf16) dot_S2048x256_S2048x256_S2048x2048_1_1_0_0_n_n none x (win1_1.fill i d' B) (constant (F := Ideal) S2048x2048 .f32 0x00000000#32) (ix2 a b) := by
  have e : ∀ w : FVec Ideal S2048x256 .bf16,
      matmul (F := Ideal) (φ₁ := .bf16) (φ₂ := .bf16) dot_S2048x256_S2048x256_S2048x2048_1_1_0_0_n_n none x w (constant (F := Ideal) S2048x2048 .f32 0x00000000#32) (ix2 a b)
        = ∑ k : Fin 256, x (ix2 a k) * w (ix2 b k) := fun w =>
    LibDotLastAxis.matmul_zero_apply (m := 2048) (n := 2048) (k := 256) dot_S2048x256_S2048x256_S2048x2048_1_1_0_0_n_n_wf none x w a b
  rw [e, e]
  refine Finset.sum_congr rfl fun k _ => ?_
  have hm := moved1_of_moved2 i a b k h
  unfold Window.fill; rw [dif_pos hm, dif_pos hm]

/-- So what the kernel stores — (found + x · wᵀ) with the weight block filled out by anything — agrees, on the
    columns inside the result, with the running sum's step — (kept + x · wᵀ) with the weight block filled out by
    zeros — whenever what it found agrees there with what was kept. -/
theorem cut_pay2 (i : grid1.Coords) (Z Z' : FVec Ideal S2048x2048 .f32) (x : FVec Ideal S2048x256 .bf16) (d d' : S2048x256.Idx → EReal)
    (B : (win1_1.xblock i).Idx → EReal) (hZ : win1_2.cut i Z = win1_2.cut i Z') :
    win1_2.cut i (k1_pay2 (F := Ideal) Z x (win1_1.fill i d B))
      = win1_2.cut i (addf (F := Ideal) (φ := .f32) Z'
          (matmul (F := Ideal) (φ₁ := .bf16) (φ₂ := .bf16) dot_S2048x256_S2048x256_S2048x2048_1_1_0_0_n_n none x (win1_1.fill i d' B) (constant (F := Ideal) S2048x2048 .f32 0x00000000#32))) := by
  funext j
  obtain ⟨a, b, hab⟩ : ∃ a b : Fin 2048, win1_2.xinj i j = ix2 a b := ⟨_, _, eq_ix2 _⟩
  have hm : win1_2.moved i (ix2 a b) = true := hab ▸ win1_2.moved_xinj i j
  have hz : Z (ix2 a b) = Z' (ix2 a b) := by
    have h1 : Z (win1_2.xinj i j) = Z' (win1_2.xinj i j) := congrFun hZ j
    rw [hab] at h1; exact h1
  show k1_pay2 Z x (win1_1.fill i d B) (win1_2.xinj i j) = addf Z' _ (win1_2.xinj i j)
  unfold k1_pay2
  simp only [shapeCast_self]
  rw [hab, addf_apply, addf_apply, matmul_fill_row i x d d' B a b hm, hz]

/-! ## What the body finds, and the obligation -/

section Obl
variable (V : (c : Dev nD) → (b : Ref sig .tc) → Buf (Elt Ideal) ((c : Thread nD τ).loc b))

/-- The x buffer was just fetched: it holds its block (the window is not cut). -/
theorem before1_0 (c : Dev nD) (t : Fin cfg1.N) (d) : (dat1 V c).before 0 t d = iblk1 V c 0 t := by
  rw [Dat.before_fetched _ 0 t (fetch1_0 t)]; unfold Dat.fetched Dat.blockOf iblk1; rw [A_eq1]; try rfl

/-- The weight buffer was just fetched: it holds its block on the rows inside the matrix, anything elsewhere. -/
theorem before1_1 (c : Dev nD) (t : Fin cfg1.N) (d) :
    (dat1 V c).before 1 t d = win1_1.fill (grid1.coords t) d (iblk1 V c 1 t) := by
  rw [Dat.before_fetched _ 1 t (fetch1_1 t)]; unfold Dat.fetched Dat.blockOf iblk1; rw [A_eq1]; try rfl

/-- At k = 0 the output buffer holds anything: the first point, or the point before wrote it back. -/
theorem before1_2_A (c : Dev nD) (t : Fin cfg1.N) (h0 : t.val % 16 = 0) (d) : (dat1 V c).before 2 t d = d := by
  refine Dat.before_out_reset _ 2 rfl t ?_ d
  by_cases ht : t.val = 0
  · exact .inl ht
  · exact .inr ⟨ht, (flush1_2 _).mpr (by show (t.val - 1) % 16 = 15; omega)⟩

/-- At k ≠ 0 it holds what the point before left: the running sum on the columns inside the result, anything elsewhere. -/
theorem before1_2_B (c : Dev nD) (t : Fin cfg1.N) (h0 : ¬t.val % 16 = 0) (d) :
    (dat1 V c).before 2 t d
      = win1_2.fill (grid1.coords ⟨t.val - 1, Nat.lt_of_le_of_lt (Nat.sub_le _ _) t.isLt⟩) d
          (win1_2.cut (grid1.coords ⟨t.val - 1, Nat.lt_of_le_of_lt (Nat.sub_le _ _) t.isLt⟩)
            (acc1 V c (t.val - 1) (Nat.lt_of_le_of_lt (Nat.sub_le _ _) t.isLt))) := by
  rw [Dat.before_out_acc _ 2 rfl t (by omega)
    (Bool.eq_false_iff.mpr fun h => by have := (flush1_2 _).mp h; dsimp only at this; omega) (fun _ => rfl) d]
  unfold Dat.kept; rw [after1_2]; try rfl

/-- The running sum at a point with k = 0, -/
theorem acc1_A (c : Dev nD) (t : Fin cfg1.N) (h0 : t.val % 16 = 0) :
    acc1 V c t.val t.isLt = addf (F := Ideal) (φ := .f32) (broadcast S2048x2048 (Scalar.ofBits (F := Ideal) .f32 0x00000000#32)) (part1 V c t) := by
  obtain ⟨n, hn⟩ := t
  cases n with
  | zero => rfl
  | succ n => show (if (n + 1) % 16 = 0 then _ else _) = _; rw [if_pos h0]

/-- and at a point with k ≠ 0. -/
theorem acc1_B (c : Dev nD) (t : Fin cfg1.N) (h0 : ¬t.val % 16 = 0) :
    acc1 V c t.val t.isLt = addf (F := Ideal) (φ := .f32) (acc1 V c (t.val - 1) (Nat.lt_of_le_of_lt (Nat.sub_le _ _) t.isLt)) (part1 V c t) := by
  obtain ⟨n, hn⟩ := t
  cases n with
  | zero => exact absurd (Nat.zero_mod _) h0
  | succ n => show (if (n + 1) % 16 = 0 then _ else _) = _; rw [if_neg h0]; rfl

/-- What the kernel stores at a point with k = 0 is the running sum there, on the columns inside the result. -/
theorem stored_A (c : Dev nD) (t : Fin cfg1.N) (h0 : t.val % 16 = 0) (d1 : S2048x256.Idx → EReal) :
    win1_2.cut (grid1.coords t) (k1_pay2 (F := Ideal) (k1_pay1 (F := Ideal)) (iblk1 V c 0 t) (win1_1.fill (grid1.coords t) d1 (iblk1 V c 1 t)))
      = win1_2.cut (grid1.coords t) (acc1 V c t.val t.isLt) := by
  rw [acc1_A V c t h0]; unfold part1 wblk1
  exact cut_pay2 (grid1.coords t) _ _ (iblk1 V c 0 t) d1 (fun _ => 0) (iblk1 V c 1 t) rfl

/-- So is what it stores at a point with k ≠ 0, having found the running sum of the point before on those columns
    (the cuts are the same at the two points). -/
theorem stored_B (c : Dev nD) (t : Fin cfg1.N) (h0 : ¬t.val % 16 = 0) (d1 : S2048x256.Idx → EReal) (d2 : S2048x2048.Idx → EReal) :
    win1_2.cut (grid1.coords t)
        (k1_pay2 (F := Ideal)
          (win1_2.fill (grid1.coords ⟨t.val - 1, Nat.lt_of_le_of_lt (Nat.sub_le _ _) t.isLt⟩) d2
            (win1_2.cut (grid1.coords ⟨t.val - 1, Nat.lt_of_le_of_lt (Nat.sub_le _ _) t.isLt⟩)
              (acc1 V c (t.val - 1) (Nat.lt_of_le_of_lt (Nat.sub_le _ _) t.isLt))))
          (iblk1 V c 0 t) (win1_1.fill (grid1.coords t) d1 (iblk1 V c 1 t)))
      = win1_2.cut (grid1.coords t) (acc1 V c t.val t.isLt) := by
  rw [acc1_B V c t h0]; unfold part1 wblk1
  exact cut_pay2 (grid1.coords t) _ _ (iblk1 V c 0 t) d1 (fun _ => 0) (iblk1 V c 1 t)
    (cut_fill_of_xsize_eq win1_2 (grid1.coords t) (grid1.coords ⟨t.val - 1, Nat.lt_of_le_of_lt (Nat.sub_le _ _) t.isLt⟩)
      (xsize2_pred t h0) d2 _)

/-- Contents of the output buffer that agree with the running sum on the columns inside the result are of the
    form the obligation asks: the running sum there, themselves elsewhere. -/
theorem leaves1_2 (c : Dev nD) (t : Fin cfg1.N) (R : FVec Ideal S2048x2048 .f32)
    (h : win1_2.cut (grid1.coords t) R = win1_2.cut (grid1.coords t) (acc1 V c t.val t.isLt)) :
    (win1 2).fill (grid1.coords t) R ((win1 2).cut (grid1.coords t) ((dat1 V c).after 2 t)) = R := by
  rw [after1_2]; exact win1_2.fill_congr_cut _ h

/-- The weight buffer, left as found, is of the form the obligation asks: its block on the rows inside the matrix. -/
theorem leaves1_1 (c : Dev nD) (t : Fin cfg1.N) (d1 : S2048x256.Idx → EReal) :
    (win1 1).fill (grid1.coords t) d1 ((win1 1).cut (grid1.coords t) ((dat1 V c).after 1 t))
      = win1_1.fill (grid1.coords t) d1 (iblk1 V c 1 t) := by
  rw [after1_1]; unfold wblk1
  exact congrArg (win1_1.fill (grid1.coords t) d1) (win1_1.cut_fill _ _ _)

end Obl

end R1

open R1

section Obligation
variable (V : (c : Dev nD) → (b : Ref sig .tc) → Buf (Elt Ideal) ((c : Thread nD τ).loc b))

/-- The library's body obligation (the form for windows whose blocks may overhang their arrays), at every point. -/
theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  by_cases h0 : t.val % 16 = 0
  · -- k = 0: whatever the output buffer holds, the kernel leaves it at zero plus the product
    rw [before1_2_A V c t h0 d2]
    iapply (sound_body1_A c Set.univ (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      ((hcond1 t).mpr h0)
      (iblk1 V c 0 t) (win1_1.fill (grid1.coords t) d1 (iblk1 V c 1 t)) d2 _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]
    · rw [after1_0]; iexact H0
    isplitl [H1]
    · iexists d1; rw [leaves1_1 V c t d1]; iexact H1
    · iexists _; rw [leaves1_2 V c t _ (stored_A V c t h0 d1)]; iexact H2
  · -- k ≠ 0: the output buffer holds the running sum of the point before on the columns inside the result
    rw [before1_2_B V c t h0 d2]
    iapply (sound_body1_B c Set.univ (grid1.coords t) (win1_0.stage (cfg1.slots t 0)) (hstage1_0 ((cfg1.slots t 0).cast nbuf1_0))
      (win1_1.stage (cfg1.slots t 1)) (hstage1_1 ((cfg1.slots t 1).cast nbuf1_1)) (win1_2.stage (cfg1.slots t 2)) (hstage1_2 ((cfg1.slots t 2).cast nbuf1_2))
      (fun h => h0 ((hcond1 t).mp h))
      (iblk1 V c 0 t) (win1_1.fill (grid1.coords t) d1 (iblk1 V c 1 t)) _ _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]
    · rw [after1_0]; iexact H0
    isplitl [H1]
    · iexists d1; rw [leaves1_1 V c t d1]; iexact H1
    · iexists _; rw [leaves1_2 V c t _ (stored_B V c t h0 d1 d2)]; iexact H2

end Obligation

end Cert.KernelIdeal.Hand

end
-- ==== Proof.KI.Run.lean ====
/-
  The whole kernel program run at the extended reals.

  The program is four stretches in a row: ten host operations that prepare the scales and the narrowed
  activations, the dequantization call, the matrix-product call, and one last reshape. Each core's
  unscoped buffers are followed through the four: their contents at a boundary are the contents at the
  boundary before, changed only where the stretch in between writes. A host stretch changes the buffers
  its operations write; a call changes its windows' arrays, which end at what the call's write-backs
  leave, and nothing else. Every execution ends with the buffers at the last of these contents; from that
  the result buffer and the five arguments can be read off.
-/
import proofs.«420805_j11192684773386_3_alg».proof.Proof.KI.R0Body
import proofs.«420805_j11192684773386_3_alg».proof.Proof.KI.R1Body
import proofs.«420805_j11192684773386_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The buffers' contents at the five boundaries -/

/-- A core's buffers when the program starts (the generator registers `ρ` play no part in them). -/
abbrev W0 (m : (ℓ : Loc nD τ sig) → Buf (Elt Ideal) ℓ) (ρ : Dev nD → PrngReg) : Dev nD → Valuation τ sig (Elt Ideal) :=
  fun c b => m (c, b)

variable (m : (ℓ : Loc nD τ sig) → Buf (Elt Ideal) ℓ) (ρ : Dev nD → PrngReg)

/-- After the ten host operations: what the dequantization call finds. -/
abbrev W1 : Dev nD → Valuation τ sig (Elt Ideal) := fun c => StableHlo.after hostOps0 (W0 m ρ c)
/-- The same contents, read at the references of the core. -/
abbrev V1 : (c : Dev nD) → (b : Ref sig .tc) → Buf (Elt Ideal) ((c : Thread nD τ).loc b) := fun c b => W1 m ρ c b
/-- After the dequantization call: its three arrays at what its write-backs leave, all else untouched.
    This is also what the matrix-product call finds, since no host operation lies between the two calls. -/
def W2 (c : Dev nD) : Valuation τ sig (Elt Ideal) :=
  Pipeline.withArrays spec0 c (W1 m ρ c) fun w => (dat0 (V1 m ρ) c).arrAt w cfg0.N
abbrev V2 : (c : Dev nD) → (b : Ref sig .tc) → Buf (Elt Ideal) ((c : Thread nD τ).loc b) := fun c b => W2 m ρ c b
/-- After the matrix-product call: its three arrays at what its write-backs leave, all else untouched. -/
def W3 (c : Dev nD) : Valuation τ sig (Elt Ideal) :=
  Pipeline.withArrays spec1 c (W2 m ρ c) fun w => (dat1 (V2 m ρ) c).arrAt w cfg1.N
abbrev V3 : (c : Dev nD) → (b : Ref sig .tc) → Buf (Elt Ideal) ((c : Thread nD τ).loc b) := fun c b => W3 m ρ c b
/-- After the last reshape: the contents every execution ends with. -/
abbrev W4 : Dev nD → Valuation τ sig (Elt Ideal) := fun c => StableHlo.after hostOps2 (W3 m ρ c)

/-! ### Reading a boundary's contents at one buffer -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

/-- A buffer none of the ten host operations writes holds after them what it held before. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A buffer other than the reshape's target holds after it what it held before. -/
theorem W4_of (c : Dev nD) (r : Ref sig .tc) (h : r ∉ (hostOps2_W : List (Ref sig .tc))) :
    W4 m ρ c (Proc.devRef .tc r) = W3 m ρ c (Proc.devRef .tc r) :=
  StableHlo.after_of_writes_sub hostOps2 _ hostOps2_writes h

/-- The result of the dequantization call is what its write-backs leave in its output array. -/
theorem V2_v10 (c : Dev nD) : V2 m ρ c main_v10 = (dat0 (V1 m ρ) c).arrAt 2 cfg0.N := W2_arr m ρ c 2
/-- The narrowed activations are no array of the dequantization call: it leaves them alone. -/
theorem V2_v1 (c : Dev nD) : V2 m ρ c main_v1 = V1 m ρ c main_v1 := W2_of_ne m ρ c main_v1 (by decide)
/-- The dequantization call changes none but its three arrays. -/
theorem V2_eq_V1_of (c : Dev nD) (b : Ref sig .tc) (hb : ∀ w, Pipeline.arrRef spec0 w ≠ b) : V2 m ρ c b = V1 m ρ c b :=
  W2_of_ne m ρ c b hb
/-- The result of the matrix-product call is what its write-backs leave in its output array. -/
theorem W3_v11 (c : Dev nD) : W3 m ρ c (Proc.devRef .tc main_v11) = (dat1 (V2 m ρ) c).arrAt 2 cfg1.N := W3_arr m ρ c 2

/-! ### The five arguments hold at every boundary what they held at the start

No host operation writes an argument. The dequantization call reads the stored words (`main_arg1`) through an
input window, whose array the write-backs never touch; every other argument is no array of either call. -/

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)
theorem V1_arg2 (c : Dev nD) : V1 m ρ c main_arg2 = m ((c : Thread nD τ).loc main_arg2) := W1_of m ρ c main_arg2 (by decide)
theorem V1_arg3 (c : Dev nD) : V1 m ρ c main_arg3 = m ((c : Thread nD τ).loc main_arg3) := W1_of m ρ c main_arg3 (by decide)
theorem V1_arg4 (c : Dev nD) : V1 m ρ c main_arg4 = m ((c : Thread nD τ).loc main_arg4) := W1_of m ρ c main_arg4 (by decide)

/-- The stored words' array is the first window's, an input: after all the write-backs it is as the call found it. -/
theorem V2_arg1 (c : Dev nD) : V2 m ρ c main_arg1 = V1 m ρ c main_arg1 :=
  (W2_arr m ρ c 0).trans (((dat0 (V1 m ρ) c).arrAt_in 0 rfl _).trans (A_eq0 (V1 m ρ) c 0))

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <|
    (W2_of_ne m ρ c main_arg0 (by decide)).trans (V1_arg0 m ρ c)
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <|
    (V2_arg1 m ρ c).trans (V1_arg1 m ρ c)
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <|
    (W2_of_ne m ρ c main_arg2 (by decide)).trans (V1_arg2 m ρ c)
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <|
    (W2_of_ne m ρ c main_arg3 (by decide)).trans (V1_arg3 m ρ c)
theorem W4_main_arg4 (c : Dev nD) : W4 m ρ c (Proc.devRef .tc main_arg4) = m ((c : Thread nD τ).loc main_arg4) :=
  (W4_of m ρ c main_arg4 (by decide)).trans <| (W3_of_ne m ρ c main_arg4 (by decide)).trans <|
    (W2_of_ne m ρ c main_arg4 (by decide)).trans (V1_arg4 m ρ c)

/-! ### The buffers the run speaks of are unscoped -/

/-- An unscoped reference of the core is one of those whose contents the run follows. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem mem_uc_v12 : (Proc.devRef .tc main_v12 : DevRef τ sig) ∈ Pipeline.ucRefs τ sig := mem_uc main_v12 (by decide)
theorem mem_uc_arg0 : (Proc.devRef .tc main_arg0 : DevRef τ sig) ∈ Pipeline.ucRefs τ sig := mem_uc main_arg0 (by decide)
theorem mem_uc_arg1 : (Proc.devRef .tc main_arg1 : DevRef τ sig) ∈ Pipeline.ucRefs τ sig := mem_uc main_arg1 (by decide)
theorem mem_uc_arg2 : (Proc.devRef .tc main_arg2 : DevRef τ sig) ∈ Pipeline.ucRefs τ sig := mem_uc main_arg2 (by decide)
theorem mem_uc_arg3 : (Proc.devRef .tc main_arg3 : DevRef τ sig) ∈ Pipeline.ucRefs τ sig := mem_uc main_arg3 (by decide)
theorem mem_uc_arg4 : (Proc.devRef .tc main_arg4 : DevRef τ sig) ∈ Pipeline.ucRefs τ sig := mem_uc main_arg4 (by decide)

/-! ## The proof data of the two calls, and what a core holds between stretches -/

/-- Each call's proof data at the contents the call finds: the dequantization call's at `V1`, the matrix-product
    call's at `V2`. -/
def pdats : (p : Fin 2) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V2 m ρ) c

abbrev 𝒱₀ : Variants := Variants.none
/-- No core waits on another: no level is in use. -/
abbrev L : GSem nD τ sig → Finset Unit := fun _ => ∅
abbrev lv : GSem nD τ sig → Unit → ℕ := fun _ _ => 0

/-- Beside its buffers a core holds, between any two stretches, its generator register at some state and the
    record that it owes no signal to anyone. -/
abbrev R (c : Dev nD) : sProp 𝕄 :=
  iprop((∃ r, prngReg c r) ∗ ∃ W, owes (c : Thread nD τ) (0 : CellTallies nD τ sig Unit) W)

/-- Between stretches: every unscoped buffer whole at the boundary's contents `W c`, and `R c`. -/
abbrev T (W : Dev nD → Valuation τ sig (Elt Ideal)) (c : Dev nD) : sProp 𝕄 :=
  iprop(StableHlo.held (c : Thread nD τ) (Pipeline.ucRefs τ sig) (W c) ∗ R c)

/-- At the end, the part of the last state that speaks of memory: the buffers at `W4` and the register. -/
abbrev Tₙ (c : Dev nD) : sProp 𝕄 :=
  iprop(StableHlo.held (c : Thread nD τ) (Pipeline.ucRefs τ sig) (W4 m ρ c) ∗ ∃ r, prngReg c r)

/-- A run of host operations as a stretch: from the buffers at `W c` to the buffers at what the operations make
    of `W c`, `R c` carried along unchanged. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ### Owing nothing, in the form a call's loop keeps it

A call's loop keeps the core's dues as tallies together with a bound on the pairs it has recorded. Both calls owe
nothing at every point and bound nothing, so this is the plain record "owes nothing" going in and coming out. -/

theorem owesAt_of_owes {cfg : Cfg sig Λ₀} {c : Dev nD} (d : Dat τ (Elt Ideal) Unit ℕ (UR sig nD τ) ℕ cfg c)
    (t : Fin (cfg.N + 1)) (h0 : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin Pipeline.Dat.bound
  rw [h0, hr]
  iintro ⟨%W, HO⟩
  iexists W
  isplitr
  · ipureintro; exact fun x _ => Or.inl (Set.mem_univ x)
  iexact HO

theorem owes_of_owesAt {cfg : Cfg sig Λ₀} {c : Dev nD} (d : Dat τ (Elt Ideal) Unit ℕ (UR sig nD τ) ℕ cfg c)
    (t : Fin (cfg.N + 1)) (h0 : d.owed t = 0) :
    d.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-! ## The two calls as stretches -/

set_option backward.isDefEq.respectTransparency.types false in
/-- THE DEQUANTIZATION CALL, from the buffers at `W1` to the buffers at `W2`. Going in, its three arrays are taken
    out of the unscoped buffers and the rest is set aside; the generator register goes into the loop's invariant
    with the scoped buffers the call does not stage. Coming out, the arrays at what the write-backs left and the
    rest that was set aside are, together, the unscoped buffers at `W2`: `W2` has the arrays there and agrees with
    `W1` elsewhere. The body's obligation holds exactly; the loop is given its weaker form. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (V1 m ρ) c).loose
  hwaits := Pipeline.hwaits_of_owed_zero _ _ _ _ L lv 0 fun _ _ => rfl
  pre := T (W1 m ρ)
  post := T (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have harr := Pipeline.arrays_of_unscopedBufs (p := 0) (pcfgs (F := Ideal)) adm (pdats m ρ) launch0.win launch0.arr_whole c
      ((pdats m ρ 0 c).share_full fun _ => rfl) (V1 m ρ c) fun _ => rfl
    rw [Pipeline.unscopedBufs_held] at harr
    have hnopre : (BI.emp : sProp 𝕄) ⊢ Pipeline.prefHeld (pcfgs (F := Ideal) 0).pre c (fun _ => fullShare) (adm (F := Ideal) 0).1 := by
      unfold Pipeline.prefHeld; rw [show (Finset.univ : Finset (Fin 0)) = ∅ from rfl, BI.bigSep_empty]
    have howe := owesAt_of_owes (pdats m ρ 0 c) 0 rfl rfl
    iintro ⟨⟨Hbufs, Hreg, Howes⟩, -, -⟩
    ihave Hsplit := harr $$ Hbufs
    icases Hsplit with ⟨Harrs, Hrest⟩
    imodintro
    isplitl [Harrs]; · iexact Harrs
    isplitr; · iapply hnopre; iempintro
    isplitl [Howes]; · iapply howe; iexact Howes
    isplitl [Hreg]; · iexact Hreg
    iexact Hrest
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    have howe := owes_of_owesAt (pdats m ρ 0 c) (Fin.last _) rfl
    iintro ⟨Harrs, Howes, Hreg, Hrest⟩
    imodintro
    isplitl [Harrs Hrest]
    · iapply hjoin; isplitl [Harrs] <;> iassumption
    isplitl [Hreg]; · iexact Hreg
    iapply howe; iexact Howes

set_option backward.isDefEq.respectTransparency.types false in
/-- THE MATRIX-PRODUCT CALL, from the buffers at `W2` (it follows the dequantization call at once) to the buffers
    at `W3`, in the same way. Two of its windows overhang their arrays on the last column block, so its body's
    obligation is already stated in the loop's weaker form. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V2 m ρ) c
  hwaits := Pipeline.hwaits_of_owed_zero _ _ _ _ L lv 1 fun _ _ => rfl
  pre := T (W2 m ρ)
  post := T (W3 m ρ)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    have harr := Pipeline.arrays_of_unscopedBufs (p := 1) (pcfgs (F := Ideal)) adm (pdats m ρ) launch1.win launch1.arr_whole c
      ((pdats m ρ 1 c).share_full fun _ => rfl) (V2 m ρ c) fun _ => rfl
    rw [Pipeline.unscopedBufs_held] at harr
    have hnopre : (BI.emp : sProp 𝕄) ⊢ Pipeline.prefHeld (pcfgs (F := Ideal) 1).pre c (fun _ => fullShare) (adm (F := Ideal) 1).1 := by
      unfold Pipeline.prefHeld; rw [show (Finset.univ : Finset (Fin 0)) = ∅ from rfl, BI.bigSep_empty]
    have howe := owesAt_of_owes (pdats m ρ 1 c) 0 rfl rfl
    iintro ⟨⟨Hbufs, Hreg, Howes⟩, -, -⟩
    ihave Hsplit := harr $$ Hbufs
    icases Hsplit with ⟨Harrs, Hrest⟩
    imodintro
    isplitl [Harrs]; · iexact Harrs
    isplitr; · iapply hnopre; iempintro
    isplitl [Howes]; · iapply howe; iexact Howes
    isplitl [Hreg]; · iexact Hreg
    iexact Hrest
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at hjoin
    have howe := owes_of_owesAt (pdats m ρ 1 c) (Fin.last _) rfl
    iintro ⟨Harrs, Howes, Hreg, Hrest⟩
    imodintro
    isplitl [Harrs Hrest]
    · iapply hjoin; isplitl [Harrs] <;> iassumption
    isplitl [Hreg]; · iexact Hreg
    iapply howe; iexact Howes

/-! ## The program as its four stretches, and every execution's end -/

/-- The ten host operations from `W0`, the dequantization call, the matrix-product call, the reshape from `W3`. -/
abbrev segs : List (Pipeline.Seg (pcfgs (F := Ideal)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

/-- The program is these four run one after another. -/
theorem main_run (c : Dev nD) : main (F := Ideal) c = Pipeline.Seg.run (segs m ρ) := (main_chain c).trans (by chain_rfl)

/-- The last stretch's end state, regrouped: the memory part on one side, owing nothing on the other. -/
theorem T_end (c : Dev nD) :
    T (W4 m ρ) c ⊢ (iprop(Tₙ m ρ c ∗ ∃ W, owes (c : Thread nD τ) (0 : CellTallies nD τ sig Unit) W) : sProp 𝕄) := by
  iintro ⟨Hbufs, Hreg, Howes⟩
  isplitl [Hbufs Hreg]
  · isplitl [Hbufs]; · iexact Hbufs
    iexact Hreg
  iexact Howes

set_option backward.isDefEq.respectTransparency.types false in
/-- From any memory with all counters at zero, every fair execution of the program on the cores ends, with no
    fault, and at its end every unscoped buffer of every core holds the last boundary's contents `W4`.
    Each stretch is entered from what the stretch before left: the thread states chain by name, and the last
    one is only regrouped. At the start the core's unscoped buffers at the launch memory are the buffers at `W0`;
    at the end the buffers held at `W4` beside the final state say what its memory holds. -/
theorem run_main : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by rw [BI.bigSep_emp_const]
      iintro Hu; imodintro
      isplitl [Hu]; · iapply hown; iexact Hu
      iapply hemp; iempintro)
    (T₀ := T (W0 m ρ)) (Tₙ := Tₙ m ρ)
    (hch := ⟨fun _ => .rfl, fun _ => .rfl, fun _ => .rfl, fun _ => .rfl, fun c => T_end m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W4 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h => h)

end Cert.KernelIdeal.Hand

end
-- ==== Proof.KI.Host.lean ====
/-
  The host operations before the first call and after the second, read at an index over the extended reals.

  Before the first call the input x is re-laid as a matrix of 8192 rows (row 2048·b + s is x[b, s, ·]) and
  narrowed to bf16, which changes nothing over the extended reals; the scales are computed entry by entry
  (the stored integer, exactly, over its group's factor, plus the mean) and re-laid as 11008 rows of 64.
  After the second call the result matrix of 8192 rows is re-laid as 4 × 2048 rows.
-/
import proofs.«420805_j11192684773386_3_alg».proof.Proof.Gen.KernelIdeal.Launch
import proofs.«420805_j11192684773386_3_alg».proof.Proof.Spec
import Idealize.ShloMosaic.Lib.StableHlo.Run
import Idealize.ShloMosaic.Lib.Pipeline.Value
import Idealize.ShloMosaic.Lib.IdealHost
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- A matrix of 8192 rows read as 4 × 2048 rows: row r is (r / 2048, r % 2048). -/
theorem relaid_x (x : S4x2048x4096.Idx → EReal) (h : S4x2048x4096.ShapeCasts S8192x4096) (j : S8192x4096.Idx) :
    shapeCast S8192x4096 x h j
      = x (ix3 (⟨(j 0).val / 2048, by have h0 : (j 0).val < 8192 := (j 0).isLt; omega⟩ : Fin 4)
               (⟨(j 0).val % 2048, Nat.mod_lt _ (by decide)⟩ : Fin 2048)
               (⟨(j 1).val, (j 1).isLt⟩ : Fin 4096)) := by
  refine shapeCast_apply x h j _ ?_
  rw [Shape.rowMajor_val_three, Shape.rowMajor_val_two]
  have h0 : (j 0).val < 8192 := (j 0).isLt
  show ((j 0).val / 2048 * 2048 + (j 0).val % 2048) * 4096 + (j 1).val = (j 0).val * 4096 + (j 1).val
  omega

/-- The re-laid, narrowed input: row 2048·b + s of the matrix is x[b, s, ·]. -/
theorem after0_v1 (W : Valuation τ sig (Elt Ideal)) :
    (StableHlo.after (Gen.hostOps0 (F := Ideal)) W (Proc.devRef .tc main_v1) : S8192x4096.Idx → EReal)
      = fun (j : S8192x4096.Idx) => (W (Proc.devRef .tc main_arg0) : S4x2048x4096.Idx → EReal)
          (ix3 (⟨(j 0).val / 2048, by have h : (j 0).val < 8192 := (j 0).isLt; omega⟩ : Fin 4)
               (⟨(j 0).val % 2048, Nat.mod_lt _ (by decide)⟩ : Fin 2048)
               (⟨(j 1).val, (j 1).isLt⟩ : Fin 4096)) := by
  have e : (StableHlo.after (Gen.hostOps0 (F := Ideal)) W (Proc.devRef .tc main_v1) : S8192x4096.Idx → EReal)
      = truncf (F := Ideal) (φ := .f32) .bf16 (shapeCast S8192x4096 (W (Proc.devRef .tc main_arg0) : S4x2048x4096.Idx → EReal) shapeCasts_S4x2048x4096_S8192x4096) bitsLt_bf16_f32 := by
    after_results; rfl
  rw [e]
  funext j
  rw [truncf_apply]
  exact relaid_x _ _ j

/-- A vector of 704512 entries read as 11008 rows of 64: entry (o, b) is entry 64·o + b. -/
theorem relaid_scales (x : S704512.Idx → EReal) (h : S704512.ShapeCasts S11008x64) (j : S11008x64.Idx) :
    shapeCast S11008x64 x h j
      = x (ix1 (⟨(j 0).val * 64 + (j 1).val, by
            have h0 : (j 0).val < 11008 := (j 0).isLt
            have h1 : (j 1).val < 64 := (j 1).isLt
            omega⟩ : Fin 704512)) := by
  refine shapeCast_apply x h j _ ?_
  rw [Shape.rowMajor_val_one, Shape.rowMajor_val_two]
  rfl

/-- Each group's factor repeated over its 256 blocks, laid flat: entry n is the factor of group n / 256. -/
theorem repeated_factor (qf : S2752.Idx → EReal) (hb : S2752.BroadcastsInDim S2752x256 (![0] : Fin 1 → Fin S2752x256.rank))
    (h : S2752x256.ShapeCasts S704512) (n : Fin 704512) :
    shapeCast S704512 (broadcastInDim S2752x256 ![0] hb qf) h (ix1 n)
      = qf (ix1 (⟨n.val / 256, by have := n.isLt; omega⟩ : Fin 2752)) := by
  have hn := n.isLt
  rw [shapeCast_apply _ h (ix1 n) (ix2 (⟨n.val / 256, by omega⟩ : Fin 2752) (⟨n.val % 256, Nat.mod_lt _ (by decide)⟩ : Fin 256)) (by
    rw [Shape.rowMajor_val_one, Shape.rowMajor_val_two]
    show n.val / 256 * 256 + n.val % 256 = n.val
    omega)]
  refine broadcastInDim_apply _ hb qf _ _ ?_
  intro a
  match a with
  | ⟨0, _⟩ => rfl

/-- The mean, a one-entry vector read as a scalar and spread over all blocks: every entry is the mean. -/
theorem spread_mean (mean : S1.Idx → EReal) (h : S1.ShapeCasts S_) (hb : S_.BroadcastsInDim S704512 (![] : Fin 0 → Fin S704512.rank))
    (i : S704512.Idx) :
    broadcastInDim S704512 ![] hb (shapeCast S_ mean h) i = mean (ix1 (0 : Fin 1)) := by
  rw [broadcastInDim_scalar_apply]
  refine shapeCast_apply mean h ix0 _ ?_
  have h1 := (S1.rowMajor (ix1 (0 : Fin 1))).isLt
  have h2 := (S_.rowMajor ix0).isLt
  have e1 : S1.numel = 1 := by decide
  have e2 : S_.numel = 1 := by decide
  omega

/-- The scales as the first call finds them: entry (o, b) is the scale of block 64·o + b. -/
theorem after0_v9 (W : Valuation τ sig (Elt Ideal)) :
    (StableHlo.after (Gen.hostOps0 (F := Ideal)) W (Proc.devRef .tc main_v9) : S11008x64.Idx → EReal)
      = fun (j : S11008x64.Idx) => Cert.Spec.scal (W (Proc.devRef .tc main_arg2)) (W (Proc.devRef .tc main_arg3)) (W (Proc.devRef .tc main_arg4))
          (⟨(j 0).val * 64 + (j 1).val, by
            have h0 : (j 0).val < 11008 := (j 0).isLt
            have h1 : (j 1).val < 64 := (j 1).isLt
            omega⟩ : Fin 704512) := by
  have e : (StableHlo.after (Gen.hostOps0 (F := Ideal)) W (Proc.devRef .tc main_v9) : S11008x64.Idx → EReal)
      = shapeCast S11008x64
          (addf (F := Ideal) (φ := .f32)
            (Host.divf (F := Ideal) (φ := .f32)
              (sitofp (F := Ideal) .f32 (W (Proc.devRef .tc main_arg2) : S704512.Idx → BitVec 32))
              (shapeCast S704512 (broadcastInDim S2752x256 ![0] bcast_S2752_S2752x256_0 (W (Proc.devRef .tc main_arg3) : S2752.Idx → EReal)) shapeCasts_S2752x256_S704512))
            (broadcastInDim S704512 ![] bcast_S_S704512 (shapeCast S_ (W (Proc.devRef .tc main_arg4) : S1.Idx → EReal) shapeCasts_S1_S_)))
          shapeCasts_S704512_S11008x64 := by
    after_results; rfl
  rw [e]
  funext j
  rw [relaid_scales, addf_apply, hostDivf_apply, sitofp_apply, repeated_factor, spread_mean]
  rfl

/-- A matrix of 8192 rows read as 4 × 2048 rows: entry (b, s, o) is entry (2048·b + s, o). -/
theorem relaid_out (y : S8192x11008.Idx → EReal) (h : S8192x11008.ShapeCasts S4x2048x11008) (j : S4x2048x11008.Idx) :
    shapeCast S4x2048x11008 y h j
      = y (ix2 (⟨(j 0).val * 2048 + (j 1).val, by
                  have h0 : (j 0).val < 4 := (j 0).isLt
                  have h1 : (j 1).val < 2048 := (j 1).isLt
                  omega⟩ : Fin 8192)
               (⟨(j 2).val, (j 2).isLt⟩ : Fin 11008)) := by
  refine shapeCast_apply y h j _ ?_
  rw [Shape.rowMajor_val_three, Shape.rowMajor_val_two]
  rfl

/-- The result as returned: entry (b, s, o) is entry (2048·b + s, o) of the second call's matrix. -/
theorem after2_v12 (W : Valuation τ sig (Elt Ideal)) :
    (StableHlo.after (Gen.hostOps2 (F := Ideal)) W (Proc.devRef .tc main_v12) : S4x2048x11008.Idx → EReal)
      = fun (j : S4x2048x11008.Idx) => (W (Proc.devRef .tc main_v11) : S8192x11008.Idx → EReal)
          (ix2 (⟨(j 0).val * 2048 + (j 1).val, by
                  have h0 : (j 0).val < 4 := (j 0).isLt
                  have h1 : (j 1).val < 2048 := (j 1).isLt
                  omega⟩ : Fin 8192)
               (⟨(j 2).val, (j 2).isLt⟩ : Fin 11008)) := by
  have e : (StableHlo.after (Gen.hostOps2 (F := Ideal)) W (Proc.devRef .tc main_v12) : S4x2048x11008.Idx → EReal)
      = shapeCast S4x2048x11008 (W (Proc.devRef .tc main_v11) : S8192x11008.Idx → EReal) shapeCasts_S8192x11008_S4x2048x11008 := by
    after_results; rfl
  rw [e]
  funext j
  exact relaid_out _ _ j

end Cert.KernelIdeal.Hand

end
-- ==== Proof.KI.Value0.lean ====
/-
  What the dequantization call leaves in its output array, over the extended reals.

  Entry (o, i) of the array is the value of the code stored at (o, i) times the scale at (o, i / 64): the
  narrowing to bf16 changes nothing over the extended reals. Each grid point t writes rows 256·t … 256·t + 255,
  computed from the same rows of the stored words and of the scales, and the 43 points' blocks tile the
  11008 rows, so the array ends holding that one function of the two input arrays.
-/
import proofs.«420805_j11192684773386_3_alg».proof.Proof.KI.R0Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-- The weights as one array: entry (o, i) is the value of the code stored at (o, i) times the scale at (o, i / 64). -/
def W0arr (q : IVec S11008x4096 32) (sc : FVec Ideal S11008x64 .f32) : FVec Ideal S11008x4096 .bf16 :=
  fun j => Cert.Spec.tbl (Cert.Spec.code (q j))
    * sc (ix2 (⟨(j 0).val, (j 0).isLt⟩ : Fin 11008)
             (⟨(j 1).val / 64, by have h : (j 1).val < 4096 := (j 1).isLt; omega⟩ : Fin 64))

/-- One block's result, entry by entry: narrowing changes nothing and the product is the extended reals'. -/
theorem out0_apply (xq : Vec Ideal S256x4096 .i32) (xs : Vec Ideal S256x64 .f32) (r : Fin 256) (i : Fin 4096) :
    out0 (F := Ideal) xq xs (ix2 r i)
      = Cert.Spec.tbl (Cert.Spec.code (xq (ix2 r i))) * xs (ix2 r (⟨i.val / 64, by have := i.isLt; omega⟩ : Fin 64)) := by
  unfold out0
  rw [truncf_apply, mulf_apply]
  rfl

/-- At grid point t every window's block is block (t, 0) of its array. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A block's result read where the array's index lies: if the block's stored word and scale at y are the
    arrays' at k, the block's result at y is the weight at k. -/
theorem out0_at (xq : Vec Ideal S256x4096 .i32) (xs : Vec Ideal S256x64 .f32)
    (q : IVec S11008x4096 32) (sc : FVec Ideal S11008x64 .f32) (y : S256x4096.Idx) (k : S11008x4096.Idx)
    (hq : xq y = q k)
    (hs : xs (ix2 (⟨(y 0).val, (y 0).isLt⟩ : Fin 256) (⟨(y 1).val / 64, by have h : (y 1).val < 4096 := (y 1).isLt; omega⟩ : Fin 64))
        = sc (ix2 (⟨(k 0).val, (k 0).isLt⟩ : Fin 11008) (⟨(k 1).val / 64, by have h : (k 1).val < 4096 := (k 1).isLt; omega⟩ : Fin 64))) :
    out0 (F := Ideal) xq xs y = W0arr q sc k := by
  obtain ⟨r, i, rfl⟩ : ∃ (r : Fin 256) (i : Fin 4096), y = ix2 r i := ⟨y 0, y 1, eq_ix2 y⟩
  rw [out0_apply]
  unfold W0arr
  rw [← hq, ← hs]

section Regions
variable (V : (c : Dev nD) → (b : Ref sig .tc) → Buf (Elt Ideal) ((c : Thread nD τ).loc b))

/-- What point t writes back is block t of the weights: rows 256·t … 256·t + 255 of the stored words and of the
    scales are what the point's two input blocks hold. -/
theorem flushed0_eq (c : Dev nD) (t : Fin cfg0.N) :
    (dat0 (F := Ideal) V c).flushed 2 t
      = ((cfg0.win 2).blk t).view.read (Elt Ideal) (W0arr (V c main_arg1) (V c main_v9)) := by
  show (cfg0.win 2).cut (grid0.coords t) ((dat0 V c).after 2 t) = _
  rw [after0_2]
  obtain ⟨e00, e01, e10, e11, e20, e21⟩ := blocks_at t
  funext j
  show out0 (iblk0 V c 0 t) (iblk0 V c 1 t) ((cfg0.win 2).xinj (grid0.coords t) j)
      = W0arr (V c main_arg1) (V c main_v9) (((cfg0.win 2).blk t).view.emb j)
  refine out0_at _ _ _ _ _ _ ?_ ?_
  · show V c main_arg1 (((cfg0.win 0).blk t).view.emb ((cfg0.win 2).xinj (grid0.coords t) j))
        = V c main_arg1 (((cfg0.win 2).blk t).view.emb j)
    refine congrArg (V c main_arg1) (funext fun a => Fin.ext ?_)
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  · show V c main_v9 (((cfg0.win 1).blk t).view.emb _) = V c main_v9 _
    refine congrArg (V c main_v9) (funext fun a => Fin.ext ?_)
    match a with
    | ⟨0, _⟩ => show win0_1.index t (0 : Fin 2) * 256 + 1 * (j 0).val = win0_2.index t (0 : Fin 2) * 256 + 1 * (j 0).val; omega
    | ⟨1, _⟩ =>
      have hj : (j 1).val < 4096 := (j 1).isLt
      show win0_1.index t (1 : Fin 2) * 64 + 1 * ((j 1).val / 64) = (win0_2.index t (1 : Fin 2) * 4096 + 1 * (j 1).val) / 64
      omega

/-- An index of the array lies in point t's block iff each coordinate lies in the block's range on its axis. -/
theorem mem_block0 (t : Fin cfg0.N) (i : S11008x4096.Idx) :
    i ∈ ((cfg0.win 2).blk t).view.set
      ↔ ∀ a : Fin 2, win0_2.index t a * S256x4096.size a ≤ (i a).val
          ∧ (i a).val < win0_2.index t a * S256x4096.size a + S256x4096.size a := by
  show i ∈ ((View.whole main_v10).slice (win0_2.rect t)).set ↔ _
  rw [View.set_slice_whole, Rect.mem_set_unit]
  exact Iff.rfl

/-- The 43 blocks of 256 rows tile the array: row r lies in the block of point r / 256. -/
theorem rows_covered (i : S11008x4096.Idx) :
    ∃ t : Fin cfg0.N, (cfg0.win 2).flush t = true ∧ i ∈ ((cfg0.win 2).blk t).view.set := by
  have hi0 : (i 0).val < 11008 := (i 0).isLt
  have hi1 : (i 1).val < 4096 := (i 1).isLt
  have hN : cfg0.N = 43 := N_0
  let t : Fin cfg0.N := ⟨(i 0).val / 256, by rw [hN]; omega⟩
  obtain ⟨-, -, -, -, e20, e21⟩ := blocks_at t
  have e20' : win0_2.index t (0 : Fin 2) = (i 0).val / 256 := e20
  refine ⟨t, flush0_2 t, ?_⟩
  rw [mem_block0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The array the dequantization call leaves: the weights, entry by entry. -/
theorem arr0 (c : Dev nD) :
    (dat0 (F := Ideal) V c).arrAt 2 cfg0.N = W0arr (V c main_arg1) (V c main_v9) :=
  (dat0 (F := Ideal) V c).arrAt_eq_of_cover 2 (W0arr (V c main_arg1) (V c main_v9))
    (fun t _ => flushed0_eq V c t) rows_covered

end Regions

end Cert.KernelIdeal.Hand

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.KI.Value1.lean ====
/-
  What region 1 (the matrix product call) leaves in its output array, at the extended reals.

  The grid is (i, j, k) in 4 × 6 × 16 with k innermost; point t has i = t / 96, j = t / 16 mod 6, k = t mod 16.
  The x block at t is rows 2048·i … of x and columns 256·k …; the weight block is rows 2048·j … of the weight
  matrix and the same columns, zero on the rows past the matrix's end (only at j = 5, where 768 rows remain);
  the output block is rows 2048·i … and columns 2048·j … of the result, cut to 768 columns at j = 5.

  One point's partial product at (a, b) is the sum over its 256 columns of x-block (a, ·) times weight-block (b, ·).
  The running block is zero plus the partial product at k = 0 and gains one partial product at each later k, so
  after k = 15 its entry (a, b), for b a column inside the result, is the sum over all 16 · 256 = 4096 columns of
  x[2048·i + a, ·] · w[2048·j + b, ·]: a column inside the result is a row inside the weight matrix, so the zero
  rows are never met. The block is written back only after k = 15, and the 4 × 6 blocks written back cover the
  result. Hence the array ends holding the product of x with the transposed weight matrix, entry by entry.
-/
import proofs.«420805_j11192684773386_3_alg».proof.Proof.KI.R1Defs
import proofs.«420805_j11192684773386_3_alg».proof.Proof.LibDotLastAxis
import proofs.«420805_j11192684773386_3_alg».proof.Proof.LibTile
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)
open scoped BigOperators

/-- The three windows' block indices at point `t`, in closed form: x moves with (i, k), the weight rows with
    (j, k), the output with (i, j), where i = t / 96, j = t / 16 mod 6, k = t mod 16. -/
theorem idx1 : ∀ t : Fin cfg1.N,
    win1_0.index t (0 : Fin 2) = t.val / 96 ∧ win1_0.index t (1 : Fin 2) = t.val % 16
    ∧ win1_1.index t (0 : Fin 2) = t.val / 16 % 6 ∧ win1_1.index t (1 : Fin 2) = t.val % 16
    ∧ win1_2.index t (0 : Fin 2) = t.val / 96 ∧ win1_2.index t (1 : Fin 2) = t.val / 16 % 6 :=
  (by decide +kernel : ∀ t : Fin grid1.N, _)

/-- The sizes of the blocks' parts inside their arrays at point `t`: whole blocks, except that at j = 5 the weight
    block keeps 768 of its 2048 rows and the output block 768 of its 2048 columns (11008 = 5 · 2048 + 768). -/
theorem xs1 : ∀ t : Fin cfg1.N,
    win1_0.xsize (grid1.coords t) (0 : Fin 2) = 2048 ∧ win1_0.xsize (grid1.coords t) (1 : Fin 2) = 256
    ∧ win1_1.xsize (grid1.coords t) (0 : Fin 2) = (if t.val / 16 % 6 = 5 then 768 else 2048) ∧ win1_1.xsize (grid1.coords t) (1 : Fin 2) = 256
    ∧ win1_2.xsize (grid1.coords t) (0 : Fin 2) = 2048 ∧ win1_2.xsize (grid1.coords t) (1 : Fin 2) = (if t.val / 16 % 6 = 5 then 768 else 2048) :=
  (by decide +kernel : ∀ t : Fin grid1.N, _)

section
variable (V : (c : Dev nD) → (b : Ref sig .tc) → Buf (Elt Ideal) ((c : Thread nD τ).loc b))

/-- The x array as region 1 finds it. -/
abbrev xarr (c : Dev nD) : FVec Ideal S8192x4096 .bf16 := V c main_v1
/-- The weight array as region 1 finds it. -/
abbrev warr (c : Dev nD) : FVec Ideal S11008x4096 .bf16 := V c main_v10

/-- Entry (a, kk) of the x block at point `t` is x at row 2048·i + a, column 256·k + kk. -/
theorem xblk1_apply (c : Dev nD) (t : Fin cfg1.N) (a : Fin 2048) (kk : Fin 256) (r : Fin 8192) (q : Fin 4096)
    (hr : r.val = 2048 * (t.val / 96) + a.val) (hq : q.val = 256 * (t.val % 16) + kk.val) :
    xblk1 V c t (ix2 a kk) = xarr V c (ix2 r q) := by
  obtain ⟨e0, e1, -⟩ := idx1 t
  show V c main_v1 (((cfg1.win 0).blk t).view.emb (ix2 a kk)) = V c main_v1 (ix2 r q)
  refine congrArg _ ?_
  funext ax; apply Fin.ext
  match ax with
  | ⟨0, _⟩ => show win1_0.index t (0 : Fin 2) * 2048 + 1 * a.val = r.val; omega
  | ⟨1, _⟩ => show win1_0.index t (1 : Fin 2) * 256 + 1 * kk.val = q.val; omega

/-- Entry (b, kk) of the weight block at point `t`, for a row 2048·j + b inside the matrix, is the weight matrix
    at that row and column 256·k + kk: such a row is among those the block keeps, so no zero is read. -/
theorem wblk1_apply (c : Dev nD) (t : Fin cfg1.N) (b : Fin 2048) (kk : Fin 256) (r : Fin 11008) (q : Fin 4096)
    (hr : r.val = 2048 * (t.val / 16 % 6) + b.val) (hq : q.val = 256 * (t.val % 16) + kk.val) :
    wblk1 V c t (ix2 b kk) = warr V c (ix2 r q) := by
  obtain ⟨-, -, e0, e1, -⟩ := idx1 t
  obtain ⟨-, -, s0, s1, -⟩ := xs1 t
  have hm : win1_1.moved (grid1.coords t) (ix2 b kk) = true := by
    rw [Window.moved_iff]
    intro ax
    match ax with
    | ⟨0, _⟩ => show b.val < win1_1.xsize (grid1.coords t) (0 : Fin 2); rw [s0]; have := r.isLt; split <;> omega
    | ⟨1, _⟩ => show kk.val < win1_1.xsize (grid1.coords t) (1 : Fin 2); rw [s1]; exact kk.isLt
  unfold wblk1 Window.fill
  rw [dif_pos hm]
  show V c main_v10 (((cfg1.win 1).blk t).view.emb _) = V c main_v10 (ix2 r q)
  refine congrArg _ ?_
  funext ax; apply Fin.ext
  match ax with
  | ⟨0, _⟩ => show win1_1.index t (0 : Fin 2) * 2048 + 1 * b.val = r.val; omega
  | ⟨1, _⟩ => show win1_1.index t (1 : Fin 2) * 256 + 1 * kk.val = q.val; omega

/-- One point's partial product at (a, b): the sum over the 256 shared columns of x-block (a, ·) times weight-block (b, ·). -/
theorem part1_apply (c : Dev nD) (t : Fin cfg1.N) (a : Fin 2048) (b : Fin 2048) :
    part1 V c t (ix2 a b) = ∑ kk : Fin 256, xblk1 V c t (ix2 a kk) * wblk1 V c t (ix2 b kk) := by
  unfold part1
  exact Idealize.ShloMosaic.LibDotLastAxis.matmul_zero_apply _ none (xblk1 V c t) (wblk1 V c t) a b

/-- At k = 0 the running block is zero plus the point's partial product. -/
theorem acc1_reset (c : Dev nD) (n : ℕ) (h : n < cfg1.N) (hn : n % 16 = 0) (j : S2048x2048.Idx) :
    acc1 V c n h j = 0 + part1 V c ⟨n, h⟩ j := by
  cases n with
  | zero =>
    unfold acc1
    show Ideal.ofBits .f32 0x00000000#32 + part1 V c ⟨0, h⟩ j = _
    rw [Ideal.ofBits_zero_f32]
  | succ m =>
    unfold acc1
    rw [if_pos hn]
    show Ideal.ofBits .f32 0x00000000#32 + part1 V c ⟨m + 1, h⟩ j = _
    rw [Ideal.ofBits_zero_f32]

/-- At k > 0 the running block is what the point before left plus the point's partial product. -/
theorem acc1_step (c : Dev nD) (n : ℕ) (h : n + 1 < cfg1.N) (hn : ¬ (n + 1) % 16 = 0) (j : S2048x2048.Idx) :
    acc1 V c (n + 1) h j = acc1 V c n (Nat.lt_of_succ_lt h) j + part1 V c ⟨n + 1, h⟩ j := by
  conv_lhs => unfold acc1
  rw [if_neg hn]
  rfl

/-- After k = 15 the running block's entry (a, b), for 2048·j + b a row inside the weight matrix, is the sum over
    all 4096 columns of x[2048·i + a, ·] · w[2048·j + b, ·]: sixteen partial sums of 256 columns each, started from zero. -/
theorem acc1_last (c : Dev nD) (t : Fin cfg1.N) (ht : t.val % 16 = 15) (a b : Fin 2048) (r : Fin 8192) (o : Fin 11008)
    (hr : r.val = 2048 * (t.val / 96) + a.val) (ho : o.val = 2048 * (t.val / 16 % 6) + b.val) :
    acc1 V c t.val t.isLt (ix2 a b) = ∑ k : Fin 4096, xarr V c (ix2 r k) * warr V c (ix2 o k) := by
  have hN : cfg1.N = 384 := Gen.N_1
  have htl : t.val < cfg1.N := t.isLt
  obtain ⟨q, hq⟩ : ∃ q, q = t.val / 16 := ⟨_, rfl⟩
  have hb : ∀ k, k < 16 → 16 * q + k < cfg1.N := fun k hk => by omega
  have same : ∀ (n n' : ℕ) (h : n < cfg1.N) (h' : n' < cfg1.N), n = n' → acc1 V c n h = acc1 V c n' h' := by
    intro n n' h h' e; subst e; rfl
  have key := Cert.Hand.LibTile.acc_last_eq_sum (M := EReal) (m := 16) (n := 256) (N := 4096) rfl (by decide)
    (fun k : Fin 4096 => xarr V c (ix2 r k) * warr V c (ix2 o k))
    (fun k => if h : 16 * q + k < cfg1.N then acc1 V c (16 * q + k) h (ix2 a b) else 0)
    (fun s kk => if h : 16 * q + s < cfg1.N then xblk1 V c ⟨16 * q + s, h⟩ (ix2 a kk) * wblk1 V c ⟨16 * q + s, h⟩ (ix2 b kk) else 0)
    (fun s hs p => by
      rw [dif_pos (hb s hs)]
      have hp := p.isLt
      rw [xblk1_apply V c ⟨16 * q + s, hb s hs⟩ a p r ⟨256 * s + p.val, by omega⟩
          (by show r.val = 2048 * ((16 * q + s) / 96) + a.val; omega)
          (by show 256 * s + p.val = 256 * ((16 * q + s) % 16) + p.val; omega),
        wblk1_apply V c ⟨16 * q + s, hb s hs⟩ b p o ⟨256 * s + p.val, by omega⟩
          (by show o.val = 2048 * ((16 * q + s) / 16 % 6) + b.val; omega)
          (by show 256 * s + p.val = 256 * ((16 * q + s) % 16) + p.val; omega)])
    (by
      rw [dif_pos (hb 0 (by omega)), acc1_reset V c (16 * q + 0) (hb 0 (by omega)) (by omega) (ix2 a b), part1_apply]
      refine congrArg _ (Finset.sum_congr rfl fun p _ => ?_)
      rw [dif_pos (hb 0 (by omega))])
    (fun k hk => by
      rw [dif_pos (hb (k + 1) hk), dif_pos (hb k (by omega))]
      refine (acc1_step V c (16 * q + k) (hb (k + 1) hk) (by omega) (ix2 a b)).trans ?_
      rw [part1_apply]
      refine congrArg _ (Finset.sum_congr rfl fun p _ => ?_)
      rw [dif_pos (hb (k + 1) hk)]
      rfl)
  rw [dif_pos (hb 15 (by omega))] at key
  rw [← key]
  exact congrFun (same t.val (16 * q + 15) t.isLt (hb 15 (by omega)) (by omega)) (ix2 a b)

/-- The product of the x array with the transposed weight array: entry (r, o) is the sum over the 4096 shared
    columns of x[r, k] · w[o, k]. -/
def MM (xa : FVec Ideal S8192x4096 .bf16) (wa : FVec Ideal S11008x4096 .bf16) : FVec Ideal S8192x11008 .f32 :=
  fun j => ∑ k : Fin 4096, xa (ix2 ⟨(j 0).val, (j 0).isLt⟩ k) * wa (ix2 ⟨(j 1).val, (j 1).isLt⟩ k)

/-- What a point with k = 15 writes back is its block of the product. -/
theorem flushed1_eq (c : Dev nD) (t : Fin cfg1.N) (hf : (cfg1.win 2).flush t = true) :
    (dat1 V c).flushed 2 t = ((cfg1.win 2).blk t).view.read (Elt Ideal) (MM (V c main_v1) (V c main_v10)) := by
  have ht : t.val % 16 = 15 := (Gen.flush1_2 t).mp hf
  obtain ⟨-, -, -, -, e0, e1⟩ := idx1 t
  obtain ⟨-, -, -, -, s0, s1⟩ := xs1 t
  funext y
  have y0 : (y 0).val < win1_2.xsize (grid1.coords t) (0 : Fin 2) := (y 0).isLt
  have y1 : (y 1).val < win1_2.xsize (grid1.coords t) (1 : Fin 2) := (y 1).isLt
  rw [s0] at y0; rw [s1] at y1
  have y1' : (y 1).val < 2048 := by split at y1 <;> omega
  show (cfg1.win 2).cut (grid1.coords t) ((dat1 V c).after 2 t) y = MM (V c main_v1) (V c main_v10) (((cfg1.win 2).blk t).view.emb y)
  rw [after1_2]
  show acc1 V c t.val t.isLt (win1_2.xinj (grid1.coords t) y) = _
  have e : win1_2.xinj (grid1.coords t) y = ix2 (⟨(y 0).val, y0⟩ : Fin 2048) (⟨(y 1).val, y1'⟩ : Fin 2048) := by
    funext d; match d with | ⟨0, _⟩ => rfl | ⟨1, _⟩ => rfl
  rw [e]
  exact acc1_last V c t ht ⟨(y 0).val, y0⟩ ⟨(y 1).val, y1'⟩
    ⟨((((cfg1.win 2).blk t).view.emb y) 0).val, ((((cfg1.win 2).blk t).view.emb y) 0).isLt⟩
    ⟨((((cfg1.win 2).blk t).view.emb y) 1).val, ((((cfg1.win 2).blk t).view.emb y) 1).isLt⟩
    (by show win1_2.index t (0 : Fin 2) * 2048 + 1 * (y 0).val = 2048 * (t.val / 96) + (y 0).val; omega)
    (by show win1_2.index t (1 : Fin 2) * 2048 + 1 * (y 1).val = 2048 * (t.val / 16 % 6) + (y 1).val; omega)

/-- An entry of the result lies in point `t`'s block iff each coordinate lies in the block's range inside the array. -/
theorem mem_blk1 (t : Fin cfg1.N) (i : S8192x11008.Idx) :
    i ∈ ((cfg1.win 2).blk t).view.set ↔ ∀ a : Fin 2, win1_2.index t a * S2048x2048.size a ≤ (i a).val
      ∧ (i a).val < win1_2.index t a * S2048x2048.size a + win1_2.xsize (grid1.coords t) a := by
  show i ∈ ((View.whole main_v11).slice (win1_2.rect t)).set ↔ _
  rw [View.set_slice_whole, Rect.mem_set_unit]
  exact Iff.rfl

/-- Every entry of the result is in the block of the last point of its (row block, column block) run. -/
theorem cover1 (i : S8192x11008.Idx) :
    ∃ t : Fin cfg1.N, (cfg1.win 2).flush t = true ∧ i ∈ ((cfg1.win 2).blk t).view.set := by
  have h0 : (i 0).val < 8192 := (i 0).isLt
  have h1 : (i 1).val < 11008 := (i 1).isLt
  have hN : cfg1.N = 384 := Gen.N_1
  obtain ⟨t, ht⟩ : ∃ t : Fin cfg1.N, t.val = 96 * ((i 0).val / 2048) + 16 * ((i 1).val / 2048) + 15 := ⟨⟨_, by omega⟩, rfl⟩
  obtain ⟨-, -, -, -, e0, e1⟩ := idx1 t
  obtain ⟨-, -, -, -, s0, s1⟩ := xs1 t
  refine ⟨t, (Gen.flush1_2 t).mpr (by omega), ?_⟩
  rw [mem_blk1]
  intro a
  match a with
  | ⟨0, _⟩ =>
    show win1_2.index t (0 : Fin 2) * 2048 ≤ (i 0).val ∧ (i 0).val < win1_2.index t (0 : Fin 2) * 2048 + win1_2.xsize (grid1.coords t) (0 : Fin 2)
    rw [e0, s0]; omega
  | ⟨1, _⟩ =>
    show win1_2.index t (1 : Fin 2) * 2048 ≤ (i 1).val ∧ (i 1).val < win1_2.index t (1 : Fin 2) * 2048 + win1_2.xsize (grid1.coords t) (1 : Fin 2)
    rw [e1, s1]; split <;> omega

/-- What region 1 leaves in its output array: the product of the x array with the transposed weight array. -/
theorem arr1 (c : Dev nD) : (dat1 V c).arrAt 2 cfg1.N = MM (V c main_v1) (V c main_v10) :=
  (dat1 V c).arrAt_eq_of_cover 2 (MM (V c main_v1) (V c main_v10)) (fun t hf => flushed1_eq V c t hf) cover1

end

end Cert.KernelIdeal.Hand

end
-- ==== Proof.KI.Bridge.lean ====
/-
  The idealized kernel program's result is the specification.

  The final reshape reads the second call's output array at row 2048·b + s; that array is the product
  of the re-laid x with the first call's output over the 4096 shared columns; re-laid x at row
  2048·b + s is x at (b, s); the first call's output at (o, k) is the code value of the stored word
  times the scale the host stretch computed for block 64·o + k / 64. Entry by entry this is the
  specification's sum.
-/
import proofs.«420805_j11192684773386_3_alg».proof.Proof.KI.Run
import proofs.«420805_j11192684773386_3_alg».proof.Proof.KI.Host
import proofs.«420805_j11192684773386_3_alg».proof.Proof.KI.Value0
import proofs.«420805_j11192684773386_3_alg».proof.Proof.KI.Value1
import proofs.«420805_j11192684773386_3_alg».proof.Proof.Spec

noncomputable section

namespace Cert.KernelIdeal.Hand

open Cert.KernelIdeal Cert.KernelIdeal.Gen
open Idealize.ShloMosaic Idealize.ShloMosaic.TcCoe
open Idealize.SL.Sem
open Idealize.ShloMosaic.ValueIdx (ix1 ix2 ix3 eq_ix3)
open Cert.Spec (G Gc wgt scal tbl code)

/-- The pure part: re-laying, the two products and the reshape compose to the specification. -/
theorem relaid_product (x : Cert.Spec.SX.Idx → EReal) (q : IVec S11008x4096 32) (qs : Cert.Spec.SQS.Idx → BitVec 32)
    (qf : Cert.Spec.SQF.Idx → EReal) (mean : Cert.Spec.SM.Idx → EReal)
    (xa : FVec Ideal S8192x4096 .bf16) (sc : FVec Ideal S11008x64 .f32)
    (hxa : xa = fun (j : S8192x4096.Idx) => x (ix3 (⟨(j 0).val / 2048, by have h : (j 0).val < 8192 := (j 0).isLt; omega⟩ : Fin 4) (⟨(j 0).val % 2048, Nat.mod_lt _ (by decide)⟩ : Fin 2048) (⟨(j 1).val, (j 1).isLt⟩ : Fin 4096)))
    (hsc : sc = fun (j : S11008x64.Idx) => scal qs qf mean ⟨(j 0).val * 64 + (j 1).val, by have h0 : (j 0).val < 11008 := (j 0).isLt; have h1 : (j 1).val < 64 := (j 1).isLt; omega⟩)
    (b : Fin 4) (s : Fin 2048) (o : Fin 11008) :
    MM xa (W0arr q sc) (ix2 (⟨b.val * 2048 + s.val, by have := b.isLt; have := s.isLt; omega⟩ : Fin 8192) o) = Gc x q qs qf mean b s o := by
  subst hxa hsc
  unfold MM Gc
  dsimp only
  refine Finset.sum_congr rfl fun k _ => ?_
  have hb : b.val < 4 := b.isLt
  have hs : s.val < 2048 := s.isLt
  congr 1
  congr 1
  funext a
  match a with
  | ⟨0, _⟩ => exact Fin.ext (by show (b.val * 2048 + s.val) / 2048 = b.val; omega)
  | ⟨1, _⟩ => exact Fin.ext (by show (b.val * 2048 + s.val) % 2048 = s.val; omega)
  | ⟨2, _⟩ => rfl

variable (m : (ℓ : Loc nD τ sig) → Buf (Elt Ideal) ℓ) (ρ : Dev nD → PrngReg)

/-- What the run leaves in the result buffer is the specification of the launch contents of the five arguments. -/
theorem result_eq (c : Dev nD) :
    (W4 m ρ c (Proc.devRef .tc main_v12) : S4x2048x11008.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) := by
  have h12 := after2_v12 (W3 m ρ c)
  have h11 : (W3 m ρ c (Proc.devRef .tc main_v11) : S8192x11008.Idx → EReal) = MM (V2 m ρ c main_v1) (V2 m ρ c main_v10) :=
    (W3_v11 m ρ c).trans (arr1 (V2 m ρ) c)
  have h1 : (V2 m ρ c main_v1 : S8192x4096.Idx → EReal) = _ := (V2_v1 m ρ c).trans (after0_v1 (W0 m ρ c))
  have h10 : (V2 m ρ c main_v10 : S11008x4096.Idx → EReal) = W0arr (V1 m ρ c main_arg1) (V1 m ρ c main_v9) :=
    (V2_v10 m ρ c).trans (arr0 (V1 m ρ) c)
  have h9 : (V1 m ρ c main_v9 : S11008x64.Idx → EReal) = _ := after0_v9 (W0 m ρ c)
  have hq : (V1 m ρ c main_arg1 : S11008x4096.Idx → BitVec 32) = m ((c : Thread nD τ).loc main_arg1) := V1_arg1 m ρ c
  refine h12.trans ?_
  funext j
  obtain ⟨b, s, o, rfl⟩ : ∃ (b : Fin 4) (s : Fin 2048) (o : Fin 11008), j = ix3 b s o := ⟨j 0, j 1, j 2, eq_ix3 j⟩
  show (W3 m ρ c (Proc.devRef .tc main_v11) : S8192x11008.Idx → EReal) _ = Gc _ _ _ _ _ b s o
  rw [h11, h10, hq]
  exact relaid_product _ _ _ _ _ _ _ h1 h9 b s o

end Cert.KernelIdeal.Hand

end
-- ==== Proof.K.R0Defs.lean ====
/-
  Region 0 (the dequantization call): its blocks, what one grid point leaves in the output block as a
  closed function of the two input blocks, and the proof data of its pipeline.

  The output block entry (r, i) is the code value of the stored word at (r, i) times the scale at
  (r, i / 64), narrowed to bf16: the sixty-four consecutive entries of a row share a scale.
-/
import proofs.«420805_j11192684773386_3_alg».proof.Proof.Gen.Kernel.Launch
import proofs.«420805_j11192684773386_3_alg».proof.Proof.Gen.Kernel.Skeleton
import proofs.«420805_j11192684773386_3_alg».proof.Proof.Gen.Kernel.Points
import proofs.«420805_j11192684773386_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A code's value at the float family `F`. -/
def tblF (k : Fin 16) : F .f32 := Scalar.ofBits .f32 (Cert.Spec.word k)

/-- The code values of a block of stored words. -/
def wvals (xq : Vec F S256x4096 .i32) : FVec F S256x4096 .f32 := fun j => tblF (Cert.Spec.code (xq j))

/-- A block of scales, each repeated over its sixty-four entries. -/
def sexp (xs : Vec F S256x64 .f32) : FVec F S256x4096 .f32 :=
  fun j => xs (ix2 (⟨(j 0).val, (j 0).isLt⟩ : Fin 256) (⟨(j 1).val / 64, by have h : (j 1).val < 4096 := (j 1).isLt; show (j 1).val / 64 < 64; omega⟩ : Fin 64))

/-- What a grid point leaves in the output block. -/
def out0 (xq : Vec F S256x4096 .i32) (xs : Vec F S256x64 .f32) : Vec F S256x4096 .bf16 :=
  truncf .bf16 (mulf (wvals xq) (sexp xs)) Facts₀.bitsLt_bf16_f32

/-- The proof data of pipeline 0 on core `c`: the arrays as the region finds them; after the body each input's
    buffer at its block and the output's at `out0` of the two input blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

end Regions

end Cert.Kernel.Hand

end
-- ==== Proof.K.R0Body.lean ====
/-
  Region 0's body obligation: at every grid point the dequantization kernel, run on the point's staging
  buffers, leaves the two input blocks as they were and the output block at `out0` of them.

  The kernel first expands the block of scales (each scale repeated over its sixty-four entries) into a scratch
  buffer, storing it whole. Then eight trips of a loop, trip k on the columns [512k, 512k + 512): the stored
  words there go through fifteen two-way selects on their low four bits, which pick each word's code value;
  the values are multiplied by the expanded scales there, narrowed, and stored into the output buffer there.
  So every trip's store is the block of one function of the output's index — code value times scale, narrowed:
  `out0` — that its rectangle names, and the eight rectangles cover the 4096 columns: the output buffer ends
  at `out0` of the two input blocks, whatever it and the scratch held before.
-/
import proofs.«420805_j11192684773386_3_alg».proof.Proof.K.R0Defs
import proofs.«420805_j11192684773386_3_alg».proof.Proof.Gen.Kernel.Loops
import proofs.«420805_j11192684773386_3_alg».proof.Proof.TreeLemma
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

variable {F : FTy → Type} [FloatOps F]

local notation "𝕄" => MT nD τ sig Unit (Elt F) ℕ (UR sig nD τ) ℕ

/-! ## The loop's trips -/

/-- The loop makes eight trips. -/
theorem trips8 : k0_t1_loop.trips = 8 := by decide

/-! ## The payloads, entry by entry -/

/-- A block of scales taken through the kernel's reshapes and broadcast is each scale repeated over its sixty-four
    entries: entry (r, i) of the result has row-major position r·4096 + i = (r·64 + i/64)·64 + i%64, so it is entry
    (r, i/64, i%64) of the three-axis broadcast, which reads the scale at (r, i/64, 0), that is at (r, i/64). -/
theorem pay1_eq (xs : Vec F S256x64 .f32) : k0_pay1 xs = sexp xs := by
  funext j
  have h0 : (j 0).val < 256 := (j 0).isLt
  have h1 : (j 1).val < 4096 := (j 1).isLt
  unfold k0_pay1 sexp
  simp only [shapeCast_self]
  rw [shapeCast_apply _ _ j (ix3 (⟨(j 0).val, h0⟩ : Fin 256) (⟨(j 1).val / 64, by omega⟩ : Fin 64) (⟨(j 1).val % 64, by omega⟩ : Fin 64))
    (by rw [Shape.rowMajor_val_three, Shape.rowMajor_val_two]; simp; omega)]
  rw [broadcastTo_apply _ _ _ (ix3 (⟨(j 0).val, h0⟩ : Fin 256) (⟨(j 1).val / 64, by omega⟩ : Fin 64) (0 : Fin 1))
    (by intro a; fin_cases a <;> simp)]
  rw [shapeCast_apply _ _ _ (ix2 (⟨(j 0).val, h0⟩ : Fin 256) (⟨(j 1).val / 64, by omega⟩ : Fin 64))
    (by rw [Shape.rowMajor_val_three, Shape.rowMajor_val_two]; simp)]

/-- A chunk's payload at an entry: every operation of the chunk acts entry by entry, so the entry is the select tree
    at that entry's stored word — the word's code value — times the entry's scale, narrowed. -/
theorem pay2_apply (s : Vec F S256x512 .f32) (q : Vec F S256x512 .i32) (x : S256x512.Idx) :
    k0_pay2 s (k0_pay4 q) (k0_pay5 q) (k0_pay6 q) (k0_pay7 q) (k0_pay8 q) (k0_pay9 q) (k0_pay10 q) (k0_pay11 (F := F)) (k0_pay12 (F := F)) x
      = FloatOps.truncf .bf16 Facts₀.bitsLt_bf16_f32 (FloatOps.mulf (tblF (Cert.Spec.code (q x))) (s x)) := by
  show FloatOps.truncf .bf16 _ (FloatOps.mulf (Cert.Tree.sel (q x)) (s x)) = _
  rw [Cert.Tree.sel_eq]; rfl

/-- The output block at an entry. -/
theorem out0_entry (xq : Vec F S256x4096 .i32) (xs : Vec F S256x64 .f32) (j : S256x4096.Idx) :
    out0 xq xs j = FloatOps.truncf .bf16 Facts₀.bitsLt_bf16_f32 (FloatOps.mulf (tblF (Cert.Spec.code (xq j))) (sexp xs j)) := rfl

/-! ## The trips' pieces -/

/-- The rectangle trip k reads and writes: all rows, columns [512k, 512k + 512). -/
abbrev rc (k : Fin k0_t1_loop.trips) : Rect S256x4096 := Rect.unit (s := S256x4096) (k0_off1 k) S256x512.size (k0_off1_inb k)

section Trip
variable (𝒱 : Variants) (c : Dev nD) (bd : Option 𝒱.V) (i : grid0.Coords)
    (arg1 : Memref sig .tc .vmem S256x4096 .i32) (harg1 : arg1.IsWhole)
    (arg2 : Memref sig .tc .vmem S256x64 .f32) (harg2 : arg2.IsWhole)
    (arg3 : Memref sig .tc .vmem S256x4096 .bf16) (harg3 : arg3.IsWhole)
    (arg4 : Memref sig .tc .vmem S256x4096 .f32) (harg4 : arg4.IsWhole)
    (X1 : BufTy.Contents (Elt F) arg1.view.ty) (X4 : BufTy.Contents (Elt F) arg4.view.ty)

/-- Trip k writes one piece: through its rectangle, the chunk's payload of what the words' buffer and the expanded
    scales' buffer hold at that same rectangle. -/
theorem tripL_eq (k : Fin k0_t1_loop.trips) :
    tripL_k0_t1 (F := F) 𝒱 c bd i arg1 harg1 arg2 harg2 arg3 harg3 arg4 harg4 X1 X4 k
      = [⟨rc k, k0_pay2 (View.readAt (Elt F) arg4.view (rc k).toLoadRect X4)
          (k0_pay4 (View.readAt (Elt F) arg1.view (rc k).toLoadRect X1)) (k0_pay5 (View.readAt (Elt F) arg1.view (rc k).toLoadRect X1))
          (k0_pay6 (View.readAt (Elt F) arg1.view (rc k).toLoadRect X1)) (k0_pay7 (View.readAt (Elt F) arg1.view (rc k).toLoadRect X1))
          (k0_pay8 (View.readAt (Elt F) arg1.view (rc k).toLoadRect X1)) (k0_pay9 (View.readAt (Elt F) arg1.view (rc k).toLoadRect X1))
          (k0_pay10 (View.readAt (Elt F) arg1.view (rc k).toLoadRect X1)) (k0_pay11 (F := F)) (k0_pay12 (F := F))⟩] := by
  unfold tripL_k0_t1 trip_k0_t1; rfl

/-- When the scales' buffer holds the expanded scales, trip k's piece is the block of `out0` its rectangle names. -/
theorem trip_piece (xs : Vec F S256x64 .f32) (hX4 : arg4.view.read (Elt F) X4 = sexp xs) (k : Fin k0_t1_loop.trips) :
    ∀ p ∈ tripL_k0_t1 (F := F) 𝒱 c bd i arg1 harg1 arg2 harg2 arg3 harg3 arg4 harg4 X1 X4 k,
      ∀ x : p.1.shape.Idx, p.2 x = out0 (arg1.view.read (Elt F) X1) xs (p.1.emb x) := by
  intro p hp
  rw [tripL_eq, List.mem_singleton] at hp
  subst hp
  intro x
  refine (pay2_apply _ _ x).trans ?_
  rw [out0_entry, ← hX4]
  rfl

/-- So is every piece of the trips before n, -/
theorem pb_pieces (xs : Vec F S256x64 .f32) (hX4 : arg4.view.read (Elt F) X4 = sexp xs) :
    ∀ n, n ≤ k0_t1_loop.trips → ∀ p ∈ pb_k0_t1 (F := F) 𝒱 c bd i arg1 harg1 arg2 harg2 arg3 harg3 arg4 harg4 X1 X4 n,
      ∀ x : p.1.shape.Idx, p.2 x = out0 (arg1.view.read (Elt F) X1) xs (p.1.emb x)
  | 0, _ => fun p hp => absurd hp List.not_mem_nil
  | n + 1, hn => by
    intro p hp
    have e := pb_k0_t1_succ (F := F) 𝒱 c bd i arg1 harg1 arg2 harg2 arg3 harg3 arg4 harg4 X1 X4 ⟨n, hn⟩
    rw [show pb_k0_t1 (F := F) 𝒱 c bd i arg1 harg1 arg2 harg2 arg3 harg3 arg4 harg4 X1 X4 (n + 1) = _ from e] at hp
    rcases List.mem_append.mp hp with h | h
    · exact trip_piece 𝒱 c bd i arg1 harg1 arg2 harg2 arg3 harg3 arg4 harg4 X1 X4 xs hX4 ⟨n, hn⟩ p h
    · exact pb_pieces xs hX4 n (Nat.le_of_succ_le hn) p h

/-- and the trips before n cover the columns below 512·n: a column in [512·n, 512·n + 512) lies in trip n's rectangle. -/
theorem pb_cover :
    ∀ n, n ≤ k0_t1_loop.trips → ∀ y : S256x4096.Idx, (y 1).val < 512 * n →
      ∃ p ∈ pb_k0_t1 (F := F) 𝒱 c bd i arg1 harg1 arg2 harg2 arg3 harg3 arg4 harg4 X1 X4 n, y ∈ p.1.set
  | 0, _, y, hy => absurd hy (by omega)
  | n + 1, hn, y, hy => by
    rw [show pb_k0_t1 (F := F) 𝒱 c bd i arg1 harg1 arg2 harg2 arg3 harg3 arg4 harg4 X1 X4 (n + 1) = _ from
      pb_k0_t1_succ (F := F) 𝒱 c bd i arg1 harg1 arg2 harg2 arg3 harg3 arg4 harg4 X1 X4 ⟨n, hn⟩]
    by_cases h : (y 1).val < 512 * n
    · obtain ⟨p, hp, hm⟩ := pb_cover n (Nat.le_of_succ_le hn) y h
      exact ⟨p, List.mem_append_right _ hp, hm⟩
    · refine ⟨_, List.mem_append_left _ (by rw [tripL_eq]; exact List.mem_singleton_self _), ?_⟩
      have h0 : (y 0).val < 256 := (y 0).isLt
      rw [Rect.mem_set_unit, k0_off1_eq]
      intro a
      fin_cases a
      · simp; exact h0
      · simp; omega

/-- After the eight trips the output buffer reads `out0` of the words and the scales, whatever it held before: every
    piece is a block of that one function, and the eight rectangles cover the 4096 columns. -/
theorem read_out (xs : Vec F S256x64 .f32) (hX4 : arg4.view.read (Elt F) X4 = sexp xs) (f3 : BufTy.Contents (Elt F) arg3.view.ty) :
    arg3.view.read (Elt F) (arg3.view.writes (Elt F) f3
        (pb_k0_t1 (F := F) 𝒱 c bd i arg1 harg1 arg2 harg2 arg3 harg3 arg4 harg4 X1 X4 k0_t1_loop.trips))
      = out0 (arg1.view.read (Elt F) X1) xs := by
  funext y
  have h1 : (y 1).val < 4096 := (y 1).isLt
  exact View.read_writes_apply_of_pieces _ _ (out0 (arg1.view.read (Elt F) X1) xs) _
    (pb_pieces 𝒱 c bd i arg1 harg1 arg2 harg2 arg3 harg3 arg4 harg4 X1 X4 xs hX4 _ le_rfl) y
    (pb_cover 𝒱 c bd i arg1 harg1 arg2 harg2 arg3 harg3 arg4 harg4 X1 X4 _ le_rfl y (by rw [trips8]; omega))

end Trip

/-! ## The scratch: the expanded scales -/

theorem zeros64 : (![0, 0] : Fin S256x64.rank → Nat) = fun _ => 0 := by funext a; fin_cases a <;> rfl
theorem zeros4096 : (![0, 0] : Fin S256x4096.rank → Nat) = fun _ => 0 := by funext a; fin_cases a <;> rfl

/-- The whole block as a rectangle. -/
abbrev rW : Rect S256x4096 := Rect.unit (s := S256x4096) ![0, 0] S256x4096.size inb_S256x4096_S256x4096_0_0

/-- A buffer stored whole reads the payload back, whatever it held before. -/
theorem read_whole (arg4 : Memref sig .tc .vmem S256x4096 .f32) (w : Vec F S256x4096 .f32) (f : BufTy.Contents (Elt F) arg4.view.ty) :
    arg4.view.read (Elt F) (arg4.view.writes (Elt F) f [⟨rW, w⟩]) = w := by
  have hc : ∀ y : S256x4096.Idx, ∃ p ∈ ([⟨rW, w⟩] : List (View.Piece (Elt F) S256x4096 .f32)), y ∈ p.1.set :=
    fun y => ⟨⟨rW, w⟩, List.mem_singleton_self _, View.mem_set_unit_zero zeros4096 inb_S256x4096_S256x4096_0_0 y⟩
  rw [View.read_writes_eq_canon _ _ _ hc]
  exact View.canon_unit_zero zeros4096 inb_S256x4096_S256x4096_0_0 w

/-- The scratch after the kernel's whole store into it reads the expanded scales: the store's payload is the
    expansion of the scales' block, loaded whole. -/
theorem read_scratch (arg2 : Memref sig .tc .vmem S256x64 .f32) (harg2 : arg2.IsWhole)
    (arg4 : Memref sig .tc .vmem S256x4096 .f32) (x1 : Vec F S256x64 .f32) (f : BufTy.Contents (Elt F) arg4.view.ty) :
    arg4.view.read (Elt F) (arg4.view.writes (Elt F) f
      [⟨Rect.unit (s := S256x4096) ![0, 0] S256x4096.size inb_S256x4096_S256x4096_0_0,
        k0_pay1 (View.readAt (Elt F) arg2.view (Rect.unit (s := S256x64) ![0, 0] S256x64.size inb_S256x64_S256x64_0_0).toLoadRect (harg2.unread x1))⟩])
      = sexp x1 := by
  have hv : View.readAt (Elt F) arg2.view (Rect.unit (s := S256x64) ![0, 0] S256x64.size inb_S256x64_S256x64_0_0).toLoadRect (harg2.unread x1) = x1 := by
    rw [View.readAt_eq_ld, harg2.read_unread, View.ld_unit_zero zeros64]
  rw [hv, pay1_eq]
  exact read_whole arg4 _ f

/-! ## The kernel's run -/

set_option maxHeartbeats 2000000 in
/-- The kernel on whole memrefs — the words' at `x0`, the scales' at `x1`, the output's and the scratch at anything —
    runs to the continuation holding the two inputs as they were, the output at `out0 x0 x1` and the scratch at
    something: the scratch is stored whole (the expanded scales) before the loop reads it, and after the loop's eight
    trips the output holds their eight pieces. -/
theorem sound_kernel0 (c : Dev nD) (E : Set ℕ) (i : grid0.Coords)
    (arg1 : Memref sig .tc .vmem S256x4096 .i32) (harg1 : arg1.IsWhole)
    (arg2 : Memref sig .tc .vmem S256x64 .f32) (harg2 : arg2.IsWhole)
    (arg3 : Memref sig .tc .vmem S256x4096 .bf16) (harg3 : arg3.IsWhole)
    (arg4 : Memref sig .tc .vmem S256x4096 .f32) (harg4 : arg4.IsWhole)
    (x0 : Vec F S256x4096 .i32) (x1 : Vec F S256x64 .f32) (K : PUnit → sProp 𝕄) :
    iprop(owns (c : Thread nD τ) arg1 fullShare x0 ∗ owns (c : Thread nD τ) arg2 fullShare x1
        ∗ (∃ d, owns (c : Thread nD τ) arg3 fullShare d)
        ∗ (∃ f, arg4.view.loc (c : Thread nD τ) ↦[arg4.view.set]{fullShare} f)
        ∗ (iprop(owns (c : Thread nD τ) arg1 fullShare x0 ∗ owns (c : Thread nD τ) arg2 fullShare x1
            ∗ owns (c : Thread nD τ) arg3 fullShare (out0 x0 x1)
            ∗ (∃ f, arg4.view.loc (c : Thread nD τ) ↦[arg4.view.set]{fullShare} f)) -∗ K ⟨⟩))
      ⊢ wp frame (wpE (defs₀ (F := F)) Variants.none c none) E (cc0__dequant_kernel i arg1 harg1 arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d3, %f3, -, H3⟩, ⟨%f4, H4⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    refine (read_out Variants.none c none i arg1 harg1 arg2 harg2 arg3 harg3 arg4 harg4 _ _ x1
      (read_scratch arg2 harg2 arg4 x1 _) f3).trans ?_
    rw [harg1.read_unread]
  iexists _; iexact H4

/-! ## The inputs' buffers when the body is called -/

variable (V : (c : Dev nD) → (b : Ref sig .tc) → Buf (Elt F) ((c : Thread nD τ).loc b))

/-- The words' current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The scales' current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
/-- The body at any point: the inputs' memrefs hold their blocks; the scratch buffer is taken out of the invariant's
    scoped rest for the run and put back, at whatever it then holds, after it; the generator register and the core's
    debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2,
    show (dat0 V c).Φ t.castSucc = Pipeline.ΦA spec0 c from rfl]
  unfold Pipeline.ΦA
  rw [scopedRest0_eq]
  iintro ⟨⟨⟨H4, Hrest⟩, Hp⟩, Ho, ⟨%d0, H0⟩, ⟨%d1, H1⟩, ⟨%d2, H2⟩⟩
  iapply (sound_kernel0 c Set.univ (grid0.coords t) _ _ _ _ _ _ (Memref.whole cc0_scratch0) (Memref.isWhole_whole _)
    (iblk0 V c 0 t) (iblk0 V c 1 t) _)
  isplitl [H0]; · iexact H0
  isplitl [H1]; · iexact H1
  isplitl [H2]; · iexists _; iexact H2
  isplitl [H4]
  · icases H4 with ⟨%f, H4⟩
    iexists f
    simp only [Memref.view_whole, View.set_whole]
    iexact H4
  iintro ⟨H0, H1, H2, ⟨%f, H4⟩⟩
  simp only [Memref.view_whole, View.set_whole]
  isplitl [H4 Hrest Hp]
  · isplitr [Hp]
    · isplitl [H4]
      · iexists f; iexact H4
      iexact Hrest
    iexact Hp
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  Region 1 (the matrix product call) of the word-level program: its blocks and the proof data of its
  pipeline, in the form that does not name the output block.

  The grid is (i, j, k) with k innermost. The x window's blocks tile its array. The weight rows' window
  overhangs the weight matrix on the last j (11008 rows in blocks of 2048): the rows of its staging block
  past the matrix's end hold words nothing names. At the word level the product is one opaque function of
  the whole weight tile, those rows included, so nothing can be said of the output block's contents; the
  proof data therefore records only that the body leaves the two input blocks as it found them, and marks
  the output window as forgotten: it is handed to the body at any contents and taken back at any contents.
-/
import proofs.«420805_j11192684773386_3_alg».proof.Proof.Gen.Kernel.Launch
import proofs.«420805_j11192684773386_3_alg».proof.Proof.Gen.Kernel.Skeleton
import proofs.«420805_j11192684773386_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t` (its part inside the array), read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of x at point `t` (this window's blocks tile its array). -/
abbrev xblk1 (c : Dev nD) (t : Fin cfg1.N) : FVec F S2048x256 .bf16 := iblk1 V c 0 t

/-- The block of weight rows at point `t`, the zero word on the rows past the matrix's end (a choice nothing
    reads: the obligation states this window on the rows inside the matrix only). -/
def wblk1 (c : Dev nD) (t : Fin cfg1.N) : FVec F S2048x256 .bf16 :=
  win1_1.fill (grid1.coords t) (fun _ => Scalar.ofBits .bf16 0#16) (iblk1 V c 1 t)

/-- Contents standing in for the output block, which nothing reads: the zero word everywhere. -/
def oblk1 : FVec F S2048x2048 .f32 := fun _ => Scalar.ofBits .f32 0#32

/-- The windows the proof data does not name: the output (window 2) alone. -/
abbrev fgt1 : Fin cfg1.W → Bool := fun | 0 => false | 1 => false | 2 => true | ⟨_ + 3, h⟩ => absurd h (Nat.not_lt.2 (Nat.le_add_left _ _))

/-- The proof data of pipeline 1 on core `c`: the arrays as the region finds them; after the body the x block
    and the weight block as fetched; fixed stand-in contents for the output block; the invariant the scoped
    rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk1 V c t
    | ⟨2, _⟩ => oblk1
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk1 V c t := by dsimp only [dat1]
theorem after1_2 (c : Dev nD) (t : Fin cfg1.N) : (dat1 V c).after 2 t = oblk1 := by dsimp only [dat1]

end Regions

end Cert.Kernel.Hand

end
-- ==== Proof.K.R1Body.lean ====
/-
  Region 1's body obligation for the word-level program, the output window forgotten: at every grid point
  the matrix-product kernel, run on the point's staging buffers, runs without fault, leaves the x block
  as it was and the weight block as it was, and leaves the output block at some contents.

  The kernel only loads from the two input buffers, so they hold afterwards what they held before. It
  stores to the output buffer alone (zeros first when k = 0, then the old contents plus the product);
  since the output window is handed over at unnamed contents and taken back at unnamed contents, no
  property of the stored values is needed. The x window is uncut and fetched at every point, so its
  buffer holds the point's block. The weight window is fetched at every point and cut on the last j: its
  buffer holds the block on the rows inside the matrix and unnamed words past them, and it is handed
  back in the same state, which on the rows inside the matrix is what the proof data records.
-/
import proofs.«420805_j11192684773386_3_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 ix3)

variable {F : FTy → Type} [FloatOps F]

local notation "𝕄" => MT nD τ sig Unit (Elt F) ℕ (UR sig nD τ) ℕ

/-- The condition of the body's conditional, from the grid coordinates: "k = 0", as the kernel computes it. -/
abbrev cond1 (i : grid1.Coords) : Prop :=
  Scalar.cmpi .ne (Scalar.extui (Scalar.cmpi .eq (BitVec.ofNat 32 (i 2).val) 0#32)) 0#32 = 1#1

/-- A buffer's elements held at raw contents `f` are owned at some read contents: those `f` reads. -/
theorem owns_some (c : Dev nD) {sh : Shape} {e : EltTy} (m : Memref sig .tc .vmem sh e) (f : m.view.ty.Contents (Elt F)) :
    (m.view.loc (c : Thread nD τ) ↦[m.view.set]{fullShare} f : sProp 𝕄) ⊢ iprop(∃ X, owns (c : Thread nD τ) m fullShare X) := by
  unfold owns
  iintro H
  iexists m.view.read (Elt F) f, f
  isplitr; · ipureintro; rfl
  iexact H

/-- What the body is handed on whole staging memrefs, and the continuation's premise: the two input buffers at
    contents `X0`, `X1`, the output buffer at some contents. -/
abbrev held1 (c : Dev nD) (arg3 arg4 : Memref sig .tc .vmem S2048x256 .bf16) (arg5 : Memref sig .tc .vmem S2048x2048 .f32)
    (X0 X1 : FVec F S2048x256 .bf16) : sProp 𝕄 :=
  iprop(owns (c : Thread nD τ) arg3 fullShare X0 ∗ owns (c : Thread nD τ) arg4 fullShare X1
    ∗ (∃ X2 : FVec F S2048x2048 .f32, owns (c : Thread nD τ) arg5 fullShare X2))

/-- The kernel body where k = 0: the output buffer is overwritten with zeros, then with zeros plus the product;
    the input buffers are only read. -/
theorem sound_body1_first (c : Dev nD) (E : Set ℕ) (i : grid1.Coords) (hc : cond1 i)
    (arg3 : Memref sig .tc .vmem S2048x256 .bf16) (harg3 : arg3.IsWhole)
    (arg4 : Memref sig .tc .vmem S2048x256 .bf16) (harg4 : arg4.IsWhole)
    (arg5 : Memref sig .tc .vmem S2048x2048 .f32) (harg5 : arg5.IsWhole)
    (X0 X1 : FVec F S2048x256 .bf16) (K : PUnit → sProp 𝕄) :
    iprop(held1 c arg3 arg4 arg5 X0 X1 ∗ (held1 c arg3 arg4 arg5 X0 X1 -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold held1 owns
  iintro ⟨⟨⟨%f0, %hf0, H0⟩, ⟨%f1, %hf1, H1⟩, ⟨%X2, %f2, %hf2, H2⟩⟩, Hk⟩
  sl_exec (disch := first | exact hc)
  sl_step
  iapply Hk
  isplitl [H0]
  · iexists f0; isplitr; · ipureintro; exact hf0
    iexact H0
  isplitl [H1]
  · iexists f1; isplitr; · ipureintro; exact hf1
    iexact H1
  · iapply (owns_some (F := F) c arg5 _)
    iexact H2

/-- The kernel body where k > 0: the output buffer is overwritten with its contents plus the product; the input
    buffers are only read. -/
theorem sound_body1_later (c : Dev nD) (E : Set ℕ) (i : grid1.Coords) (hc : ¬cond1 i)
    (arg3 : Memref sig .tc .vmem S2048x256 .bf16) (harg3 : arg3.IsWhole)
    (arg4 : Memref sig .tc .vmem S2048x256 .bf16) (harg4 : arg4.IsWhole)
    (arg5 : Memref sig .tc .vmem S2048x2048 .f32) (harg5 : arg5.IsWhole)
    (X0 X1 : FVec F S2048x256 .bf16) (K : PUnit → sProp 𝕄) :
    iprop(held1 c arg3 arg4 arg5 X0 X1 ∗ (held1 c arg3 arg4 arg5 X0 X1 -∗ K ⟨⟩))
      ⊢ wp frame (wpE (defs₀ (F := F)) Variants.none c none) E (cc1__matmul_kernel i arg3 harg3 arg4 harg4 arg5 harg5) K := by
  simp only [cc1__matmul_kernel_eq_skeleton]; unfold cc1__matmul_kernel_skel
  unfold held1 owns
  iintro ⟨⟨⟨%f0, %hf0, H0⟩, ⟨%f1, %hf1, H1⟩, ⟨%X2, %f2, %hf2, H2⟩⟩, Hk⟩
  sl_exec (disch := first | exact hc)
  sl_step
  iapply Hk
  isplitl [H0]
  · iexists f0; isplitr; · ipureintro; exact hf0
    iexact H0
  isplitl [H1]
  · iexists f1; isplitr; · ipureintro; exact hf1
    iexact H1
  · iapply (owns_some (F := F) c arg5 _)
    iexact H2

/-- The kernel body at any point, on any whole staging memrefs. -/
theorem sound_body1 (c : Dev nD) (E : Set ℕ) (i : grid1.Coords)
    (arg3 : Memref sig .tc .vmem S2048x256 .bf16) (harg3 : arg3.IsWhole)
    (arg4 : Memref sig .tc .vmem S2048x256 .bf16) (harg4 : arg4.IsWhole)
    (arg5 : Memref sig .tc .vmem S2048x2048 .f32) (harg5 : arg5.IsWhole)
    (X0 X1 : FVec F S2048x256 .bf16) (K : PUnit → sProp 𝕄) :
    iprop(held1 c arg3 arg4 arg5 X0 X1 ∗ (held1 c arg3 arg4 arg5 X0 X1 -∗ K ⟨⟩))
      ⊢ wp frame (wpE (defs₀ (F := F)) Variants.none c none) E (cc1__matmul_kernel i arg3 harg3 arg4 harg4 arg5 harg5) K := by
  by_cases hc : cond1 i
  · exact sound_body1_first c E i hc arg3 harg3 arg4 harg4 arg5 harg5 X0 X1 K
  · exact sound_body1_later c E i hc arg3 harg3 arg4 harg4 arg5 harg5 X0 X1 K

section Regions
variable (V : (c : Dev nD) → (b : Ref sig .tc) → Buf (Elt F) ((c : Thread nD τ).loc b))

/-- What the body finds in the x window's buffer: the point's block (the window is uncut and fetched at every point). -/
theorem before1_0 (c : Dev nD) (t : Fin cfg1.N) (d) : (dat1 V c).before (0 : Fin 3) t d = iblk1 V c 0 t := by
  unfold Dat.before; rw [if_pos (Gen.fetch1_0 t)]; rfl

/-- What the body finds in the weight window's buffer: the point's block on the rows inside the matrix, `d` past
    them (the window is fetched at every point). -/
theorem before1_1 (c : Dev nD) (t : Fin cfg1.N) (d) :
    (dat1 V c).before (1 : Fin 3) t d = win1_1.fill (grid1.coords t) d (iblk1 V c 1 t) := by
  unfold Dat.before; rw [if_pos (Gen.fetch1_1 t)]; rfl

/-- The library's body obligation, the form for windows whose blocks may overhang their arrays, the output
    window forgotten, at every point. -/
theorem body_obligation1 (c : Dev nD) :
    BodyObligationLoose (dat1 V c) (defs₀ (F := F)) Variants.none () Set.univ fgt1 := fun t => by
  rw [Gen.bigSep_W1, Gen.bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, H2⟩
  rw [before1_0 V c t d0, before1_1 V c t d1]
  iapply (sound_body1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (iblk1 V c 0 t) (win1_1.fill (grid1.coords t) d1 (iblk1 V c 1 t)) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · rw [after1_0]; iexact H0
  isplitl [H1]
  · -- on the rows inside the matrix the buffer holds the block, which is what the recorded contents are there
    have hw : win1_1.cut (grid1.coords t) (wblk1 V c t) = iblk1 V c 1 t := win1_1.cut_fill _ _ _
    iexists d1
    rw [after1_1]
    change _ ⊢ owns (c : Thread nD τ) (win1_1.stage (cfg1.slots t 1)) fullShare
      (win1_1.fill (grid1.coords t) d1 (win1_1.cut (grid1.coords t) (wblk1 V c t)))
    rw [hw]; try iexact H1
  · iexact H2

end Regions

end Cert.Kernel.Hand

end
-- ==== Proof.K.TailSeg.lean ====
/-
  The last host stretch of the word-level program, as a segment whose thread states do not name what the
  second kernel region left in its arrays.

  After that region its arrays' contents are values nobody can name beforehand. The stretch is one reshape
  reading the region's output array and writing the result array, so whatever those contents are it runs:
  from every unscoped buffer held whole at a valuation drawn from a family indexed by the unknown, to the
  same buffers at that valuation after the reshape. Both states are therefore stated with the index
  existentially bound. The reshape writes the result array only: every other buffer, each argument array
  among them, holds after it what the valuation gave it.
-/
import proofs.«420805_j11192684773386_3_alg».proof.Proof.Gen.Kernel.Launch
import proofs.«420805_j11192684773386_3_alg».proof.Proof.Gen.Kernel.Regions
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## What the stretch leaves unchanged -/

/-- A reference the stretch does not write holds after it what the valuation gave it. -/
theorem tail_of (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

theorem tail_arg0 (V : Valuation τ sig (Elt F)) :
    StableHlo.after hostOps2 V (Proc.devRef .tc main_arg0) = V (Proc.devRef .tc main_arg0) := tail_of V main_arg0 (by decide)
theorem tail_arg1 (V : Valuation τ sig (Elt F)) :
    StableHlo.after hostOps2 V (Proc.devRef .tc main_arg1) = V (Proc.devRef .tc main_arg1) := tail_of V main_arg1 (by decide)
theorem tail_arg2 (V : Valuation τ sig (Elt F)) :
    StableHlo.after hostOps2 V (Proc.devRef .tc main_arg2) = V (Proc.devRef .tc main_arg2) := tail_of V main_arg2 (by decide)
theorem tail_arg3 (V : Valuation τ sig (Elt F)) :
    StableHlo.after hostOps2 V (Proc.devRef .tc main_arg3) = V (Proc.devRef .tc main_arg3) := tail_of V main_arg3 (by decide)
theorem tail_arg4 (V : Valuation τ sig (Elt F)) :
    StableHlo.after hostOps2 V (Proc.devRef .tc main_arg4) = V (Proc.devRef .tc main_arg4) := tail_of V main_arg4 (by decide)

/-- A valuation with the second region's output array at contents Y, and what the stretch leaves of it at a reference
    that is neither that array nor the result array: what the valuation gave it before. -/
abbrev withOut (W : Valuation τ sig (Elt F)) (Y : (Proc.devRef (τ := τ) .tc main_v11 : DevRef τ sig).ty.Contents (Elt F)) : Valuation τ sig (Elt F) :=
  Function.update W (Proc.devRef .tc main_v11) Y

theorem tail_withOut_of (W : Valuation τ sig (Elt F)) (Y) (r : Ref sig .tc) (h : r ∉ hostOps2_W) (h' : r ≠ main_v11) :
    StableHlo.after hostOps2 (withOut W Y) (Proc.devRef .tc r) = W (Proc.devRef .tc r) :=
  (tail_of _ r h).trans (Function.update_of_ne (StableHlo.devRef_ne_of_ne h') _ _)

/-! ## The stretch as a segment -/

section Seg

variable {Ix : Type} [DecidableEq Ix] {U : Type} [URA U] {Lvl : Type} [Preorder Lvl]
variable (𝒱₀ : Variants) (L : GSem nD τ sig → Finset Ix) (lv : GSem nD τ sig → Ix → Lvl)
variable {X : Dev nD → Type} (Wx : (c : Dev nD) → X c → Valuation τ sig (Elt F)) (E : Dev nD → sProp (MT nD τ sig Ix (Elt F) ℕ U Lvl))

/-- The stretch at a fixed value of the unknown: the line of operations over the unscoped buffers from that valuation. -/
def tailAt (c : Dev nD) (x : X c) :
    HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun _ => Wx c x) E

theorem tailAt_pre (c : Dev nD) (x : X c) : (tailAt 𝒱₀ L lv Wx E c x).pre c
    = iprop(StableHlo.held (c : Thread nD τ) (Pipeline.ucRefs τ sig) (Wx c x) ∗ E c) := rfl
theorem tailAt_post (c : Dev nD) (x : X c) : (tailAt 𝒱₀ L lv Wx E c x).post c
    = iprop(StableHlo.held (c : Thread nD τ) (Pipeline.ucRefs τ sig) (StableHlo.after hostOps2 (Wx c x)) ∗ E c) := rfl

/-- The stretch, from and to states that bind the unknown existentially. -/
def tailSeg : HostSeg (Ix := Ix) (Name := ℕ) (U := U) (Lvl := Lvl) (pcfgs (F := F)) defs₀ 𝒱₀ L lv where
  prog := StableHlo.seq hostOps2
  pre c := iprop(∃ x : X c, StableHlo.held (c : Thread nD τ) (Pipeline.ucRefs τ sig) (Wx c x) ∗ E c)
  post c := iprop(∃ x : X c, StableHlo.held (c : Thread nD τ) (Pipeline.ucRefs τ sig) (StableHlo.after hostOps2 (Wx c x)) ∗ E c)
  run c {β} k K := by
    iintro ⟨Hk, Hbd, HX, Hlev⟩
    icases HX with ⟨%x, Hh, HE⟩
    have h := (tailAt 𝒱₀ L lv Wx E c x).run c k K
    rw [tailAt_pre, tailAt_post] at h
    iapply h
    isplitl [Hk]
    · iintro ⟨Hbd, Hh, HE⟩
      iapply Hk
      isplitl [Hbd]; · iexact Hbd
      iexists x
      isplitl [Hh] <;> iassumption
    isplitl [Hbd]; · iexact Hbd
    isplitr [Hlev]
    · isplitl [Hh] <;> iassumption
    iexact Hlev

theorem tailSeg_prog : (tailSeg 𝒱₀ L lv Wx E).prog = StableHlo.seq hostOps2 := rfl
theorem tailSeg_pre (c : Dev nD) : (tailSeg 𝒱₀ L lv Wx E).pre c
    = iprop(∃ x : X c, StableHlo.held (c : Thread nD τ) (Pipeline.ucRefs τ sig) (Wx c x) ∗ E c) := rfl
theorem tailSeg_post (c : Dev nD) : (tailSeg 𝒱₀ L lv Wx E).post c
    = iprop(∃ x : X c, StableHlo.held (c : Thread nD τ) (Pipeline.ucRefs τ sig) (StableHlo.after hostOps2 (Wx c x)) ∗ E c) := rfl

end Seg

end Cert.Kernel.Hand

end
-- ==== Proof.K.Frame.lean ====
/-
  The frame of the word-level program: from any launch memory with zero counters every weakly fair execution
  of @main terminates, faults nowhere, and leaves the five argument arrays as launched.

  @main is four items: a host stretch (the scales, x reshaped and narrowed), the dequantization call, the
  matrix-product call, and a host stretch (one reshape of the product). The buffers' contents are followed from
  item to item. Region 0's proof data name what every window holds after the body, so after it the contents are a
  closed function of the launch memory. Region 1's cannot: its weight window overhangs the matrix on the last
  block row, the staging rows past the matrix's end hold words nothing names, and at the word level a product
  entry is a function of the whole right tile. Its output window is therefore forgotten (the body may find
  anything there and leave anything), and after it the thread state says only that region 1's three arrays
  hold SOME contents, every other buffer being as region 1 found it. The last host stretch runs from that
  state, and an argument array, which is no array of region 1 and which no host operation writes, is read off
  the last valuation at its launch contents whatever those unnamed contents are.
-/
import proofs.«420805_j11192684773386_3_alg».proof.Proof.K.R0Body
import proofs.«420805_j11192684773386_3_alg».proof.Proof.K.R1Body
import proofs.«420805_j11192684773386_3_alg».proof.Proof.K.TailSeg
import proofs.«420805_j11192684773386_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the run -/

/-- Core `c`'s buffers as region 0 finds them (the launch contents after the first host stretch), read at the
    TensorCore's references. -/
abbrev R1v : (c : Dev nD) → (b : Ref sig .tc) → Buf (Elt F) ((c : Thread nD τ).loc b) := fun c b => V1 m c b

/-- At region 0's exit: its arrays at what its write-backs leave, every other buffer as entered. -/
def E2 (c : Dev nD) : Valuation τ sig (Elt F) :=
  Pipeline.withArrays spec0 c (V1 m c) fun w => (dat0 (R1v m) c).arrAt w cfg0.N
theorem E2_arr (c : Dev nD) (w : Fin cfg0.W) :
    E2 m c (Proc.devRef .tc (Pipeline.arrRef spec0 w)) = (dat0 (R1v m) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m c (Proc.devRef .tc b) = V1 m c (Proc.devRef .tc b) := by
  unfold E2; exact Pipeline.withArrays_of_ne spec0 c _ _ b hb
/-- The same read at the TensorCore's references: what region 1 finds. -/
abbrev R2v : (c : Dev nD) → (b : Ref sig .tc) → Buf (Elt F) ((c : Thread nD τ).loc b) := fun c b => E2 m c b
theorem hF0 (c : Dev nD) (w : Fin cfg0.W) : (dat0 (R1v m) c).arrAt w cfg0.N = R2v m c (Pipeline.arrRef spec0 w) :=
  (E2_arr m c w).symm
theorem hrest0 (c : Dev nD) : ∀ b, b ∉ Finset.univ.image (Pipeline.arrRef spec0) → R2v m c b = R1v m c b :=
  fun b hb => E2_of_ne m c b fun w e => hb (Finset.mem_image.mpr ⟨w, Finset.mem_univ _, e⟩)

/-- At region 1's exit, if its three arrays then hold `A`: those, every other buffer as entered. The run does not
    name `A`: the thread state after region 1 says there IS such an `A`. -/
def E3 (c : Dev nD) (A : (w : Fin 3) → Buf (Elt F) ((spec1 w).arr.view.loc (c.tc : Thread nD τ))) : Valuation τ sig (Elt F) :=
  Pipeline.withArrays spec1 c (E2 m c) A
theorem E3_arr (c : Dev nD) (A) (w : Fin 3) : E3 m c A (Proc.devRef .tc (Pipeline.arrRef spec1 w)) = A w := by
  unfold E3; exact Pipeline.withArrays_arr spec1 launch1.win.arr_inj c _ _ w
theorem E3_of_ne (c : Dev nD) (A) (b : Ref sig .tc) (hb : ∀ w, Pipeline.arrRef spec1 w ≠ b) :
    E3 m c A (Proc.devRef .tc b) = E2 m c (Proc.devRef .tc b) := by
  unfold E3; exact Pipeline.withArrays_of_ne spec1 c _ _ b hb
/-- After the last host stretch. -/
abbrev E4 (c : Dev nD) (A : (w : Fin 3) → Buf (Elt F) ((spec1 w).arr.view.loc (c.tc : Thread nD τ))) : Valuation τ sig (Elt F) :=
  StableHlo.after hostOps2 (E3 m c A)

/-! ### The arguments end as launched, whatever region 1 leaves in its arrays -/

/-- A buffer that is no array of either region and that no host stretch writes holds its launch contents at the end. -/
theorem E4_bypass (c : Dev nD) (A) (r : Ref sig .tc) (h2 : r ∉ hostOps2_W) (h1 : ∀ w, Pipeline.arrRef spec1 w ≠ r)
    (h0 : ∀ w, Pipeline.arrRef spec0 w ≠ r) (hh : r ∉ hostOps0_W) :
    E4 m c A (Proc.devRef .tc r) = m ((c : Thread nD τ).loc r) :=
  (StableHlo.after_of_writes_sub hostOps2 _ hostOps2_writes h2).trans <|
    (E3_of_ne m c A r h1).trans <| (E2_of_ne m c r h0).trans <| (V1_of m c r hh).trans rfl

theorem E4_main_arg0 (c : Dev nD) (A) : E4 m c A (Proc.devRef .tc main_arg0) = m ((c : Thread nD τ).loc main_arg0) :=
  E4_bypass m c A main_arg0 (by decide) (by decide) (by decide) (by decide)
theorem E4_main_arg2 (c : Dev nD) (A) : E4 m c A (Proc.devRef .tc main_arg2) = m ((c : Thread nD τ).loc main_arg2) :=
  E4_bypass m c A main_arg2 (by decide) (by decide) (by decide) (by decide)
theorem E4_main_arg3 (c : Dev nD) (A) : E4 m c A (Proc.devRef .tc main_arg3) = m ((c : Thread nD τ).loc main_arg3) :=
  E4_bypass m c A main_arg3 (by decide) (by decide) (by decide) (by decide)
theorem E4_main_arg4 (c : Dev nD) (A) : E4 m c A (Proc.devRef .tc main_arg4) = m ((c : Thread nD τ).loc main_arg4) :=
  E4_bypass m c A main_arg4 (by decide) (by decide) (by decide) (by decide)
/-- The stored words are region 0's first input array: read, never written back. -/
theorem E4_main_arg1 (c : Dev nD) (A) : E4 m c A (Proc.devRef .tc main_arg1) = m ((c : Thread nD τ).loc main_arg1) :=
  (StableHlo.after_of_writes_sub hostOps2 _ hostOps2_writes (by decide)).trans <|
    (E3_of_ne m c A main_arg1 (by decide)).trans <|
      ((E2_arr m c 0).trans (((dat0 (R1v m) c).arrAt_in 0 rfl _).trans (A_eq0 (R1v m) c 0))).trans <|
        (V1_of m c main_arg1 (by decide)).trans rfl

/-! ## The proof data family and the thread state -/

/-- Every pipeline's proof data as RELATIONAL data, each at its region's entry contents: region 0's names what every
    window holds after the body; region 1's names its two inputs and says nothing of what the body leaves in the
    output window (at the word level the product's value on the in-range columns may depend on staging rows nothing
    names, so no closed form of it exists before the run). -/
def rdats : (p : Fin 2) → (c : Dev nD) → RDat τ (Elt F) Unit ℕ (UR sig nD τ) ℕ (Pipeline.pin (pcfgs (F := F)) adm p) c
  | ⟨0, _⟩ => fun c => (dat0 (R1v m) c).toR
  | ⟨1, _⟩ => fun c => (dat1 (R2v m) c).toRForget fgt1
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-- The first host stretch as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- The last thread state without the `owes`: every unscoped buffer at the last boundary's contents for SOME contents
    of region 1's arrays, the generator register at some state. -/
abbrev Tₙ (c : Dev nD) : sProp 𝕄 :=
  iprop(∃ A, StableHlo.held (c : Thread nD τ) (Pipeline.ucRefs τ sig) (E4 m c A) ∗ ∃ r, prngReg c r)

/-- A region's arrays and the unscoped rest put back together as the core's unscoped buffers, for relational proof data:
    at any valuation `V'` that has the arrays at `Fa` and agrees with `V` off them. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (hshare : ∀ w, (rdats m p c).share w = fullShare)
    (V V' : (b : Ref sig .tc) → Buf (Elt F) ((c.tc : Thread nD τ).loc b))
    (Fa : (w : Fin (Pipeline.pin (pcfgs (F := F)) adm p).W) → Buf (Elt F) (((Pipeline.pin (pcfgs (F := F)) adm p).spec w).arr.view.loc (c.tc : Thread nD τ)))
    (hF : ∀ w, Fa w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats m p c).arrays Fa ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats m) p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

set_option backward.isDefEq.respectTransparency.types false in
/-- REGION 0 (the dequantization call): entered from every unscoped buffer at the contents after the first host
    stretch, left with its arrays at what its write-backs leave. Exact data read relationally. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1v m) c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (E2 m c) ∗ R c)
  X c := iprop(∃ r, prngReg c r)
  Y c := iprop(∃ r, prngReg c r)
  Z c := Pipeline.unscopedRest (Ix := Unit) (Name := ℕ) (U := UR sig nD τ) (Lvl := ℕ) spec0 c (R1v m c)
  hentry c := by
    rw [Pipeline.ownSems0_none]
    have hsplit := Pipeline.RDat.arrays_of_unscopedBufs (p := 0) (pcfgs (F := F)) adm (rdats m) launch0.win launch0.arr_whole c
      ((dat0 (R1v m) c).share_full fun _ => rfl) (R1v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (R1v m) c).arrays ((dat0 (R1v m) c).arrAt · cfg0.N)
          ∗ Pipeline.unscopedRest (Ix := Unit) (Name := ℕ) (U := UR sig nD τ) (Lvl := ℕ) spec0 c (R1v m c))
        ⊢ (unscopedBufs c (R2v m c) : sProp 𝕄) :=
      unscopedBufs_of_arraysR m (p := 0) launch0.win launch0.arr_whole c
        ((dat0 (R1v m) c).share_full fun _ => rfl)
        (R1v m c) (R2v m c) ((dat0 (R1v m) c).arrAt · cfg0.N) (hF0 m c) (hrest0 m c)
    rw [Pipeline.unscopedBufs_held] at hjoin
    refine (sep_mono (Entails.of_eq ((dat0 (R1v m) c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 1 (the matrix-product call): entered from every unscoped buffer at region 0's leavings; left with its three
    arrays at SOME contents (`E3` at an `A` the exit finds, not one named before the run), every other buffer as
    entered. Its output window is forgotten: the body is handed that buffer at any contents and hands it back at any. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R2v m) c).toRForget
  hwaits := Pipeline.RDat.hwaits_of_owed_zero _ _ _ _ L lv 1 fun _ _ => rfl
  pre c := iprop(StableHlo.held (c : Thread nD τ) (Pipeline.ucRefs τ sig) (E2 m c) ∗ R c)
  post c := iprop(∃ A, StableHlo.held (c : Thread nD τ) (Pipeline.ucRefs τ sig) (E3 m c A) ∗ R c)
  X c := iprop(∃ r, prngReg c r)
  Y c := iprop(∃ r, prngReg c r)
  Z c := Pipeline.unscopedRest (Ix := Unit) (Name := ℕ) (U := UR sig nD τ) (Lvl := ℕ) spec1 c (R2v m c)
  hentry c := by
    rw [Pipeline.ownSems0_none]
    have hsplit := Pipeline.RDat.arrays_of_unscopedBufs (p := 1) (pcfgs (F := F)) adm (rdats m) launch1.win launch1.arr_whole c
      ((dat1 (R2v m) c).share_full fun _ => rfl) (R2v m c) fun w => A_eq1 (R2v m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : ∀ A : (w : Fin 3) → Buf (Elt F) ((spec1 w).arr.view.loc (c.tc : Thread nD τ)),
        iprop((rdats m 1 c).arrays A
          ∗ Pipeline.unscopedRest (Ix := Unit) (Name := ℕ) (U := UR sig nD τ) (Lvl := ℕ) spec1 c (R2v m c))
        ⊢ (StableHlo.held (c : Thread nD τ) (Pipeline.ucRefs τ sig) (E3 m c A) : sProp 𝕄) := fun A => by
      have h := unscopedBufs_of_arraysR m (p := 1) launch1.win launch1.arr_whole c
        ((dat1 (R2v m) c).share_full fun _ => rfl)
        (R2v m c) (fun b => E3 m c A b) A (fun w => (E3_arr m c A w).symm)
        (fun b hb => E3_of_ne m c A b fun w e => hb (Finset.mem_image.mpr ⟨w, Finset.mem_univ _, e⟩))
      rw [Pipeline.unscopedBufs_held] at h
      exact h
    unfold Pipeline.RDat.arraysAt
    iintro ⟨Ha, HO, HY, Hrest⟩
    ihave Ha' := (BI.bigSep_exists_pi Finset.univ (fun w G => iprop(⌜(rdats m 1 c).ArrAt w cfg1.N G⌝
        ∗ (cfg1.win w).arr.view.loc (c.tc : Thread nD τ) ↦[(cfg1.win w).arr.view.set]{(rdats m 1 c).share w} G))) $$ Ha
    icases Ha' with ⟨%A, Ha⟩
    ihave Ha2 := (BI.bigSep_pure_sep Finset.univ (fun w => (rdats m 1 c).ArrAt w cfg1.N (A w))
        (fun w => (cfg1.win w).arr.view.loc (c.tc : Thread nD τ) ↦[(cfg1.win w).arr.view.set]{(rdats m 1 c).share w} A w)) $$ Ha
    icases Ha2 with ⟨-, Ha⟩
    imodintro
    iexists A
    isplitl [Ha Hrest]
    · iapply (hjoin A)
      isplitl [Ha]
      · unfold Pipeline.RDat.arrays; iexact Ha
      · iexact Hrest
    isplitl [HY]; · iexact HY
    unfold Pipeline.RDat.owesAt Pipeline.owesWithin
    icases HO with ⟨%W, -, HO⟩; iexists W; iexact HO

/-! ## @main as segments, and the launch -/

/-- @main's 4 segments in order: the first host stretch from the launch contents, the two regions, and the last host
    stretch from region 1's thread state — existential in what region 1's arrays hold. -/
abbrev segs : List (Pipeline.RDat.Seg (pcfgs (F := F)) adm (rdats m) () defs₀ 𝒱₀ L lv) :=
  [ .host (hseg0 m),
    .region (reg0 m),
    .region (reg1 m),
    .host (tailSeg (Ix := Unit) (U := UR sig nD τ) (Lvl := ℕ) 𝒱₀ L lv (fun c A => E3 m c A) R) ]

/-- @main IS the run of the segments. -/
theorem main_run (c : Dev nD) : main (F := F) c = Pipeline.RDat.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE FRAME of the word-level program, at any float family: from any memory with zero counters every weakly fair
    execution of @main terminates, nothing faulting, and every final state holds the five argument arrays as launched.
    The launch over the four segments; the last thread state, opened at whatever region 1 left in its arrays, read
    against the final state; each argument read off the last valuation, which at an argument is the launch memory
    whatever those contents are. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun c => by
      refine (Entails.of_eq (tailSeg_post 𝒱₀ L lv (fun c A => E3 m c A) R c)).trans ?_
      iintro ⟨%A, Hh, Hp, HO⟩
      isplitr [HO]
      · iexists A; isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      iintro ⟨⟨%A, Hh, -⟩, HSI⟩
      unfold StableHlo.held
      ihave Hr := (pointsTo_read_all (Pipeline.ucRefs τ sig) (fun b => ((c : Thread nD τ).1, b)) (E4 m c A) s') $$ [Hh HSI]
      · isplitl [Hh] <;> iassumption
      icases Hr with ⟨%h, HSI⟩
      imodintro
      isplitr
      · ipureintro
        exact ⟨(h _ (mem_uc main_arg0 (by decide))).trans (E4_main_arg0 m c A),
          (h _ (mem_uc main_arg1 (by decide))).trans (E4_main_arg1 m c A),
          (h _ (mem_uc main_arg2 (by decide))).trans (E4_main_arg2 m c A),
          (h _ (mem_uc main_arg3 (by decide))).trans (E4_main_arg3 m c A),
          (h _ (mem_uc main_arg4 (by decide))).trans (E4_main_arg4 m c A)⟩
      · iexact HSI)
    (hQ := fun _ h => h)

end Cert.Kernel.Hand

end
-- ==== Proof.lean ====
/-
  The certificate of the NF4 linear layer: the Pallas kernel program against its jnp reference.

  Both programs dequantize a four-bit weight matrix (a sixteen-entry code table, one scale per block of
  sixty-four weights, the scales themselves stored as integers over a per-group factor plus a mean) and
  multiply x by it. The claim is stated under the precondition that the float inputs are finite and that
  every stored code word, read as a signed integer, lies in [-16, 16): exactly the words at which the
  reference's table lookup is in range (a negative index counts from the table's end). On that range the
  reference's normalised index and the kernel's low four bits are the same code, so the two weight
  matrices agree entry by entry; the kernel's sixteen partial products over blocks of 256 columns regroup
  the reference's one sum over 4096 columns, which on the extended reals needs only commutativity and
  associativity of addition, so finiteness is never used.

  The pieces: the reference's run and value (Ref/), the precondition read back (PreRange), the idealized
  kernel's two calls with their proof data, body obligations, run and array values (KI/), the word-level
  kernel's frame (K/), and the specification both sides meet (Spec).
-/
import proofs.«420805_j11192684773386_3_alg».proof.Defs
import proofs.«420805_j11192684773386_3_alg».proof.Proof.Gen.Kernel
import proofs.«420805_j11192684773386_3_alg».proof.Proof.Gen.KernelIdeal
import proofs.«420805_j11192684773386_3_alg».proof.Proof.Gen.ReferenceIdeal
import proofs.«420805_j11192684773386_3_alg».proof.Proof.Gen.Pre_finite_inputs
import proofs.«420805_j11192684773386_3_alg».proof.Proof.Spec
import proofs.«420805_j11192684773386_3_alg».proof.Proof.PreRange
import proofs.«420805_j11192684773386_3_alg».proof.Proof.Ref.Run
import proofs.«420805_j11192684773386_3_alg».proof.Proof.Ref.Value
import proofs.«420805_j11192684773386_3_alg».proof.Proof.KI.Run
import proofs.«420805_j11192684773386_3_alg».proof.Proof.KI.Bridge
import proofs.«420805_j11192684773386_3_alg».proof.Proof.K.Frame
import Idealize.ShloMosaic.Adequacy
import Idealize.ShloMosaic.Init

noncomputable section

namespace Cert.Proof

open Idealize.ShloMosaic Idealize.SL.Sem

/-- The idealized kernel program runs to the specification of its arguments and leaves them unchanged: the
    run's last valuation read at the result buffer and at each argument. -/
theorem kernelIdeal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (Cert.KernelIdeal.Hand.run_main m g).mono fun r h c =>
    ⟨(h c _ Cert.KernelIdeal.Hand.mem_uc_v12).trans (Cert.KernelIdeal.Hand.result_eq m g c),
      (h c _ Cert.KernelIdeal.Hand.mem_uc_arg0).trans (Cert.KernelIdeal.Hand.W4_main_arg0 m g c),
      (h c _ Cert.KernelIdeal.Hand.mem_uc_arg1).trans (Cert.KernelIdeal.Hand.W4_main_arg1 m g c),
      (h c _ Cert.KernelIdeal.Hand.mem_uc_arg2).trans (Cert.KernelIdeal.Hand.W4_main_arg2 m g c),
      (h c _ Cert.KernelIdeal.Hand.mem_uc_arg3).trans (Cert.KernelIdeal.Hand.W4_main_arg3 m g c),
      (h c _ Cert.KernelIdeal.Hand.mem_uc_arg4).trans (Cert.KernelIdeal.Hand.W4_main_arg4 m g c)⟩

/-- The word-level kernel program terminates, faults nowhere and leaves its arguments unchanged. -/
theorem frame_Kernel : Cert.frame_Kernel (hKernel := Cert.Kernel.Gen.facts) (hPre_finite_inputs := Cert.Pre_finite_inputs.Gen.facts) :=
  fun m g _ => Cert.Kernel.Hand.frame m g

/-- So does the idealized kernel program: its run with the result dropped. -/
theorem frame_KernelIdeal : Cert.frame_KernelIdeal (hKernelIdeal := Cert.KernelIdeal.Gen.facts) (hPre_finite_inputs := Cert.Pre_finite_inputs.Gen.facts) :=
  fun m g _ => (kernelIdeal_run m g).mono fun r h c => (h c).2

/-- And the reference: its run with the result dropped. -/
theorem frame_ReferenceIdeal : Cert.frame_ReferenceIdeal (hReferenceIdeal := Cert.ReferenceIdeal.Gen.facts) (hPre_finite_inputs := Cert.Pre_finite_inputs.Gen.facts) :=
  fun m g _ => (Cert.ReferenceIdeal.RefValue.run m g).mono fun r h c => (h c).2

/-- From memories agreeing on the arguments both idealized programs end at the specification of those
    arguments: the kernel's run as it is, the reference's run read at the kernel's arguments (they agree) and, the
    stored words being in range under the precondition, equal to the specification. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), kernelIdeal_run m g, ?_⟩
  refine (Cert.ReferenceIdeal.RefValue.run m' g').mono fun r h c => ⟨?_, (h c).2⟩
  rw [(h c).1, (hagree c).1, (hagree c).2.1, (hagree c).2.2.1, (hagree c).2.2.2.1, (hagree c).2.2.2.2]
  exact Cert.ReferenceIdeal.RefValue.refOut_eq_G _ _ _ _ _ (Cert.PreRange.q_range (F := Ideal) _ _ _ _ _ (hpre c))

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
